-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x60 : S_.BroadcastsInDim S1433x60 (![] : Fin 0 → Fin S1433x60.rank)
  reducesTo_S1433x60_S_d0_1 : S1433x60.ReducesTo [0, 1] S_
  bcast_S_S60 : S_.BroadcastsInDim S60 (![] : Fin 0 → Fin S60.rank)
  reducesTo_S60_S_d0 : S60.ReducesTo [0] S_
  bcast_S_S60x30 : S_.BroadcastsInDim S60x30 (![] : Fin 0 → Fin S60x30.rank)
  reducesTo_S60x30_S_d0_1 : S60x30.ReducesTo [0, 1] S_
  bcast_S_S30 : S_.BroadcastsInDim S30 (![] : Fin 0 → Fin S30.rank)
  reducesTo_S30_S_d0 : S30.ReducesTo [0] S_
  bcast_S_S30x7 : S_.BroadcastsInDim S30x7 (![] : Fin 0 → Fin S30x7.rank)
  reducesTo_S30x7_S_d0_1 : S30x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S60x30 .f32) (main_arg5 : FVec F S30 .f32) (main_arg6 : FVec F S30x7 .f32) (main_arg7 : FVec F S7 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x30 .f32 := Host.absf main_arg4
  let main_cst_6 : FVec F S_ .f32 := constant S_ .f32 0x7F800000#32
  let main_v20 : FVec F S60x30 .f32 := broadcastInDim S60x30 ![] bcast_S_S60x30 main_cst_6
  let main_v21 : IVec S60x30 1 := cmpf .olt main_v19 main_v20
  let main_c_7 : IVec S_ 1 := constantI S_ 1 1#1
  let main_v22 : IVec S_ 1 := (fun x v => Host.reduce IntOp.andi x v reducesTo_S60x30_S_d0_1 h_S_) main_v21 main_c_7
  let main_v23 : IVec S_ 1 := andi main_v18 main_v22
  let main_v24 : FVec F S30 .f32 := Host.absf main_arg5
  let main_cst_8 : FVec F S_ .f32 := constant S_ .f32 0x7F800000#32
  let main_v25 : FVec F S30 .f32 := broadcastInDim S30 ![] bcast_S_S30 main_cst_8
  let main_v26 : IVec S30 1 := cmpf .olt main_v24 main_v25
  let main_c_9 : IVec S_ 1 := constantI S_ 1 1#1
  let main_v27 : IVec S_ 1 := (fun x v => Host.reduce IntOp.andi x v reducesTo_S30_S_d0 h_S_) main_v26 main_c_9
  let main_v28 : IVec S_ 1 := andi main_v23 main_v27
  let main_v29 : FVec F S30x7 .f32 := Host.absf main_arg6
  let main_cst_10 : FVec F S_ .f32 := constant S_ .f32 0x7F800000#32
  let main_v30 : FVec F S30x7 .f32 := broadcastInDim S30x7 ![] bcast_S_S30x7 main_cst_10
  let main_v31 : IVec S30x7 1 := cmpf .olt main_v29 main_v30
  let main_c_11 : IVec S_ 1 := constantI S_ 1 1#1
  let main_v32 : IVec S_ 1 := (fun x v => Host.reduce IntOp.andi x v reducesTo_S30x7_S_d0_1 h_S_) main_v31 main_c_11
  let main_v33 : IVec S_ 1 := andi main_v28 main_v32
  fn_part2 (F := F) main_arg7 main_v33

def fn {F : FTy → Type} [FloatOps F] (main_arg0 : FVec F S10000x1433 .f32) (main_arg1 : FVec F S10000x10000 .f32) (main_arg2 : FVec F S1433x60 .f32) (main_arg3 : FVec F S60 .f32) (main_arg4 : FVec F S60x30 .f32) (main_arg5 : FVec F S30 .f32) (main_arg6 : FVec F S30x7 .f32) (main_arg7 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x60 .f32 := Host.absf main_arg2
  let main_cst_2 : FVec F S_ .f32 := constant S_ .f32 0x7F800000#32
  let main_v10 : FVec F S1433x60 .f32 := broadcastInDim S1433x60 ![] bcast_S_S1433x60 main_cst_2
  let main_v11 : IVec S1433x60 1 := cmpf .olt main_v9 main_v10
  let main_c_3 : IVec S_ 1 := constantI S_ 1 1#1
  let main_v12 : IVec S_ 1 := (fun x v => Host.reduce IntOp.andi x v reducesTo_S1433x60_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_arg6 main_arg7 main_v13 main_v16
-- ==== Kernel.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S1x60 : Shape := ⟨2, ![1, 60]⟩
abbrev S1x30 : Shape := ⟨2, ![1, 30]⟩
abbrev S1x7 : Shape := ⟨2, ![1, 7]⟩
abbrev S1433x10000 : Shape := ⟨2, ![1433, 10000]⟩
abbrev S_ : Shape := ⟨0, ![]⟩
abbrev S1536x10000 : Shape := ⟨2, ![1536, 10000]⟩
abbrev S1536x60 : Shape := ⟨2, ![1536, 60]⟩
abbrev S10000x60 : Shape := ⟨2, ![10000, 60]⟩
abbrev S128x10000 : Shape := ⟨2, ![128, 10000]⟩
abbrev S128x60 : Shape := ⟨2, ![128, 60]⟩
abbrev S10000x7 : Shape := ⟨2, ![10000, 7]⟩
abbrev S400x10000 : Shape := ⟨2, ![400, 10000]⟩
abbrev S400x7 : Shape := ⟨2, ![400, 7]⟩
abbrev S400x60 : Shape := ⟨2, ![400, 60]⟩
abbrev S400x30 : Shape := ⟨2, ![400, 30]⟩
abbrev S1000x10000 : Shape := ⟨2, ![1000, 10000]⟩
abbrev S1000x7 : Shape := ⟨2, ![1000, 7]⟩
abbrev S1000 : Shape := ⟨1, ![1000]⟩
abbrev S1000x1 : Shape := ⟨2, ![1000, 1]⟩

abbrev nBuf : Space → Nat
  | .hbm => 23
  | .vmem => 29
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x60, .f32⟩
  | .hbm, ⟨3, _⟩ => ⟨S60, .f32⟩
  | .hbm, ⟨4, _⟩ => ⟨S60x30, .f32⟩
  | .hbm, ⟨5, _⟩ => ⟨S30, .f32⟩
  | .hbm, ⟨6, _⟩ => ⟨S30x7, .f32⟩
  | .hbm, ⟨7, _⟩ => ⟨S7, .f32⟩
  | .hbm, ⟨8, _⟩ => ⟨S1x60, .f32⟩
  | .hbm, ⟨9, _⟩ => ⟨S1x30, .f32⟩
  | .hbm, ⟨10, _⟩ => ⟨S1x7, .f32⟩
  | .hbm, ⟨11, _⟩ => ⟨S1433x10000, .f32⟩
  | .hbm, ⟨12, _⟩ => ⟨S_, .i32⟩
  | .hbm, ⟨13, _⟩ => ⟨S_, .f32⟩
  | .hbm, ⟨14, _⟩ => ⟨S1536x10000, .f32⟩
  | .hbm, ⟨15, _⟩ => ⟨S_, .i32⟩
  | .hbm, ⟨16, _⟩ => ⟨S_, .f32⟩
  | .hbm, ⟨17, _⟩ => ⟨S1536x60, .f32⟩
  | .hbm, ⟨18, _⟩ => ⟨S10000x60, .bf16⟩
  | .hbm, ⟨19, _⟩ => ⟨S10000x7, .bf16⟩
  | .hbm, ⟨20, _⟩ => ⟨S10000x10000, .bf16⟩
  | .hbm, ⟨21, _⟩ => ⟨S10000x7, .bf16⟩
  | .hbm, ⟨22, _⟩ => ⟨S10000x7, .f32⟩
  | .local _ .vmem, ⟨0, _⟩ => ⟨S128x10000, .f32⟩
  | .local _ .vmem, ⟨1, _⟩ => ⟨S128x10000, .f32⟩
  | .local _ .vmem, ⟨2, _⟩ => ⟨S128x60, .f32⟩
  | .local _ .vmem, ⟨3, _⟩ => ⟨S128x60, .f32⟩
  | .local _ .vmem, ⟨4, _⟩ => ⟨S10000x60, .bf16⟩
  | .local _ .vmem, ⟨5, _⟩ => ⟨S10000x60, .f32⟩
  | .local _ .vmem, ⟨6, _⟩ => ⟨S400x10000, .f32⟩
  | .local _ .vmem, ⟨7, _⟩ => ⟨S400x10000, .f32⟩
  | .local _ .vmem, ⟨8, _⟩ => ⟨S10000x60, .bf16⟩
  | .local _ .vmem, ⟨9, _⟩ => ⟨S1x60, .f32⟩
  | .local _ .vmem, ⟨10, _⟩ => ⟨S60x30, .f32⟩
  | .local _ .vmem, ⟨11, _⟩ => ⟨S30x7, .f32⟩
  | .local _ .vmem, ⟨12, _⟩ => ⟨S400x7, .bf16⟩
  | .local _ .vmem, ⟨13, _⟩ => ⟨S400x7, .bf16⟩
  | .local _ .vmem, ⟨14, _⟩ => ⟨S400x10000, .bf16⟩
  | .local _ .vmem, ⟨15, _⟩ => ⟨S400x10000, .bf16⟩
  | .local _ .vmem, ⟨16, _⟩ => ⟨S1000x10000, .bf16⟩
  | .local _ .vmem, ⟨17, _⟩ => ⟨S1000x10000, .bf16⟩
  | .local _ .vmem, ⟨18, _⟩ => ⟨S10000x7, .bf16⟩
  | .local _ .vmem, ⟨19, _⟩ => ⟨S1x30, .f32⟩
  | .local _ .vmem, ⟨20, _⟩ => ⟨S30x7, .f32⟩
  | .local _ .vmem, ⟨21, _⟩ => ⟨S1000x7, .bf16⟩
  | .local _ .vmem, ⟨22, _⟩ => ⟨S1000x7, .bf16⟩
  | .local _ .vmem, ⟨23, _⟩ => ⟨S1000x10000, .bf16⟩
  | .local _ .vmem, ⟨24, _⟩ => ⟨S1000x10000, .bf16⟩
  | .local _ .vmem, ⟨25, _⟩ => ⟨S10000x7, .bf16⟩
  | .local _ .vmem, ⟨26, _⟩ => ⟨S1x7, .f32⟩
  | .local _ .vmem, ⟨27, _⟩ => ⟨S1000x7, .f32⟩
  | .local _ .vmem, ⟨28, _⟩ => ⟨S1000x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x60 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x60 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x60 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S60x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S30x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x7 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S30x7 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x7 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x7 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S60_S1x60 : S60.ShapeCasts S1x60
  shapeCasts_S30_S1x30 : S30.ShapeCasts S1x30
  shapeCasts_S7_S1x7 : S7.ShapeCasts S1x7
  transposes_S10000x1433_S1433x10000_1_0 : S10000x1433.Transposes [1, 0] S1433x10000
  pads_S1433x10000_S1536x10000_01030_000 : S1433x10000.Pads (![0, 0] : Fin 2 → Nat) ![103, 0] ![0, 0] S1536x10000
  h_S_ : 0 < S_.numel
  pads_S1433x60_S1536x60_01030_000 : S1433x60.Pads (![0, 0] : Fin 2 → Nat) ![103, 0] ![0, 0] S1536x60
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  bitsLt_bf16_f32 : FTy.bits .bf16 < FTy.bits .f32
  inb_S128x60_S128x60_0_0 : ∀ a, (![0, 0] : Fin 2 → Nat) a + S128x60.size a ≤ S128x60.size a
  h_S128x60 : 0 < S128x60.numel
  shapeCasts_S128x60_S128x60 : S128x60.ShapeCasts S128x60
  inb_S10000x60_S10000x60_0_0 : ∀ a, (![0, 0] : Fin 2 → Nat) a + S10000x60.size a ≤ S10000x60.size a
  h_S10000x60 : 0 < S10000x60.numel
  shapeCasts_S10000x60_S10000x60 : S10000x60.ShapeCasts S10000x60
  packedbf16_S10000x60_S10000x60_0_0 : (Rect.unit (s := S10000x60) ![0, 0] S10000x60.size inb_S10000x60_S10000x60_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S400x60 : S1x60.Broadcasts S400x60
  inb_S60x30_S60x30_0_0 : ∀ a, (![0, 0] : Fin 2 → Nat) a + S60x30.size a ≤ S60x30.size a
  h_S60x30 : 0 < S60x30.numel
  inb_S30x7_S30x7_0_0 : ∀ a, (![0, 0] : Fin 2 → Nat) a + S30x7.size a ≤ S30x7.size a
  h_S30x7 : 0 < S30x7.numel
  inb_S400x7_S400x7_0_0 : ∀ a, (![0, 0] : Fin 2 → Nat) a + S400x7.size a ≤ S400x7.size a
  h_S400x7 : 0 < S400x7.numel
  packedbf16_S400x7_S400x7_0_0 : (Rect.unit (s := S400x7) ![0, 0] S400x7.size inb_S400x7_S400x7_0_0).PackedRows (EltTy.packing .bf16)
  inb_S1x30_S1x30_0_0 : ∀ a, (![0, 0] : Fin 2 → Nat) a + S1x30.size a ≤ S1x30.size a
  h_S1x30 : 0 < S1x30.numel
  shapeCasts_S1x30_S1x30 : S1x30.ShapeCasts S1x30
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  broadcasts_S1x7_S1000x7 : S1x7.Broadcasts S1000x7
  inb_S1000x7_S1000x7_0_0 : ∀ a, (![0, 0] : Fin 2 → Nat) a + S1000x7.size a ≤ S1000x7.size a
  h_S1000x7 : 0 < S1000x7.numel
  packedbf16_S1000x7_S1000x7_0_0 : (Rect.unit (s := S1000x7) ![0, 0] S1000x7.size inb_S1000x7_S1000x7_0_0).PackedRows (EltTy.packing .bf16)
  inb_S1x7_S1x7_0_0 : ∀ a, (![0, 0] : Fin 2 → Nat) a + S1x7.size a ≤ S1x7.size a
  h_S1x7 : 0 < S1x7.numel
  shapeCasts_S1x7_S1x7 : S1x7.ShapeCasts S1x7
  reduces_S1000x7_S1000 : S1000x7.Reduces [1] S1000
  shapeCasts_S1000_S1000x1 : S1000.ShapeCasts S1000x1
  broadcasts_S1000x1_S1000x7 : S1000x1.Broadcasts S1000x7
  dot_S128x10000_S128x60_S10000x60_0_0_1_1_n_n_wf : DotDims.WF S128x10000 S128x60 S10000x60 [0] [0] [1] [1] [] []
  dot_S400x10000_S10000x60_S400x60_1_0_0_1_n_n_wf : DotDims.WF S400x10000 S10000x60 S400x60 [1] [0] [0] [1] [] []
  dot_S400x60_S60x30_S400x30_1_0_0_1_n_n_wf : DotDims.WF S400x60 S60x30 S400x30 [1] [0] [0] [1] [] []
  dot_S400x30_S30x7_S400x7_1_0_0_1_n_n_wf : DotDims.WF S400x30 S30x7 S400x7 [1] [0] [0] [1] [] []
  dot_S1x30_S30x7_S1x7_1_0_0_1_n_n_wf : DotDims.WF S1x30 S30x7 S1x7 [1] [0] [0] [1] [] []
  dot_S1000x10000_S10000x7_S1000x7_1_0_0_1_n_n_wf : DotDims.WF S1000x10000 S10000x7 S1000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S1536x10000.size a
  hwx0_0 : ∀ i : grid0.Coords, EltTy.bits .f32 = 32 ∨ (Rect.block (s := S1536x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x60.size a ≤ S1536x60.size a
  hwx0_1 : ∀ i : grid0.Coords, EltTy.bits .f32 = 32 ∨ (Rect.block (s := S1536x60) S128x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x60.size a ≤ S10000x60.size a
  hwx0_2 : ∀ i : grid0.Coords, EltTy.bits .bf16 = 32 ∨ (Rect.block (s := S10000x60) S10000x60.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x60.size a ≤ S10000x60.size a
  hwx1_1 : ∀ i : grid1.Coords, EltTy.bits .bf16 = 32 ∨ (Rect.block (s := S10000x60) S10000x60.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x60.size a ≤ S1x60.size a
  hwx1_2 : ∀ i : grid1.Coords, EltTy.bits .f32 = 32 ∨ (Rect.block (s := S1x60) S1x60.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S60x30.size a ≤ S60x30.size a
  hwx1_3 : ∀ i : grid1.Coords, EltTy.bits .f32 = 32 ∨ (Rect.block (s := S60x30) S60x30.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S30x7.size a ≤ S30x7.size a
  hwx1_4 : ∀ i : grid1.Coords, EltTy.bits .f32 = 32 ∨ (Rect.block (s := S30x7) S30x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x7.size a ≤ S10000x7.size a
  hwx1_5 : ∀ i : grid1.Coords, EltTy.bits .bf16 = 32 ∨ (Rect.block (s := S10000x7) S400x7.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x10000.size a ≤ S10000x10000.size a
  hwx1_6 : ∀ i : grid1.Coords, EltTy.bits .bf16 = 32 ∨ (Rect.block (s := S10000x10000) S400x10000.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .bf16 = 32 ∨ (Rect.block (s := S10000x7) S10000x7.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x30.size a ≤ S1x30.size a
  hwx2_2 : ∀ i : grid2.Coords, EltTy.bits .f32 = 32 ∨ (Rect.block (s := S1x30) S1x30.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S30x7.size a ≤ S30x7.size a
  hwx2_3 : ∀ i : grid2.Coords, EltTy.bits .f32 = 32 ∨ (Rect.block (s := S30x7) S30x7.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x7.size a ≤ S10000x7.size a
  hwx2_4 : ∀ i : grid2.Coords, EltTy.bits .bf16 = 32 ∨ (Rect.block (s := S10000x7) S1000x7.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x7.size a ≤ S10000x7.size a
  hwx3_1 : ∀ i : grid3.Coords, EltTy.bits .bf16 = 32 ∨ (Rect.block (s := S10000x7) S10000x7.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x7.size a ≤ S10000x7.size a
  hwx3_3 : ∀ i : grid3.Coords, EltTy.bits .f32 = 32 ∨ (Rect.block (s := S10000x7) S1000x7.size (cc3_transform_3 i) (hinb3_3 i)).WholeWords (EltTy.packing .f32)

variable [Facts₀]

def dot_S128x10000_S128x60_S10000x60_0_0_1_1_n_n : DotDims S128x10000 S128x60 S10000x60 where
  lhsContracting := [0]
  rhsContracting := [0]
  lhsNonContracting := [1]
  rhsNonContracting := [1]
  lhsBatch := []
  rhsBatch := []
  wf := dot_S128x10000_S128x60_S10000x60_0_0_1_1_n_n_wf
def dot_S400x10000_S10000x60_S400x60_1_0_0_1_n_n : DotDims S400x10000 S10000x60 S400x60 where
  lhsContracting := [1]
  rhsContracting := [0]
  lhsNonContracting := [0]
  rhsNonContracting := [1]
  lhsBatch := []
  rhsBatch := []
  wf := dot_S400x10000_S10000x60_S400x60_1_0_0_1_n_n_wf
def dot_S400x60_S60x30_S400x30_1_0_0_1_n_n : DotDims S400x60 S60x30 S400x30 where
  lhsContracting := [1]
  rhsContracting := [0]
  lhsNonContracting := [0]
  rhsNonContracting := [1]
  lhsBatch := []
  rhsBatch := []
  wf := dot_S400x60_S60x30_S400x30_1_0_0_1_n_n_wf
def dot_S400x30_S30x7_S400x7_1_0_0_1_n_n : DotDims S400x30 S30x7 S400x7 where
  lhsContracting := [1]
  rhsContracting := [0]
  lhsNonContracting := [0]
  rhsNonContracting := [1]
  lhsBatch := []
  rhsBatch := []
  wf := dot_S400x30_S30x7_S400x7_1_0_0_1_n_n_wf
def dot_S1x30_S30x7_S1x7_1_0_0_1_n_n : DotDims S1x30 S30x7 S1x7 where
  lhsContracting := [1]
  rhsContracting := [0]
  lhsNonContracting := [0]
  rhsNonContracting := [1]
  lhsBatch := []
  rhsBatch := []
  wf := dot_S1x30_S30x7_S1x7_1_0_0_1_n_n_wf
def dot_S1000x10000_S10000x7_S1000x7_1_0_0_1_n_n : DotDims S1000x10000 S10000x7 S1000x7 where
  lhsContracting := [1]
  rhsContracting := [0]
  lhsNonContracting := [0]
  rhsNonContracting := [1]
  lhsBatch := []
  rhsBatch := []
  wf := dot_S1000x10000_S10000x7_S1000x7_1_0_0_1_n_n_wf

abbrev win0_0 : Pipeline.Window sig grid0 :=
  Pipeline.Window.ofSpec (Memref.whole main_v4) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x60.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x60.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x60.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S60x30.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S30x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S400x7.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S400x10000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S30x7.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1000x7.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7_1) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S10000x60 : Shape := ⟨2, ![10000, 60]⟩
abbrev S1x60 : Shape := ⟨2, ![1, 60]⟩
abbrev S_ : Shape := ⟨0, ![]⟩
abbrev S10000x30 : Shape := ⟨2, ![10000, 30]⟩
abbrev S1x30 : Shape := ⟨2, ![1, 30]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x60, .f32⟩
  | .hbm, ⟨3, _⟩ => ⟨S60, .f32⟩
  | .hbm, ⟨4, _⟩ => ⟨S60x30, .f32⟩
  | .hbm, ⟨5, _⟩ => ⟨S30, .f32⟩
  | .hbm, ⟨6, _⟩ => ⟨S30x7, .f32⟩
  | .hbm, ⟨7, _⟩ => ⟨S7, .f32⟩
  | .hbm, ⟨8, _⟩ => ⟨S10000x60, .f32⟩
  | .hbm, ⟨9, _⟩ => ⟨S10000x60, .f32⟩
  | .hbm, ⟨10, _⟩ => ⟨S1x60, .f32⟩
  | .hbm, ⟨11, _⟩ => ⟨S10000x60, .f32⟩
  | .hbm, ⟨12, _⟩ => ⟨S10000x60, .f32⟩
  | .hbm, ⟨13, _⟩ => ⟨S_, .f32⟩
  | .hbm, ⟨14, _⟩ => ⟨S10000x60, .f32⟩
  | .hbm, ⟨15, _⟩ => ⟨S10000x60, .f32⟩
  | .hbm, ⟨16, _⟩ => ⟨S10000x30, .f32⟩
  | .hbm, ⟨17, _⟩ => ⟨S10000x30, .f32⟩
  | .hbm, ⟨18, _⟩ => ⟨S1x30, .f32⟩
  | .hbm, ⟨19, _⟩ => ⟨S10000x30, .f32⟩
  | .hbm, ⟨20, _⟩ => ⟨S10000x30, .f32⟩
  | .hbm, ⟨21, _⟩ => ⟨S10000x7, .f32⟩
  | .hbm, ⟨22, _⟩ => ⟨S10000x7, .f32⟩
  | .hbm, ⟨23, _⟩ => ⟨S1x7, .f32⟩
  | .hbm, ⟨24, _⟩ => ⟨S10000x7, .f32⟩
  | .hbm, ⟨25, _⟩ => ⟨S10000x7, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x7, .f32⟩
  | .hbm, ⟨33, _⟩ => ⟨S10000x7, .f32⟩
  | .hbm, ⟨34, _⟩ => ⟨S10000x7, .f32⟩
  | .hbm, ⟨35, _⟩ => ⟨S_, .f32⟩
  | .hbm, ⟨36, _⟩ => ⟨S10000, .f32⟩
  | .hbm, ⟨37, _⟩ => ⟨S10000x1, .f32⟩
  | .hbm, ⟨38, _⟩ => ⟨S10000x1, .f32⟩
  | .hbm, ⟨39, _⟩ => ⟨S10000x7, .f32⟩
  | .hbm, ⟨40, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v16 : Ref sig .tc := ⟨.hbm, 40, rfl⟩

abbrev nD : Nat := 1
abbrev τ : Topo := Topo.v7x

variable {F : FTy → Type} [FloatOps F]

class Facts₀ : Prop where
  bcast_S60_S1x60_1 : S60.BroadcastsInDim S1x60 (![1] : Fin 1 → Fin S1x60.rank)
  bcast_S1x60_S10000x60_0_1 : S1x60.BroadcastsInDim S10000x60 (![0, 1] : Fin 2 → Fin S10000x60.rank)
  bcast_S_S10000x60 : S_.BroadcastsInDim S10000x60 (![] : Fin 0 → Fin S10000x60.rank)
  bcast_S30_S1x30_1 : S30.BroadcastsInDim S1x30 (![1] : Fin 1 → Fin S1x30.rank)
  bcast_S1x30_S10000x30_0_1 : S1x30.BroadcastsInDim S10000x30 (![0, 1] : Fin 2 → Fin S10000x30.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x60_S10000x60_1_0_0_1_n_n_wf : DotDims.WF S10000x1433 S1433x60 S10000x60 [1] [0] [0] [1] [] []
  dot_S10000x10000_S10000x60_S10000x60_1_0_0_1_n_n_wf : DotDims.WF S10000x10000 S10000x60 S10000x60 [1] [0] [0] [1] [] []
  dot_S10000x60_S60x30_S10000x30_1_0_0_1_n_n_wf : DotDims.WF S10000x60 S60x30 S10000x30 [1] [0] [0] [1] [] []
  dot_S10000x10000_S10000x30_S10000x30_1_0_0_1_n_n_wf : DotDims.WF S10000x10000 S10000x30 S10000x30 [1] [0] [0] [1] [] []
  dot_S10000x30_S30x7_S10000x7_1_0_0_1_n_n_wf : DotDims.WF S10000x30 S30x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x60_S10000x60_1_0_0_1_n_n : DotDims S10000x1433 S1433x60 S10000x60 where
  lhsContracting := [1]
  rhsContracting := [0]
  lhsNonContracting := [0]
  rhsNonContracting := [1]
  lhsBatch := []
  rhsBatch := []
  wf := dot_S10000x1433_S1433x60_S10000x60_1_0_0_1_n_n_wf
def dot_S10000x10000_S10000x60_S10000x60_1_0_0_1_n_n : DotDims S10000x10000 S10000x60 S10000x60 where
  lhsContracting := [1]
  rhsContracting := [0]
  lhsNonContracting := [0]
  rhsNonContracting := [1]
  lhsBatch := []
  rhsBatch := []
  wf := dot_S10000x10000_S10000x60_S10000x60_1_0_0_1_n_n_wf
def dot_S10000x60_S60x30_S10000x30_1_0_0_1_n_n : DotDims S10000x60 S60x30 S10000x30 where
  lhsContracting := [1]
  rhsContracting := [0]
  lhsNonContracting := [0]
  rhsNonContracting := [1]
  lhsBatch := []
  rhsBatch := []
  wf := dot_S10000x60_S60x30_S10000x30_1_0_0_1_n_n_wf
def dot_S10000x10000_S10000x30_S10000x30_1_0_0_1_n_n : DotDims S10000x10000 S10000x30 S10000x30 where
  lhsContracting := [1]
  rhsContracting := [0]
  lhsNonContracting := [0]
  rhsNonContracting := [1]
  lhsBatch := []
  rhsBatch := []
  wf := dot_S10000x10000_S10000x30_S10000x30_1_0_0_1_n_n_wf
def dot_S10000x30_S30x7_S10000x7_1_0_0_1_n_n : DotDims S10000x30 S30x7 S10000x7 where
  lhsContracting := [1]
  rhsContracting := [0]
  lhsNonContracting := [0]
  rhsNonContracting := [1]
  lhsBatch := []
  rhsBatch := []
  wf := dot_S10000x30_S30x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.K.Reg0.lean ====
/-
  The first launch, at any float instance: twelve grid points, each forming the product of a 128×10000 block of the
  (transposed, padded) features with the matching 128×60 block of the first weight matrix, contracted over the 128
  rows. The products are summed in a 10000×60 scratch carried from point to point: the first point stores its product,
  every later point adds its product to what the scratch holds, and the last point stores the scratch, converted to
  bf16, into the one output block.
-/
import proofs.«173976_g38912403702117_cont_8to1_b_1654_12_alg».proof.Proof.Gen.Kernel.Launch
import proofs.«173976_g38912403702117_cont_8to1_b_1654_12_alg».proof.Proof.Gen.Kernel.Skeleton
import proofs.«173976_g38912403702117_cont_8to1_b_1654_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_128x10000 : Rect S128x10000 := Rect.unit (s := S128x10000) ![0, 0] S128x10000.size inb_S128x10000_S128x10000_0_0
abbrev whole0_128x60 : Rect S128x60 := Rect.unit (s := S128x60) ![0, 0] S128x60.size inb_S128x60_S128x60_0_0
abbrev whole0_10000x60 : Rect S10000x60 := Rect.unit (s := S10000x60) ![0, 0] S10000x60.size inb_S10000x60_S10000x60_0_0

/-- The scratch after grid point `n`: the first chunk's product, then each later chunk's product added to what the point before left. -/
def acc0 (c : Dev nD) : (n : ℕ) → n < cfg0.N → Vec F S10000x60 .f32
  | 0, hn => View.canon [⟨whole0_10000x60, k0_pay2 (View.ld (blk0 V c 0 ⟨0, hn⟩) whole0_128x10000) (View.ld (blk0 V c 1 ⟨0, hn⟩) whole0_128x60)⟩]
  | n + 1, hn => View.canon [⟨whole0_10000x60, k0_pay3 (View.ld (blk0 V c 0 ⟨n + 1, hn⟩) whole0_128x10000) (View.ld (blk0 V c 1 ⟨n + 1, hn⟩) whole0_128x60)
      (View.ld (acc0 c n (Nat.lt_of_succ_lt hn)) whole0_10000x60)⟩]

/-- The output block the last point stores: the scratch in the narrower format. -/
def s1Block (acc : Vec F S10000x60 .f32) : Vec F S10000x60 .bf16 :=
  View.canon [⟨whole0_10000x60, k0_pay4 (View.ld acc whole0_10000x60)⟩]

/-! ## The body's three conditions, from the grid coordinate -/

/-- The first conditional's condition: the point is the first. -/
abbrev cond0_1 (i : grid0.Coords) : Prop := (Scalar.cmpi .ne (Scalar.extui (Scalar.cmpi .eq (BitVec.ofNat 32 (i 0).val) 0#32)) 0#32) = 1#1
/-- The second conditional's condition: the point is not the first. -/
abbrev cond0_2 (i : grid0.Coords) : Prop := (Scalar.cmpi .ne (Scalar.extui (Scalar.cmpi .sgt (BitVec.ofNat 32 (i 0).val) 0#32)) 0#32) = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ 0 < t.val :=
  (by decide +kernel : ∀ t : Fin grid0.N, cond0_2 (grid0.coords t) ↔ 0 < t.val)
theorem hcond0_3 : ∀ t : Fin cfg0.N, k0_cond3 (grid0.coords t) = 1#1 ↔ t.val = 11 :=
  (by decide +kernel : ∀ t : Fin grid0.N, k0_cond3 (grid0.coords t) = 1#1 ↔ t.val = 11)
/-- The output window is idle at every point but the last, -/
theorem hidle0_2 : ∀ t : Fin cfg0.N, cfg0.idle (2 : Fin 3) (cfg0.grid.coords t) = true ↔ t.val ≠ 11 :=
  (by decide +kernel : ∀ t : Fin grid0.N, idle0 2 (grid0.coords t) = true ↔ t.val ≠ 11)
/-- and is written back at the last only. -/
theorem hflush0_2 : ∀ t : Fin cfg0.N, (cfg0.win (2 : Fin 3)).flush t = true ↔ t.val = 11 :=
  (by decide +kernel : ∀ t : Fin grid0.N, win0_2.flush t = true ↔ t.val = 11)

/-- One whole-block store covers the block. -/
theorem covers_acc (p : Vec F S10000x60 .f32) (y : S10000x60.Idx) :
    ∃ pc ∈ ([⟨whole0_10000x60, p⟩] : List (View.Piece (Elt F) S10000x60 .f32)), y ∈ pc.1.set :=
  View.cover_of_tiled [⟨whole0_10000x60, p⟩] S10000x60.size (by rfl) y
theorem covers_s1 (p : Vec F S10000x60 .bf16) (y : S10000x60.Idx) :
    ∃ pc ∈ ([⟨whole0_10000x60, p⟩] : List (View.Piece (Elt F) S10000x60 .bf16)), y ∈ pc.1.set :=
  View.cover_of_tiled [⟨whole0_10000x60, p⟩] S10000x60.size (by rfl) y

/-- The zero offsets of a whole 10000×60 block. -/
theorem hz0 : (![0, 0] : Fin S10000x60.rank → ℕ) = fun _ => 0 := by
  funext a; fin_cases a <;> rfl

set_option maxHeartbeats 2000000 in
/-- At the first point: the scratch, at anything, is left at the blocks' product, the output's buffer untouched. -/
theorem body0_first (c : Dev nD) (E : Set ℕ) (i : grid0.Coords) (h1 : cond0_1 i) (h2 : ¬ cond0_2 i) (h3 : ¬ k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare d
            ∗ owns (c : Thread nD τ) arg4 fullShare (View.canon [⟨whole0_10000x60, k0_pay2 (View.ld a whole0_128x10000) (View.ld b whole0_128x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_acc _)

set_option maxHeartbeats 2000000 in
/-- At a point that is neither the first nor the last: the scratch at `x` is left at `x` plus the blocks' product, the
    output's buffer untouched. -/
theorem body0_mid (c : Dev nD) (E : Set ℕ) (i : grid0.Coords) (h1 : ¬ cond0_1 i) (h2 : cond0_2 i) (h3 : ¬ k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare d
            ∗ owns (c : Thread nD τ) arg4 fullShare (View.canon [⟨whole0_10000x60, k0_pay3 (View.ld a whole0_128x10000) (View.ld b whole0_128x60) (View.ld x whole0_10000x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_acc _)

set_option maxHeartbeats 2000000 in
/-- At the last point: the scratch at `x` is left at `x` plus the blocks' product, and the output's buffer at that sum
    in the narrower format. -/
theorem body0_last (c : Dev nD) (E : Set ℕ) (i : grid0.Coords) (h1 : ¬ cond0_1 i) (h2 : cond0_2 i) (h3 : k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare
                (s1Block (View.canon [⟨whole0_10000x60, k0_pay3 (View.ld a whole0_128x10000) (View.ld b whole0_128x60) (View.ld x whole0_10000x60)⟩]))
            ∗ owns (c : Thread nD τ) arg4 fullShare (View.canon [⟨whole0_10000x60, k0_pay3 (View.ld a whole0_128x10000) (View.ld b whole0_128x60) (View.ld x whole0_10000x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (covers_s1 _)]
    unfold s1Block
    sl_unfold_run_names
    simp only [View.readAt_eq_ld, View.readCov_unit_zero (S := S10000x60) _ hz0, View.canon_unit_zero (S := S10000x60) hz0, View.ld_unit_zero (S := S10000x60) hz0]
  iexists _; isplitr
  swap; · iexact H4
  ipureintro
  sl_unfold_run_names
  exact View.read_writes_eq_canon _ _ _ (covers_acc _)

/-- The invariant between points: the scratch at what the point before left (anything before the first point), the other
    scoped buffers no window stages, the generator register. -/
def Φ0 (c : Dev nD) : Fin (cfg0.N + 1) → sProp 𝕄 := fun t =>
  iprop((match t with
      | ⟨0, _⟩ => iprop(∃ X : Vec F S10000x60 .f32, owns (c : Thread nD τ) (Memref.whole cc0_scratch0 : Memref sig .tc .vmem S10000x60 .f32) fullShare X)
      | ⟨n + 1, h⟩ => owns (c : Thread nD τ) (Memref.whole cc0_scratch0 : Memref sig .tc .vmem S10000x60 .f32) fullShare (acc0 V c n (Nat.lt_of_succ_lt_succ h)))
    ∗ Pipeline.scopedRestBut (Ix := Unit) (Name := ℕ) (U := UR sig nD τ) (Lvl := ℕ) (Val := Elt F) spec0 c [cc0_scratch0]
    ∗ ∃ r, prngReg c r)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => s1Block (acc0 V c t.val t.isLt)
  Φ := Φ0 V c
  q _ := fullShare
  owed _ := 0

theorem dat0_A (c : Dev nD) (w : Fin cfg0.W) : (dat0 V c).A w = V c (Pipeline.arrRef spec0 w) := by
  dsimp only [dat0]
theorem dat0_after2 (c : Dev nD) (t : Fin cfg0.N) : (dat0 V c).after 2 t = s1Block (acc0 V c t.val t.isLt) := by dsimp only [dat0]

/-- The scoped buffers no window stages, the scratch taken out in front. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The whole scratch owned at contents `f` is its points-to, either way. -/
theorem scratch_of_pt (c : Dev nD) (f : Vec F S10000x60 .f32) :
    ((((c : Thread nD τ).loc cc0_scratch0) ↦{fullShare} f) : sProp 𝕄)
      ⊢ owns (c : Thread nD τ) (Memref.whole cc0_scratch0 : Memref sig .tc .vmem S10000x60 .f32) fullShare f := by
  rw [owns_whole]
theorem pt_of_scratch (c : Dev nD) (f : Vec F S10000x60 .f32) :
    (owns (c : Thread nD τ) (Memref.whole cc0_scratch0 : Memref sig .tc .vmem S10000x60 .f32) fullShare f : sProp 𝕄)
      ⊢ (((c : Thread nD τ).loc cc0_scratch0) ↦{fullShare} f) := by
  rw [owns_whole]

/-- The invariant at the first point, from the generator register and the scoped buffers no window stages. -/
theorem phi0_first (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [scopedRest0_split]
  show _ ⊢ Φ0 V c ⟨0, Nat.succ_pos _⟩
  unfold Φ0
  dsimp only
  iintro ⟨Hr, ⟨%f, Hs⟩, Hb⟩
  isplitl [Hs]
  · iexists f
    iapply (scratch_of_pt c f)
    iexact Hs
  isplitl [Hb]
  · iexact Hb
  iexact Hr

/-- At any point the invariant gives back the scoped buffers and the register. -/
theorem phi0_forget (c : Dev nD) (t : Fin (cfg0.N + 1)) :
    Φ0 V c t
      ⊢ (iprop((∃ r, prngReg c r) ∗ Pipeline.scopedRest (Ix := Unit) (Name := ℕ) (U := UR sig nD τ) (Lvl := ℕ) (Val := Elt F) spec0 c) : sProp 𝕄) := by
  rw [scopedRest0_split]
  obtain ⟨n, h⟩ := t
  cases n with
  | zero =>
    unfold Φ0
    dsimp only
    iintro ⟨⟨%X, Hs⟩, Hb, Hr⟩
    isplitl [Hr]
    · iexact Hr
    isplitl [Hs]
    · iexists X
      iapply (pt_of_scratch c X)
      iexact Hs
    iexact Hb
  | succ n =>
    unfold Φ0
    dsimp only
    iintro ⟨Hs, Hb, Hr⟩
    isplitl [Hr]
    · iexact Hr
    isplitl [Hs]
    · iexists (acc0 V c n (Nat.lt_of_succ_lt_succ h))
      iapply (pt_of_scratch c _)
      iexact Hs
    iexact Hb

/-- The invariant at the last point gives them back. -/
theorem phi0_last (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  show Φ0 V c (Fin.last cfg0.N) ⊢ _
  exact phi0_forget V c (Fin.last cfg0.N)

/-! ## An input's staging buffer holds its block at every point, fetched there or not -/

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- The scratch's two defining equations. -/
theorem acc0_zero (c : Dev nD) (hn : 0 < cfg0.N) :
    acc0 V c 0 hn = View.canon [⟨whole0_10000x60, k0_pay2 (View.ld (blk0 V c 0 ⟨0, hn⟩) whole0_128x10000) (View.ld (blk0 V c 1 ⟨0, hn⟩) whole0_128x60)⟩] := by
  rw [acc0]
theorem acc0_succ (c : Dev nD) (n : ℕ) (hn : n + 1 < cfg0.N) :
    acc0 V c (n + 1) hn = View.canon [⟨whole0_10000x60, k0_pay3 (View.ld (blk0 V c 0 ⟨n + 1, hn⟩) whole0_128x10000) (View.ld (blk0 V c 1 ⟨n + 1, hn⟩) whole0_128x60)
      (View.ld (acc0 V c n (Nat.lt_of_succ_lt hn)) whole0_10000x60)⟩] := by
  rw [acc0]

/-- The output window's post at a point that stores into it. -/
theorem leaves0_2_live (c : Dev nD) (t : Fin cfg0.N) (hi : cfg0.idle (2 : Fin 3) (cfg0.grid.coords t) = false) :
    (dat0 V c).leavesExact 2 t = owns (c : Thread nD τ) (st0_2 t) fullShare ((dat0 V c).after 2 t) := by
  unfold Dat.leavesExact; rw [hi]

/-- The scratch, the rest of the scoped buffers and the register, with the scratch at `S`. -/
abbrev inv0 (c : Dev nD) (S : sProp 𝕄) : sProp 𝕄 :=
  iprop(S ∗ Pipeline.scopedRestBut (Ix := Unit) (Name := ℕ) (U := UR sig nD τ) (Lvl := ℕ) (Val := Elt F) spec0 c [cc0_scratch0] ∗ ∃ r, prngReg c r)

abbrev scratch0 : Memref sig .tc .vmem S10000x60 .f32 := Memref.whole cc0_scratch0

/-- The body at the first point. -/
theorem body0_at_first (c : Dev nD) (hn : 0 < cfg0.N) :
    iprop(inv0 c (iprop(∃ X : Vec F S10000x60 .f32, owns (c : Thread nD τ) scratch0 fullShare X)) ∗ (dat0 V c).owesAt () (Fin.castSucc ⟨0, hn⟩)
        ∗ (∃ d, owns (c : Thread nD τ) (st0_0 ⟨0, hn⟩) fullShare ((dat0 V c).before 0 ⟨0, hn⟩ d))
        ∗ (∃ d, owns (c : Thread nD τ) (st0_1 ⟨0, hn⟩) fullShare ((dat0 V c).before 1 ⟨0, hn⟩ d))
        ∗ (∃ d, owns (c : Thread nD τ) (st0_2 ⟨0, hn⟩) fullShare ((dat0 V c).before 2 ⟨0, hn⟩ d)))
      ⊢ wp frame (wpE (defs₀ (F := F)) Variants.none c none) Set.univ (bodyAt0 ⟨0, hn⟩) (fun _ =>
          iprop(inv0 c (owns (c : Thread nD τ) scratch0 fullShare (acc0 V c 0 hn)) ∗ (dat0 V c).owesAt () (Fin.succ ⟨0, hn⟩)
            ∗ owns (c : Thread nD τ) (st0_0 ⟨0, hn⟩) fullShare ((dat0 V c).after 0 ⟨0, hn⟩)
            ∗ owns (c : Thread nD τ) (st0_1 ⟨0, hn⟩) fullShare ((dat0 V c).after 1 ⟨0, hn⟩)
            ∗ (dat0 V c).leavesExact 2 ⟨0, hn⟩)) := by
  have h1 : cond0_1 (grid0.coords ⟨0, hn⟩) := (hcond0_1 _).mpr rfl
  have h2 : ¬ cond0_2 (grid0.coords ⟨0, hn⟩) := fun h => absurd ((hcond0_2 _).mp h) (Nat.lt_irrefl 0)
  have h3 : ¬ k0_cond3 (grid0.coords ⟨0, hn⟩) = 1#1 := fun h => absurd ((hcond0_3 _).mp h) (show ¬ (0 : ℕ) = 11 by decide)
  have hi : cfg0.idle (2 : Fin 3) (cfg0.grid.coords ⟨0, hn⟩) = true := (hidle0_2 _).mpr (show (0 : ℕ) ≠ 11 by decide)
  have hf : (cfg0.win (2 : Fin 3)).flush ⟨0, hn⟩ = false :=
    Bool.eq_false_iff.mpr fun h => absurd ((hflush0_2 _).mp h) (show ¬ (0 : ℕ) = 11 by decide)
  rw [Dat.leavesExact_idle _ 2 _ hi hf]
  unfold bodyAt0
  simp only [dat0_before0, dat0_before1]
  rw [show (dat0 V c).owesAt () (Fin.succ ⟨0, hn⟩) = (dat0 V c).owesAt () (Fin.castSucc ⟨0, hn⟩) from rfl,
    dat0_after0, dat0_after1, acc0_zero]
  iintro ⟨⟨⟨%X, Hs⟩, Hb, Hr⟩, Ho, ⟨%d0, H0⟩, ⟨%d1, H1⟩, ⟨%d2, H2⟩⟩
  iapply (body0_first c Set.univ _ h1 h2 h3 _ _ _ _ _ _ _ _ (blk0 V c 0 ⟨0, hn⟩) (blk0 V c 1 ⟨0, hn⟩) ((dat0 V c).before 2 ⟨0, hn⟩ d2) X _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexists d2; iexact H2

/-- The body at a point that is neither the first nor the last. -/
theorem body0_at_mid (c : Dev nD) (n : ℕ) (hn : n + 1 < cfg0.N) (h11 : n + 1 ≠ 11) :
    iprop(inv0 c (owns (c : Thread nD τ) scratch0 fullShare (acc0 V c n (Nat.lt_of_succ_lt hn))) ∗ (dat0 V c).owesAt () (Fin.castSucc ⟨n + 1, hn⟩)
        ∗ (∃ d, owns (c : Thread nD τ) (st0_0 ⟨n + 1, hn⟩) fullShare ((dat0 V c).before 0 ⟨n + 1, hn⟩ d))
        ∗ (∃ d, owns (c : Thread nD τ) (st0_1 ⟨n + 1, hn⟩) fullShare ((dat0 V c).before 1 ⟨n + 1, hn⟩ d))
        ∗ (∃ d, owns (c : Thread nD τ) (st0_2 ⟨n + 1, hn⟩) fullShare ((dat0 V c).before 2 ⟨n + 1, hn⟩ d)))
      ⊢ wp frame (wpE (defs₀ (F := F)) Variants.none c none) Set.univ (bodyAt0 ⟨n + 1, hn⟩) (fun _ =>
          iprop(inv0 c (owns (c : Thread nD τ) scratch0 fullShare (acc0 V c (n + 1) hn)) ∗ (dat0 V c).owesAt () (Fin.succ ⟨n + 1, hn⟩)
            ∗ owns (c : Thread nD τ) (st0_0 ⟨n + 1, hn⟩) fullShare ((dat0 V c).after 0 ⟨n + 1, hn⟩)
            ∗ owns (c : Thread nD τ) (st0_1 ⟨n + 1, hn⟩) fullShare ((dat0 V c).after 1 ⟨n + 1, hn⟩)
            ∗ (dat0 V c).leavesExact 2 ⟨n + 1, hn⟩)) := by
  have h1 : ¬ cond0_1 (grid0.coords ⟨n + 1, hn⟩) := fun h => absurd ((hcond0_1 _).mp h) (Nat.succ_ne_zero n)
  have h2 : cond0_2 (grid0.coords ⟨n + 1, hn⟩) := (hcond0_2 _).mpr (Nat.succ_pos n)
  have h3 : ¬ k0_cond3 (grid0.coords ⟨n + 1, hn⟩) = 1#1 := fun h => h11 ((hcond0_3 _).mp h)
  have hi : cfg0.idle (2 : Fin 3) (cfg0.grid.coords ⟨n + 1, hn⟩) = true := (hidle0_2 _).mpr h11
  have hf : (cfg0.win (2 : Fin 3)).flush ⟨n + 1, hn⟩ = false :=
    Bool.eq_false_iff.mpr fun h => h11 ((hflush0_2 _).mp h)
  rw [Dat.leavesExact_idle _ 2 _ hi hf]
  unfold bodyAt0
  simp only [dat0_before0, dat0_before1]
  rw [show (dat0 V c).owesAt () (Fin.succ ⟨n + 1, hn⟩) = (dat0 V c).owesAt () (Fin.castSucc ⟨n + 1, hn⟩) from rfl,
    dat0_after0, dat0_after1, acc0_succ]
  iintro ⟨⟨Hs, Hb, Hr⟩, Ho, ⟨%d0, H0⟩, ⟨%d1, H1⟩, ⟨%d2, H2⟩⟩
  iapply (body0_mid c Set.univ _ h1 h2 h3 _ _ _ _ _ _ _ _ (blk0 V c 0 ⟨n + 1, hn⟩) (blk0 V c 1 ⟨n + 1, hn⟩) ((dat0 V c).before 2 ⟨n + 1, hn⟩ d2)
    (acc0 V c n (Nat.lt_of_succ_lt hn)) _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexists d2; iexact H2

/-- The body at the last point. -/
theorem body0_at_last (c : Dev nD) (n : ℕ) (hn : n + 1 < cfg0.N) (h11 : n + 1 = 11) :
    iprop(inv0 c (owns (c : Thread nD τ) scratch0 fullShare (acc0 V c n (Nat.lt_of_succ_lt hn))) ∗ (dat0 V c).owesAt () (Fin.castSucc ⟨n + 1, hn⟩)
        ∗ (∃ d, owns (c : Thread nD τ) (st0_0 ⟨n + 1, hn⟩) fullShare ((dat0 V c).before 0 ⟨n + 1, hn⟩ d))
        ∗ (∃ d, owns (c : Thread nD τ) (st0_1 ⟨n + 1, hn⟩) fullShare ((dat0 V c).before 1 ⟨n + 1, hn⟩ d))
        ∗ (∃ d, owns (c : Thread nD τ) (st0_2 ⟨n + 1, hn⟩) fullShare ((dat0 V c).before 2 ⟨n + 1, hn⟩ d)))
      ⊢ wp frame (wpE (defs₀ (F := F)) Variants.none c none) Set.univ (bodyAt0 ⟨n + 1, hn⟩) (fun _ =>
          iprop(inv0 c (owns (c : Thread nD τ) scratch0 fullShare (acc0 V c (n + 1) hn)) ∗ (dat0 V c).owesAt () (Fin.succ ⟨n + 1, hn⟩)
            ∗ owns (c : Thread nD τ) (st0_0 ⟨n + 1, hn⟩) fullShare ((dat0 V c).after 0 ⟨n + 1, hn⟩)
            ∗ owns (c : Thread nD τ) (st0_1 ⟨n + 1, hn⟩) fullShare ((dat0 V c).after 1 ⟨n + 1, hn⟩)
            ∗ (dat0 V c).leavesExact 2 ⟨n + 1, hn⟩)) := by
  have h1 : ¬ cond0_1 (grid0.coords ⟨n + 1, hn⟩) := fun h => absurd ((hcond0_1 _).mp h) (Nat.succ_ne_zero n)
  have h2 : cond0_2 (grid0.coords ⟨n + 1, hn⟩) := (hcond0_2 _).mpr (Nat.succ_pos n)
  have h3 : k0_cond3 (grid0.coords ⟨n + 1, hn⟩) = 1#1 := (hcond0_3 _).mpr h11
  have hi : cfg0.idle (2 : Fin 3) (cfg0.grid.coords ⟨n + 1, hn⟩) = false :=
    Bool.eq_false_iff.mpr fun h => (hidle0_2 _).mp h h11
  rw [leaves0_2_live V c _ hi]
  unfold bodyAt0
  simp only [dat0_before0, dat0_before1]
  rw [show (dat0 V c).owesAt () (Fin.succ ⟨n + 1, hn⟩) = (dat0 V c).owesAt () (Fin.castSucc ⟨n + 1, hn⟩) from rfl,
    dat0_after0, dat0_after1, dat0_after2]
  rw [show acc0 V c (⟨n + 1, hn⟩ : Fin cfg0.N).val (⟨n + 1, hn⟩ : Fin cfg0.N).isLt = acc0 V c (n + 1) hn from rfl, acc0_succ]
  iintro ⟨⟨Hs, Hb, Hr⟩, Ho, ⟨%d0, H0⟩, ⟨%d1, H1⟩, ⟨%d2, H2⟩⟩
  iapply (body0_last c Set.univ _ h1 h2 h3 _ _ _ _ _ _ _ _ (blk0 V c 0 ⟨n + 1, hn⟩) (blk0 V c 1 ⟨n + 1, hn⟩) ((dat0 V c).before 2 ⟨n + 1, hn⟩ d2)
    (acc0 V c n (Nat.lt_of_succ_lt hn)) _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexact H2

/-- The library's body obligation, at every point. -/
theorem body0_obligation (c : Dev nD) : BodyObligation (dat0 (F := F) V c) (defs₀ (F := F)) Variants.none () Set.univ := fun t => by
  rw [bigSep_W0, bigSep_W0]
  obtain ⟨n, hn⟩ := t
  cases n with
  | zero => exact body0_at_first V c hn
  | succ n =>
    by_cases h11 : n + 1 = 11
    · exact body0_at_last V c n hn h11
    · exact body0_at_mid V c n hn h11

end Cert.Kernel.Hand

end
-- ==== Proof.K.Reg1.lean ====
/-
  The second launch, at any float instance: one grid point handles 400 rows of the adjacency. From the 400×10000
  block of adj (converted to bf16), the whole 10000×60 support s1, the bias row b1 and the two weight matrices W2, W3
  it leaves in its two output blocks
    * the 400×7 block  relu(adj_blk · s1 + b1) · W2 · W3  (converted to bf16), and
    * the 400×10000 block of adj itself converted to bf16.
  The body has one control case, reads every input block whole and stores each output block whole, so what it leaves
  is a function of the five input blocks alone; the invariant between points carries nothing of the kernel's own.
-/
import proofs.«173976_g38912403702117_cont_8to1_b_1654_12_alg».proof.Proof.Gen.Kernel.Launch
import proofs.«173976_g38912403702117_cont_8to1_b_1654_12_alg».proof.Proof.Gen.Kernel.Skeleton
import proofs.«173976_g38912403702117_cont_8to1_b_1654_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the two output blocks -/

abbrev whole400x10000 : Rect S400x10000 := Rect.unit (s := S400x10000) ![0, 0] S400x10000.size inb_S400x10000_S400x10000_0_0
abbrev whole10000x60 : Rect S10000x60 := Rect.unit (s := S10000x60) ![0, 0] S10000x60.size inb_S10000x60_S10000x60_0_0
abbrev whole1x60 : Rect S1x60 := Rect.unit (s := S1x60) ![0, 0] S1x60.size inb_S1x60_S1x60_0_0
abbrev whole60x30 : Rect S60x30 := Rect.unit (s := S60x30) ![0, 0] S60x30.size inb_S60x30_S60x30_0_0
abbrev whole30x7 : Rect S30x7 := Rect.unit (s := S30x7) ![0, 0] S30x7.size inb_S30x7_S30x7_0_0
abbrev whole400x7 : Rect S400x7 := Rect.unit (s := S400x7) ![0, 0] S400x7.size inb_S400x7_S400x7_0_0

/-- The 400×7 output block: the layer's product chain of the five input blocks, stored whole. -/
def uBlock (a : Vec F S400x10000 .f32) (s : Vec F S10000x60 .bf16) (b : Vec F S1x60 .f32) (w2 : Vec F S60x30 .f32) (w3 : Vec F S30x7 .f32) :
    Vec F S400x7 .bf16 :=
  View.canon [⟨whole400x7, k1_pay2 (View.ld a whole400x10000) (View.ld s whole10000x60) (View.ld b whole1x60) (View.ld w2 whole60x30) (View.ld w3 whole30x7)⟩]

/-- The 400×10000 output block: the adjacency block in the narrower format, stored whole. -/
def a16Block (a : Vec F S400x10000 .f32) : Vec F S400x10000 .bf16 :=
  View.canon [⟨whole400x10000, k1_pay1 (View.ld a whole400x10000)⟩]

/-- One whole-block store covers the block. -/
theorem covers_u (p : Vec F S400x7 .bf16) (y : S400x7.Idx) :
    ∃ pc ∈ ([⟨whole400x7, p⟩] : List (View.Piece (Elt F) S400x7 .bf16)), y ∈ pc.1.set :=
  View.cover_of_tiled [⟨whole400x7, p⟩] S400x7.size (by rfl) y
theorem covers_a16 (p : Vec F S400x10000 .bf16) (y : S400x10000.Idx) :
    ∃ pc ∈ ([⟨whole400x10000, p⟩] : List (View.Piece (Elt F) S400x10000 .bf16)), y ∈ pc.1.set :=
  View.cover_of_tiled [⟨whole400x10000, p⟩] S400x10000.size (by rfl) y

/-! ## The body's triple -/

set_option maxHeartbeats 2000000 in
/-- On whole staging memrefs, the inputs' at contents `a s b w2 w3` and the outputs' at anything, the body runs to
    the continuation with the inputs as they were and the outputs at `uBlock` and `a16Block`. -/
theorem body1_sound (c : Dev nD) (E : Set ℕ) (i : grid1.Coords)
    (arg1 : Memref sig .tc .vmem S400x10000 .f32) (harg1 : arg1.IsWhole) (arg2 : Memref sig .tc .vmem S10000x60 .bf16) (harg2 : arg2.IsWhole)
    (arg3 : Memref sig .tc .vmem S1x60 .f32) (harg3 : arg3.IsWhole) (arg4 : Memref sig .tc .vmem S60x30 .f32) (harg4 : arg4.IsWhole)
    (arg5 : Memref sig .tc .vmem S30x7 .f32) (harg5 : arg5.IsWhole) (arg6 : Memref sig .tc .vmem S400x7 .bf16) (harg6 : arg6.IsWhole)
    (arg7 : Memref sig .tc .vmem S400x10000 .bf16) (harg7 : arg7.IsWhole)
    (a : Vec F S400x10000 .f32) (s : Vec F S10000x60 .bf16) (b : Vec F S1x60 .f32) (w2 : Vec F S60x30 .f32) (w3 : Vec F S30x7 .f32)
    (K : PUnit → sProp 𝕄) :
    iprop(owns (c : Thread nD τ) arg1 fullShare a ∗ owns (c : Thread nD τ) arg2 fullShare s ∗ owns (c : Thread nD τ) arg3 fullShare b
        ∗ owns (c : Thread nD τ) arg4 fullShare w2 ∗ owns (c : Thread nD τ) arg5 fullShare w3
        ∗ (∃ d, owns (c : Thread nD τ) arg6 fullShare d) ∗ (∃ d, owns (c : Thread nD τ) arg7 fullShare d)
        ∗ (iprop(owns (c : Thread nD τ) arg1 fullShare a ∗ owns (c : Thread nD τ) arg2 fullShare s ∗ owns (c : Thread nD τ) arg3 fullShare b
            ∗ owns (c : Thread nD τ) arg4 fullShare w2 ∗ owns (c : Thread nD τ) arg5 fullShare w3
            ∗ owns (c : Thread nD τ) arg6 fullShare (uBlock a s b w2 w3) ∗ owns (c : Thread nD τ) arg7 fullShare (a16Block a)) -∗ K ⟨⟩))
      ⊢ wp frame (wpE (defs₀ (F := F)) Variants.none c none) E (cc1__l1_body i arg1 harg1 arg2 harg2 arg3 harg3 arg4 harg4 arg5 harg5 arg6 harg6 arg7 harg7) K := by
  simp only [cc1__l1_body_eq_skeleton]; unfold cc1__l1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers_u _)
  iexists _; isplitr
  swap; · iexact H7
  ipureintro
  exact View.read_writes_eq_canon _ _ _ (covers_a16 _)

/-! ## The proof data and the body obligation -/

/-- The launch's proof data on core `c`: the arrays as found; after the body at point `t` each input's buffer at its
    block and the outputs' at `uBlock` / `a16Block` of the input blocks; nothing of the kernel's own carried between points. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => uBlock (blk1 V c 0 t) (blk1 V c 1 t) (blk1 V c 2 t) (blk1 V c 3 t) (blk1 V c 4 t)
    | ⟨6, _⟩ => a16Block (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) :
    (dat1 V c).after 5 t = uBlock (blk1 V c 0 t) (blk1 V c 1 t) (blk1 V c 2 t) (blk1 V c 3 t) (blk1 V c 4 t) := by dsimp only [dat1]
theorem dat1_after6 (c : Dev nD) (t : Fin cfg1.N) : (dat1 V c).after 6 t = a16Block (blk1 V c 0 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_sound c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body1_obligation (c : Dev nD) : BodyObligation (dat1 (F := F) V c) (defs₀ (F := F)) Variants.none () Set.univ := fun t => by
  rw [bigSep_W1, bigSep_W1]
  exact body1_at V c t

end Cert.Kernel.Hand

end
-- ==== Proof.K.Reg2.lean ====
/-
  The third launch, at any float instance: one grid point handles 1000 rows of the adjacency. From the 1000×10000
  block of adj (in bf16), the whole 10000×7 support u, the bias row b2 and the weight matrix W3 it leaves in its
  output block the 1000×7 block  adj_blk · u + b2 · W3  (converted to bf16).
  The body has one control case, reads every input block whole and stores the output block whole, so what it leaves
  is a function of the four input blocks alone; the invariant between points carries nothing of the kernel's own.
-/
import proofs.«173976_g38912403702117_cont_8to1_b_1654_12_alg».proof.Proof.Gen.Kernel.Launch
import proofs.«173976_g38912403702117_cont_8to1_b_1654_12_alg».proof.Proof.Gen.Kernel.Skeleton
import proofs.«173976_g38912403702117_cont_8to1_b_1654_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point, fetched there or not -/

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the output block -/

abbrev whole2_1000x10000 : Rect S1000x10000 := Rect.unit (s := S1000x10000) ![0, 0] S1000x10000.size inb_S1000x10000_S1000x10000_0_0
abbrev whole2_10000x7 : Rect S10000x7 := Rect.unit (s := S10000x7) ![0, 0] S10000x7.size inb_S10000x7_S10000x7_0_0
abbrev whole2_1x30 : Rect S1x30 := Rect.unit (s := S1x30) ![0, 0] S1x30.size inb_S1x30_S1x30_0_0
abbrev whole2_30x7 : Rect S30x7 := Rect.unit (s := S30x7) ![0, 0] S30x7.size inb_S30x7_S30x7_0_0
abbrev whole2_1000x7 : Rect S1000x7 := Rect.unit (s := S1000x7) ![0, 0] S1000x7.size inb_S1000x7_S1000x7_0_0

/-- The 1000×7 output block, stored whole. -/
def tBlock (a : Vec F S1000x10000 .bf16) (u : Vec F S10000x7 .bf16) (b : Vec F S1x30 .f32) (w3 : Vec F S30x7 .f32) : Vec F S1000x7 .bf16 :=
  View.canon [⟨whole2_1000x7, k2_pay1 (View.ld b whole2_1x30) (View.ld w3 whole2_30x7) (View.ld a whole2_1000x10000) (View.ld u whole2_10000x7)⟩]

/-- One whole-block store covers the block. -/
theorem covers_t (p : Vec F S1000x7 .bf16) (y : S1000x7.Idx) :
    ∃ pc ∈ ([⟨whole2_1000x7, p⟩] : List (View.Piece (Elt F) S1000x7 .bf16)), y ∈ pc.1.set :=
  View.cover_of_tiled [⟨whole2_1000x7, p⟩] S1000x7.size (by rfl) y

/-! ## The body's triple -/

set_option maxHeartbeats 2000000 in
/-- On whole staging memrefs, the inputs' at contents `a u b w3` and the output's at anything, the body runs to
    the continuation with the inputs as they were and the output at `tBlock`. -/
theorem body2_sound (c : Dev nD) (E : Set ℕ) (i : grid2.Coords)
    (arg1 : Memref sig .tc .vmem S1000x10000 .bf16) (harg1 : arg1.IsWhole) (arg2 : Memref sig .tc .vmem S10000x7 .bf16) (harg2 : arg2.IsWhole)
    (arg3 : Memref sig .tc .vmem S1x30 .f32) (harg3 : arg3.IsWhole) (arg4 : Memref sig .tc .vmem S30x7 .f32) (harg4 : arg4.IsWhole)
    (arg5 : Memref sig .tc .vmem S1000x7 .bf16) (harg5 : arg5.IsWhole)
    (a : Vec F S1000x10000 .bf16) (u : Vec F S10000x7 .bf16) (b : Vec F S1x30 .f32) (w3 : Vec F S30x7 .f32)
    (K : PUnit → sProp 𝕄) :
    iprop(owns (c : Thread nD τ) arg1 fullShare a ∗ owns (c : Thread nD τ) arg2 fullShare u ∗ owns (c : Thread nD τ) arg3 fullShare b
        ∗ owns (c : Thread nD τ) arg4 fullShare w3
        ∗ (∃ d, owns (c : Thread nD τ) arg5 fullShare d)
        ∗ (iprop(owns (c : Thread nD τ) arg1 fullShare a ∗ owns (c : Thread nD τ) arg2 fullShare u ∗ owns (c : Thread nD τ) arg3 fullShare b
            ∗ owns (c : Thread nD τ) arg4 fullShare w3
            ∗ owns (c : Thread nD τ) arg5 fullShare (tBlock a u b w3)) -∗ K ⟨⟩))
      ⊢ wp frame (wpE (defs₀ (F := F)) Variants.none c none) E (cc2__l2_body i arg1 harg1 arg2 harg2 arg3 harg3 arg4 harg4 arg5 harg5) K := by
  simp only [cc2__l2_body_eq_skeleton]; unfold cc2__l2_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers_t _)

/-! ## The proof data and the body obligation -/

/-- The launch's proof data on core `c`: the arrays as found; after the body at point `t` each input's buffer at its
    block and the output's at `tBlock` of the input blocks; nothing of the kernel's own carried between points. -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => tBlock (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = tBlock (blk2 V c 0 t) (blk2 V c 1 t) (blk2 V c 2 t) (blk2 V c 3 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2_sound c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body2_obligation (c : Dev nD) : BodyObligation (dat2 (F := F) V c) (defs₀ (F := F)) Variants.none () Set.univ := fun t => by
  rw [bigSep_W2, bigSep_W2]
  exact body2_at V c t

end Cert.Kernel.Hand

end
-- ==== Proof.K.Reg3.lean ====
/-
  The last launch, at any float instance: one grid point handles 1000 rows of the adjacency. From the 1000×10000
  block of adj (in bf16), the whole 10000×7 support t and the bias row b3 it leaves in its output block the
  1000×7 block  log_softmax (adj_blk · t + b3)  over each row, in f32.
  The body has one control case, reads every input block whole and stores the output block whole, so what it leaves
  is a function of the three input blocks alone; the invariant between points carries nothing of the kernel's own.
-/
import proofs.«173976_g38912403702117_cont_8to1_b_1654_12_alg».proof.Proof.Gen.Kernel.Launch
import proofs.«173976_g38912403702117_cont_8to1_b_1654_12_alg».proof.Proof.Gen.Kernel.Skeleton
import proofs.«173976_g38912403702117_cont_8to1_b_1654_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block at every point, fetched there or not -/

theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## What the body leaves in the output block -/

abbrev whole3_1000x10000 : Rect S1000x10000 := Rect.unit (s := S1000x10000) ![0, 0] S1000x10000.size inb_S1000x10000_S1000x10000_0_0
abbrev whole3_10000x7 : Rect S10000x7 := Rect.unit (s := S10000x7) ![0, 0] S10000x7.size inb_S10000x7_S10000x7_0_0
abbrev whole3_1x7 : Rect S1x7 := Rect.unit (s := S1x7) ![0, 0] S1x7.size inb_S1x7_S1x7_0_0
abbrev whole3_1000x7 : Rect S1000x7 := Rect.unit (s := S1000x7) ![0, 0] S1000x7.size inb_S1000x7_S1000x7_0_0

/-- The 1000×7 output block, stored whole. -/
def outBlock (a : Vec F S1000x10000 .bf16) (t : Vec F S10000x7 .bf16) (b : Vec F S1x7 .f32) : Vec F S1000x7 .f32 :=
  View.canon [⟨whole3_1000x7, k3_pay1 (View.ld a whole3_1000x10000) (View.ld t whole3_10000x7) (View.ld b whole3_1x7)⟩]

/-- One whole-block store covers the block. -/
theorem covers_out (p : Vec F S1000x7 .f32) (y : S1000x7.Idx) :
    ∃ pc ∈ ([⟨whole3_1000x7, p⟩] : List (View.Piece (Elt F) S1000x7 .f32)), y ∈ pc.1.set :=
  View.cover_of_tiled [⟨whole3_1000x7, p⟩] S1000x7.size (by rfl) y

/-! ## The body's triple -/

set_option maxHeartbeats 2000000 in
/-- On whole staging memrefs, the inputs' at contents `a s b` and the output's at anything, the body runs to
    the continuation with the inputs as they were and the output at `outBlock`. -/
theorem body3_sound (c : Dev nD) (E : Set ℕ) (i : grid3.Coords)
    (arg1 : Memref sig .tc .vmem S1000x10000 .bf16) (harg1 : arg1.IsWhole) (arg2 : Memref sig .tc .vmem S10000x7 .bf16) (harg2 : arg2.IsWhole)
    (arg3 : Memref sig .tc .vmem S1x7 .f32) (harg3 : arg3.IsWhole)
    (arg4 : Memref sig .tc .vmem S1000x7 .f32) (harg4 : arg4.IsWhole)
    (a : Vec F S1000x10000 .bf16) (s : Vec F S10000x7 .bf16) (b : Vec F S1x7 .f32)
    (K : PUnit → sProp 𝕄) :
    iprop(owns (c : Thread nD τ) arg1 fullShare a ∗ owns (c : Thread nD τ) arg2 fullShare s ∗ owns (c : Thread nD τ) arg3 fullShare b
        ∗ (∃ d, owns (c : Thread nD τ) arg4 fullShare d)
        ∗ (iprop(owns (c : Thread nD τ) arg1 fullShare a ∗ owns (c : Thread nD τ) arg2 fullShare s ∗ owns (c : Thread nD τ) arg3 fullShare b
            ∗ owns (c : Thread nD τ) arg4 fullShare (outBlock a s b)) -∗ K ⟨⟩))
      ⊢ wp frame (wpE (defs₀ (F := F)) Variants.none c none) E (cc3__l3_body i arg1 harg1 arg2 harg2 arg3 harg3 arg4 harg4) K := by
  simp only [cc3__l3_body_eq_skeleton]; unfold cc3__l3_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_out _)

/-! ## The proof data and the body obligation -/

/-- The launch's proof data on core `c`: the arrays as found; after the body at point `t` each input's buffer at its
    block and the output's at `outBlock` of the input blocks; nothing of the kernel's own carried between points. -/

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => outBlock (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) :
    (dat3 V c).after 3 t = outBlock (blk3 V c 0 t) (blk3 V c 1 t) (blk3 V c 2 t) := by dsimp only [dat3]

theorem dat3_before0 (c : Dev nD) (t : Fin cfg3.N) (d) : (dat3 V c).before 0 t d = blk3 V c 0 t :=
  found3_0 V (dat3 V c) (dat3_A V c 0) (dat3_after0 V c) t d
theorem dat3_before1 (c : Dev nD) (t : Fin cfg3.N) (d) : (dat3 V c).before 1 t d = blk3 V c 1 t :=
  found3_1 V (dat3 V c) (dat3_A V c 1) (dat3_after1 V c) t d
theorem dat3_before2 (c : Dev nD) (t : Fin cfg3.N) (d) : (dat3 V c).before 2 t d = blk3 V c 2 t :=
  found3_2 V (dat3 V c) (dat3_A V c 2) (dat3_after2 V c) t d

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (body3_sound c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body3_obligation (c : Dev nD) : BodyObligation (dat3 (F := F) V c) (defs₀ (F := F)) Variants.none () Set.univ := fun t => by
  rw [bigSep_W3, bigSep_W3]
  exact body3_at V c t

end Cert.Kernel.Hand

end
-- ==== Proof.K.Run.lean ====
/-
  The run of the whole program, at any float instance. @main is four stretches of host operations — the three bias
  vectors reshaped to rows, the feature matrix transposed, a zero constant; the transposed features padded to 1536 rows;
  a second zero constant; the first weight matrix padded to 1536 rows — and then the four launches, nothing after them.

  The buffer contents at each boundary are a fold from the launch memory: a stretch takes the contents to what its
  operations compute from them, in order; a launch takes them to the same contents but for its own arrays, where an input
  array holds what it held and an output array its blocks' write-backs folded over the grid. Between any two items a core
  holds every unscoped buffer whole at the boundary's contents, its generator register at some state, and owes nothing.
  Each launch is entered from that state and left in it at the next boundary's contents; the program therefore terminates
  with every unscoped buffer at the last boundary's contents. No stretch and no launch writes an argument — a launch that
  has an argument among its arrays only reads it — so the fold at an argument's buffer walks back to the launch memory.
-/
import proofs.«173976_g38912403702117_cont_8to1_b_1654_12_alg».proof.Proof.Gen.Kernel.Launch
import proofs.«173976_g38912403702117_cont_8to1_b_1654_12_alg».proof.Proof.Gen.Kernel.Skeleton
import proofs.«173976_g38912403702117_cont_8to1_b_1654_12_alg».proof.Proof.Gen.Kernel.Points
import proofs.«173976_g38912403702117_cont_8to1_b_1654_12_alg».proof.Proof.Gen.Kernel.Regions
import proofs.«173976_g38912403702117_cont_8to1_b_1654_12_alg».proof.Proof.K.Reg0
import proofs.«173976_g38912403702117_cont_8to1_b_1654_12_alg».proof.Proof.K.Reg1
import proofs.«173976_g38912403702117_cont_8to1_b_1654_12_alg».proof.Proof.K.Reg2
import proofs.«173976_g38912403702117_cont_8to1_b_1654_12_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first stretch: the bias rows, the transposed features, a zero. -/
abbrev W1 : Dev nD → Valuation τ sig (Elt F) := fun c => StableHlo.after hostOps0 (W0 m ρ c)
/-- After the second stretch: the transposed features padded with zero rows. -/
abbrev W2 : Dev nD → Valuation τ sig (Elt F) := fun c => StableHlo.after hostOps0_1 (W1 m ρ c)
/-- After the third stretch: another zero. -/
abbrev W3 : Dev nD → Valuation τ sig (Elt F) := fun c => StableHlo.after hostOps0_2 (W2 m ρ c)
/-- After the fourth stretch: the first weight matrix padded with zero rows. What the first launch is entered from. -/
abbrev W4 : Dev nD → Valuation τ sig (Elt F) := fun c => StableHlo.after hostOps0_3 (W3 m ρ c)
/-- The same contents read at the TensorCore's references (what the first launch's proof data take). -/
abbrev V4 : (c : Dev nD) → (b : Ref sig .tc) → Buf (Elt F) ((c : Thread nD τ).loc b) := fun c b => W4 m ρ c b

/-- When the first launch (the support x·W1) returns: its arrays hold what its write-backs leave (an input array what it held at entry, an
    output array its blocks' write-backs folded over the grid), every other buffer what it held at entry. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same contents read at the TensorCore's references. -/
abbrev V5 : (c : Dev nD) → (b : Ref sig .tc) → Buf (Elt F) ((c : Thread nD τ).loc b) := fun c b => W5 m ρ c b
/-- At the return each array holds what the pipeline leaves, and every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- When the second launch (the first layer and the bf16 copy of the adjacency) returns: its arrays hold what its write-backs leave (an input array what it held at entry, an
    output array its blocks' write-backs folded over the grid), every other buffer what it held at entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same contents read at the TensorCore's references. -/
abbrev V6 : (c : Dev nD) → (b : Ref sig .tc) → Buf (Elt F) ((c : Thread nD τ).loc b) := fun c b => W6 m ρ c b
/-- At the return each array holds what the pipeline leaves, and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- When the third launch (the second propagation) returns: its arrays hold what its write-backs leave (an input array what it held at entry, an
    output array its blocks' write-backs folded over the grid), every other buffer what it held at entry. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same contents read at the TensorCore's references. -/
abbrev V7 : (c : Dev nD) → (b : Ref sig .tc) → Buf (Elt F) ((c : Thread nD τ).loc b) := fun c b => W7 m ρ c b
/-- At the return each array holds what the pipeline leaves, and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- When the fourth launch (the last propagation) returns: its arrays hold what its write-backs leave (an input array what it held at entry, an
    output array its blocks' write-backs folded over the grid), every other buffer what it held at entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references. -/
abbrev V8 : (c : Dev nD) → (b : Ref sig .tc) → Buf (Elt F) ((c : Thread nD τ).loc b) := fun c b => W8 m ρ c b
/-- At the return each array holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No stretch writes an argument (the stretches write the reshaped rows, the transpose, the constants and the padded
matrices), and a launch changes its output arrays only; where an argument is among a launch's arrays it is an input. -/

/-- A reference none of the four stretches writes holds, when the first launch is entered, what it held at launch. -/
theorem W4_of_not_written (c : Dev nD) (r : Ref sig .tc) (h0 : r ∉ hostOps0_W) (h1 : r ∉ hostOps0_1_W) (h2 : r ∉ hostOps0_2_W)
    (h3 : r ∉ hostOps0_3_W) : W4 m ρ c (Proc.devRef .tc r) = m ((c : Thread nD τ).loc r) :=
  (StableHlo.after_of_writes_sub hostOps0_3 _ hostOps0_3_writes h3).trans <|
    (StableHlo.after_of_writes_sub hostOps0_2 _ hostOps0_2_writes h2).trans <|
      (StableHlo.after_of_writes_sub hostOps0_1 _ hostOps0_1_writes h1).trans <|
        (StableHlo.after_of_writes_sub hostOps0 _ hostOps0_writes h0).trans rfl

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = m ((c : Thread nD τ).loc main_arg0) := W4_of_not_written m ρ c main_arg0 (by decide) (by decide) (by decide) (by decide)
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := (W6_arr m ρ c 0).trans (((dat1 (V5 m ρ) c).arrAt_in 0 rfl _).trans (dat1_A (V5 m ρ) c 0))
    _ = W4 m ρ c (Proc.devRef .tc main_arg1) := W5_of_ne m ρ c main_arg1 (by decide)
    _ = m ((c : Thread nD τ).loc main_arg1) := W4_of_not_written m ρ c main_arg1 (by decide) (by decide) (by decide) (by decide)
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = m ((c : Thread nD τ).loc main_arg2) := W4_of_not_written m ρ c main_arg2 (by decide) (by decide) (by decide) (by decide)
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = m ((c : Thread nD τ).loc main_arg3) := W4_of_not_written m ρ c main_arg3 (by decide) (by decide) (by decide) (by decide)
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := (W6_arr m ρ c 3).trans (((dat1 (V5 m ρ) c).arrAt_in 3 rfl _).trans (dat1_A (V5 m ρ) c 3))
    _ = W4 m ρ c (Proc.devRef .tc main_arg4) := W5_of_ne m ρ c main_arg4 (by decide)
    _ = m ((c : Thread nD τ).loc main_arg4) := W4_of_not_written m ρ c main_arg4 (by decide) (by decide) (by decide) (by decide)
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = m ((c : Thread nD τ).loc main_arg5) := W4_of_not_written m ρ c main_arg5 (by decide) (by decide) (by decide) (by decide)
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := (W7_arr m ρ c 3).trans (((dat2 (V6 m ρ) c).arrAt_in 3 rfl _).trans (dat2_A (V6 m ρ) c 3))
    _ = W5 m ρ c (Proc.devRef .tc main_arg6) := (W6_arr m ρ c 4).trans (((dat1 (V5 m ρ) c).arrAt_in 4 rfl _).trans (dat1_A (V5 m ρ) c 4))
    _ = W4 m ρ c (Proc.devRef .tc main_arg6) := W5_of_ne m ρ c main_arg6 (by decide)
    _ = m ((c : Thread nD τ).loc main_arg6) := W4_of_not_written m ρ c main_arg6 (by decide) (by decide) (by decide) (by decide)
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = m ((c : Thread nD τ).loc main_arg7) := W4_of_not_written m ρ c main_arg7 (by decide) (by decide) (by decide) (by decide)

/-! ## The proof data family and the thread state -/

/-- The prefetched tables' admissible contents: no launch has a table. -/
abbrev adm : (p : Fin 4) → (pcfgs (F := F) p).Adm := fun p => (cfgs p).toPCfg_adm
/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
  | ⟨2, _⟩ => fun c => dat2 (V6 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A stretch of host operations over the thread state: from every unscoped buffer at `W` to every unscoped buffer at
    what the operations compute from `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The launches as segments -/

-- a library lemma stated over the pinned configuration unifies with the printed one only when unification may unfold
-- plain definitions in a metavariable's type
set_option backward.isDefEq.respectTransparency.types false in
/-- The first launch over the thread state: entered from every unscoped buffer at `W4`, left at `W5`. Its arrays are split
    out of the unscoped buffers at entry and put back at the exit contents; the generator register and the scoped buffers no
    window stages go into the launch's own invariant — which carries the accumulator between grid points — at the first
    point and come back out of it at the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V4 m ρ) c).Φ 0 from rfl]
    refine BIBase.Entails.trans ?_ (phi0_first (V4 m ρ) c)
    iintro ⟨Hp, -, Hr⟩
    isplitl [Hp]; · iexact Hp
    iexact Hr
  hout c := by
    rw [Pipeline.ownSems0_none, show (pdats m ρ 0 c).Φ (Fin.last _) = (dat0 (V4 m ρ) c).Φ (Fin.last cfg0.N) from rfl]
    refine (phi0_last (V4 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second launch over the thread state: entered from every unscoped buffer at `W5`, left at `W6`. Its arrays are
    split out of the unscoped buffers at entry and put back at the exit contents; the generator register rides through the
    invariant of a body that carries nothing between points; nothing is owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third launch over the thread state: entered from every unscoped buffer at `W6`, left at `W7`, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The fourth launch over the thread state: entered from every unscoped buffer at `W7`, left at `W8` beside the core
    owing nothing — the state the program returns in. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight items in order: the four stretches, each from its boundary's contents, then the four launches. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .region (reg3 m ρ) ]

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final memory holds each unscoped buffer at the last boundary's
    contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: the program terminates, nothing faulting, and every final memory holds each of the eight argument arrays
    as launched — each read off the last boundary's contents, which at an argument are the launch memory's. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) (onTc (τ := τ) (main (F := F))) ⟨m, fun _ => 0, ρ⟩).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.Kernel.Hand

end
-- ==== Proof.KI.Reg0.lean ====
/-
  The first launch, at any float instance: twelve grid points, each forming the product of a 128×10000 block of the
  (transposed, padded) features with the matching 128×60 block of the first weight matrix, contracted over the 128
  rows. The products are summed in a 10000×60 scratch carried from point to point: the first point stores its product,
  every later point adds its product to what the scratch holds, and the last point stores the scratch, converted to
  bf16, into the one output block.
-/
import proofs.«173976_g38912403702117_cont_8to1_b_1654_12_alg».proof.Proof.Gen.KernelIdeal.Launch
import proofs.«173976_g38912403702117_cont_8to1_b_1654_12_alg».proof.Proof.Gen.KernelIdeal.Skeleton
import proofs.«173976_g38912403702117_cont_8to1_b_1654_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_128x10000 : Rect S128x10000 := Rect.unit (s := S128x10000) ![0, 0] S128x10000.size inb_S128x10000_S128x10000_0_0
abbrev whole0_128x60 : Rect S128x60 := Rect.unit (s := S128x60) ![0, 0] S128x60.size inb_S128x60_S128x60_0_0
abbrev whole0_10000x60 : Rect S10000x60 := Rect.unit (s := S10000x60) ![0, 0] S10000x60.size inb_S10000x60_S10000x60_0_0

/-- The scratch after grid point `n`: the first chunk's product, then each later chunk's product added to what the point before left. -/
def acc0 (c : Dev nD) : (n : ℕ) → n < cfg0.N → Vec F S10000x60 .f32
  | 0, hn => View.canon [⟨whole0_10000x60, k0_pay2 (View.ld (blk0 V c 0 ⟨0, hn⟩) whole0_128x10000) (View.ld (blk0 V c 1 ⟨0, hn⟩) whole0_128x60)⟩]
  | n + 1, hn => View.canon [⟨whole0_10000x60, k0_pay3 (View.ld (blk0 V c 0 ⟨n + 1, hn⟩) whole0_128x10000) (View.ld (blk0 V c 1 ⟨n + 1, hn⟩) whole0_128x60)
      (View.ld (acc0 c n (Nat.lt_of_succ_lt hn)) whole0_10000x60)⟩]

/-- The output block the last point stores: the scratch in the narrower format. -/
def s1Block (acc : Vec F S10000x60 .f32) : Vec F S10000x60 .bf16 :=
  View.canon [⟨whole0_10000x60, k0_pay4 (View.ld acc whole0_10000x60)⟩]

/-! ## The body's three conditions, from the grid coordinate -/

/-- The first conditional's condition: the point is the first. -/
abbrev cond0_1 (i : grid0.Coords) : Prop := (Scalar.cmpi .ne (Scalar.extui (Scalar.cmpi .eq (BitVec.ofNat 32 (i 0).val) 0#32)) 0#32) = 1#1
/-- The second conditional's condition: the point is not the first. -/
abbrev cond0_2 (i : grid0.Coords) : Prop := (Scalar.cmpi .ne (Scalar.extui (Scalar.cmpi .sgt (BitVec.ofNat 32 (i 0).val) 0#32)) 0#32) = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ 0 < t.val :=
  (by decide +kernel : ∀ t : Fin grid0.N, cond0_2 (grid0.coords t) ↔ 0 < t.val)
theorem hcond0_3 : ∀ t : Fin cfg0.N, k0_cond3 (grid0.coords t) = 1#1 ↔ t.val = 11 :=
  (by decide +kernel : ∀ t : Fin grid0.N, k0_cond3 (grid0.coords t) = 1#1 ↔ t.val = 11)
/-- The output window is idle at every point but the last, -/
theorem hidle0_2 : ∀ t : Fin cfg0.N, cfg0.idle (2 : Fin 3) (cfg0.grid.coords t) = true ↔ t.val ≠ 11 :=
  (by decide +kernel : ∀ t : Fin grid0.N, idle0 2 (grid0.coords t) = true ↔ t.val ≠ 11)
/-- and is written back at the last only. -/
theorem hflush0_2 : ∀ t : Fin cfg0.N, (cfg0.win (2 : Fin 3)).flush t = true ↔ t.val = 11 :=
  (by decide +kernel : ∀ t : Fin grid0.N, win0_2.flush t = true ↔ t.val = 11)

/-- One whole-block store covers the block. -/
theorem covers_acc (p : Vec F S10000x60 .f32) (y : S10000x60.Idx) :
    ∃ pc ∈ ([⟨whole0_10000x60, p⟩] : List (View.Piece (Elt F) S10000x60 .f32)), y ∈ pc.1.set :=
  View.cover_of_tiled [⟨whole0_10000x60, p⟩] S10000x60.size (by rfl) y
theorem covers_s1 (p : Vec F S10000x60 .bf16) (y : S10000x60.Idx) :
    ∃ pc ∈ ([⟨whole0_10000x60, p⟩] : List (View.Piece (Elt F) S10000x60 .bf16)), y ∈ pc.1.set :=
  View.cover_of_tiled [⟨whole0_10000x60, p⟩] S10000x60.size (by rfl) y

/-- The zero offsets of a whole 10000×60 block. -/
theorem hz0 : (![0, 0] : Fin S10000x60.rank → ℕ) = fun _ => 0 := by
  funext a; fin_cases a <;> rfl

set_option maxHeartbeats 2000000 in
/-- At the first point: the scratch, at anything, is left at the blocks' product, the output's buffer untouched. -/
theorem body0_first (c : Dev nD) (E : Set ℕ) (i : grid0.Coords) (h1 : cond0_1 i) (h2 : ¬ cond0_2 i) (h3 : ¬ k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare d
            ∗ owns (c : Thread nD τ) arg4 fullShare (View.canon [⟨whole0_10000x60, k0_pay2 (View.ld a whole0_128x10000) (View.ld b whole0_128x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_acc _)

set_option maxHeartbeats 2000000 in
/-- At a point that is neither the first nor the last: the scratch at `x` is left at `x` plus the blocks' product, the
    output's buffer untouched. -/
theorem body0_mid (c : Dev nD) (E : Set ℕ) (i : grid0.Coords) (h1 : ¬ cond0_1 i) (h2 : cond0_2 i) (h3 : ¬ k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare d
            ∗ owns (c : Thread nD τ) arg4 fullShare (View.canon [⟨whole0_10000x60, k0_pay3 (View.ld a whole0_128x10000) (View.ld b whole0_128x60) (View.ld x whole0_10000x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_acc _)

set_option maxHeartbeats 2000000 in
/-- At the last point: the scratch at `x` is left at `x` plus the blocks' product, and the output's buffer at that sum
    in the narrower format. -/
theorem body0_last (c : Dev nD) (E : Set ℕ) (i : grid0.Coords) (h1 : ¬ cond0_1 i) (h2 : cond0_2 i) (h3 : k0_cond3 i = 1#1)
    (arg1 : Memref sig .tc .vmem S128x10000 .f32) (harg1 : arg1.IsWhole) (arg2 : Memref sig .tc .vmem S128x60 .f32) (harg2 : arg2.IsWhole)
    (arg3 : Memref sig .tc .vmem S10000x60 .bf16) (harg3 : arg3.IsWhole) (arg4 : Memref sig .tc .vmem S10000x60 .f32) (harg4 : arg4.IsWhole)
    (a : Vec F S128x10000 .f32) (b : Vec F S128x60 .f32) (d : Vec F S10000x60 .bf16) (x : Vec F S10000x60 .f32)
    (K : PUnit → sProp 𝕄) :
    iprop(owns (c : Thread nD τ) arg1 fullShare a ∗ owns (c : Thread nD τ) arg2 fullShare b
        ∗ owns (c : Thread nD τ) arg3 fullShare d ∗ owns (c : Thread nD τ) arg4 fullShare x
        ∗ (iprop(owns (c : Thread nD τ) arg1 fullShare a ∗ owns (c : Thread nD τ) arg2 fullShare b
            ∗ owns (c : Thread nD τ) arg3 fullShare
                (s1Block (View.canon [⟨whole0_10000x60, k0_pay3 (View.ld a whole0_128x10000) (View.ld b whole0_128x60) (View.ld x whole0_10000x60)⟩]))
            ∗ owns (c : Thread nD τ) arg4 fullShare (View.canon [⟨whole0_10000x60, k0_pay3 (View.ld a whole0_128x10000) (View.ld b whole0_128x60) (View.ld x whole0_10000x60)⟩])) -∗ K ⟨⟩))
      ⊢ wp frame (wpE (defs₀ (F := F)) Variants.none c none) E (cc0__xw_body i arg1 harg1 arg2 harg2 arg3 harg3 arg4 harg4) K := by
  simp only [cc0__xw_body_eq_skeleton]; unfold cc0__xw_body_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (covers_s1 _)]
    unfold s1Block
    sl_unfold_run_names
    simp only [View.readAt_eq_ld, View.readCov_unit_zero (S := S10000x60) _ hz0, View.canon_unit_zero (S := S10000x60) hz0, View.ld_unit_zero (S := S10000x60) hz0]
  iexists _; isplitr
  swap; · iexact H4
  ipureintro
  sl_unfold_run_names
  exact View.read_writes_eq_canon _ _ _ (covers_acc _)

/-- The invariant between points: the scratch at what the point before left (anything before the first point), the other
    scoped buffers no window stages, the generator register. -/
def Φ0 (c : Dev nD) : Fin (cfg0.N + 1) → sProp 𝕄 := fun t =>
  iprop((match t with
      | ⟨0, _⟩ => iprop(∃ X : Vec F S10000x60 .f32, owns (c : Thread nD τ) (Memref.whole cc0_scratch0 : Memref sig .tc .vmem S10000x60 .f32) fullShare X)
      | ⟨n + 1, h⟩ => owns (c : Thread nD τ) (Memref.whole cc0_scratch0 : Memref sig .tc .vmem S10000x60 .f32) fullShare (acc0 V c n (Nat.lt_of_succ_lt_succ h)))
    ∗ Pipeline.scopedRestBut (Ix := Unit) (Name := ℕ) (U := UR sig nD τ) (Lvl := ℕ) (Val := Elt F) spec0 c [cc0_scratch0]
    ∗ ∃ r, prngReg c r)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => s1Block (acc0 V c t.val t.isLt)
  Φ := Φ0 V c
  q _ := fullShare
  owed _ := 0

theorem dat0_A (c : Dev nD) (w : Fin cfg0.W) : (dat0 V c).A w = V c (Pipeline.arrRef spec0 w) := by
  dsimp only [dat0]
theorem dat0_after2 (c : Dev nD) (t : Fin cfg0.N) : (dat0 V c).after 2 t = s1Block (acc0 V c t.val t.isLt) := by dsimp only [dat0]

/-- The scoped buffers no window stages, the scratch taken out in front. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The whole scratch owned at contents `f` is its points-to, either way. -/
theorem scratch_of_pt (c : Dev nD) (f : Vec F S10000x60 .f32) :
    ((((c : Thread nD τ).loc cc0_scratch0) ↦{fullShare} f) : sProp 𝕄)
      ⊢ owns (c : Thread nD τ) (Memref.whole cc0_scratch0 : Memref sig .tc .vmem S10000x60 .f32) fullShare f := by
  rw [owns_whole]
theorem pt_of_scratch (c : Dev nD) (f : Vec F S10000x60 .f32) :
    (owns (c : Thread nD τ) (Memref.whole cc0_scratch0 : Memref sig .tc .vmem S10000x60 .f32) fullShare f : sProp 𝕄)
      ⊢ (((c : Thread nD τ).loc cc0_scratch0) ↦{fullShare} f) := by
  rw [owns_whole]

/-- The invariant at the first point, from the generator register and the scoped buffers no window stages. -/
theorem phi0_first (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [scopedRest0_split]
  show _ ⊢ Φ0 V c ⟨0, Nat.succ_pos _⟩
  unfold Φ0
  dsimp only
  iintro ⟨Hr, ⟨%f, Hs⟩, Hb⟩
  isplitl [Hs]
  · iexists f
    iapply (scratch_of_pt c f)
    iexact Hs
  isplitl [Hb]
  · iexact Hb
  iexact Hr

/-- At any point the invariant gives back the scoped buffers and the register. -/
theorem phi0_forget (c : Dev nD) (t : Fin (cfg0.N + 1)) :
    Φ0 V c t
      ⊢ (iprop((∃ r, prngReg c r) ∗ Pipeline.scopedRest (Ix := Unit) (Name := ℕ) (U := UR sig nD τ) (Lvl := ℕ) (Val := Elt F) spec0 c) : sProp 𝕄) := by
  rw [scopedRest0_split]
  obtain ⟨n, h⟩ := t
  cases n with
  | zero =>
    unfold Φ0
    dsimp only
    iintro ⟨⟨%X, Hs⟩, Hb, Hr⟩
    isplitl [Hr]
    · iexact Hr
    isplitl [Hs]
    · iexists X
      iapply (pt_of_scratch c X)
      iexact Hs
    iexact Hb
  | succ n =>
    unfold Φ0
    dsimp only
    iintro ⟨Hs, Hb, Hr⟩
    isplitl [Hr]
    · iexact Hr
    isplitl [Hs]
    · iexists (acc0 V c n (Nat.lt_of_succ_lt_succ h))
      iapply (pt_of_scratch c _)
      iexact Hs
    iexact Hb

/-- The invariant at the last point gives them back. -/
theorem phi0_last (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  show Φ0 V c (Fin.last cfg0.N) ⊢ _
  exact phi0_forget V c (Fin.last cfg0.N)

/-! ## An input's staging buffer holds its block at every point, fetched there or not -/

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- The scratch's two defining equations. -/
theorem acc0_zero (c : Dev nD) (hn : 0 < cfg0.N) :
    acc0 V c 0 hn = View.canon [⟨whole0_10000x60, k0_pay2 (View.ld (blk0 V c 0 ⟨0, hn⟩) whole0_128x10000) (View.ld (blk0 V c 1 ⟨0, hn⟩) whole0_128x60)⟩] := by
  rw [acc0]
theorem acc0_succ (c : Dev nD) (n : ℕ) (hn : n + 1 < cfg0.N) :
    acc0 V c (n + 1) hn = View.canon [⟨whole0_10000x60, k0_pay3 (View.ld (blk0 V c 0 ⟨n + 1, hn⟩) whole0_128x10000) (View.ld (blk0 V c 1 ⟨n + 1, hn⟩) whole0_128x60)
      (View.ld (acc0 V c n (Nat.lt_of_succ_lt hn)) whole0_10000x60)⟩] := by
  rw [acc0]

/-- The output window's post at a point that stores into it. -/
theorem leaves0_2_live (c : Dev nD) (t : Fin cfg0.N) (hi : cfg0.idle (2 : Fin 3) (cfg0.grid.coords t) = false) :
    (dat0 V c).leavesExact 2 t = owns (c : Thread nD τ) (st0_2 t) fullShare ((dat0 V c).after 2 t) := by
  unfold Dat.leavesExact; rw [hi]

/-- The scratch, the rest of the scoped buffers and the register, with the scratch at `S`. -/
abbrev inv0 (c : Dev nD) (S : sProp 𝕄) : sProp 𝕄 :=
  iprop(S ∗ Pipeline.scopedRestBut (Ix := Unit) (Name := ℕ) (U := UR sig nD τ) (Lvl := ℕ) (Val := Elt F) spec0 c [cc0_scratch0] ∗ ∃ r, prngReg c r)

abbrev scratch0 : Memref sig .tc .vmem S10000x60 .f32 := Memref.whole cc0_scratch0

/-- The body at the first point. -/
theorem body0_at_first (c : Dev nD) (hn : 0 < cfg0.N) :
    iprop(inv0 c (iprop(∃ X : Vec F S10000x60 .f32, owns (c : Thread nD τ) scratch0 fullShare X)) ∗ (dat0 V c).owesAt () (Fin.castSucc ⟨0, hn⟩)
        ∗ (∃ d, owns (c : Thread nD τ) (st0_0 ⟨0, hn⟩) fullShare ((dat0 V c).before 0 ⟨0, hn⟩ d))
        ∗ (∃ d, owns (c : Thread nD τ) (st0_1 ⟨0, hn⟩) fullShare ((dat0 V c).before 1 ⟨0, hn⟩ d))
        ∗ (∃ d, owns (c : Thread nD τ) (st0_2 ⟨0, hn⟩) fullShare ((dat0 V c).before 2 ⟨0, hn⟩ d)))
      ⊢ wp frame (wpE (defs₀ (F := F)) Variants.none c none) Set.univ (bodyAt0 ⟨0, hn⟩) (fun _ =>
          iprop(inv0 c (owns (c : Thread nD τ) scratch0 fullShare (acc0 V c 0 hn)) ∗ (dat0 V c).owesAt () (Fin.succ ⟨0, hn⟩)
            ∗ owns (c : Thread nD τ) (st0_0 ⟨0, hn⟩) fullShare ((dat0 V c).after 0 ⟨0, hn⟩)
            ∗ owns (c : Thread nD τ) (st0_1 ⟨0, hn⟩) fullShare ((dat0 V c).after 1 ⟨0, hn⟩)
            ∗ (dat0 V c).leavesExact 2 ⟨0, hn⟩)) := by
  have h1 : cond0_1 (grid0.coords ⟨0, hn⟩) := (hcond0_1 _).mpr rfl
  have h2 : ¬ cond0_2 (grid0.coords ⟨0, hn⟩) := fun h => absurd ((hcond0_2 _).mp h) (Nat.lt_irrefl 0)
  have h3 : ¬ k0_cond3 (grid0.coords ⟨0, hn⟩) = 1#1 := fun h => absurd ((hcond0_3 _).mp h) (show ¬ (0 : ℕ) = 11 by decide)
  have hi : cfg0.idle (2 : Fin 3) (cfg0.grid.coords ⟨0, hn⟩) = true := (hidle0_2 _).mpr (show (0 : ℕ) ≠ 11 by decide)
  have hf : (cfg0.win (2 : Fin 3)).flush ⟨0, hn⟩ = false :=
    Bool.eq_false_iff.mpr fun h => absurd ((hflush0_2 _).mp h) (show ¬ (0 : ℕ) = 11 by decide)
  rw [Dat.leavesExact_idle _ 2 _ hi hf]
  unfold bodyAt0
  simp only [dat0_before0, dat0_before1]
  rw [show (dat0 V c).owesAt () (Fin.succ ⟨0, hn⟩) = (dat0 V c).owesAt () (Fin.castSucc ⟨0, hn⟩) from rfl,
    dat0_after0, dat0_after1, acc0_zero]
  iintro ⟨⟨⟨%X, Hs⟩, Hb, Hr⟩, Ho, ⟨%d0, H0⟩, ⟨%d1, H1⟩, ⟨%d2, H2⟩⟩
  iapply (body0_first c Set.univ _ h1 h2 h3 _ _ _ _ _ _ _ _ (blk0 V c 0 ⟨0, hn⟩) (blk0 V c 1 ⟨0, hn⟩) ((dat0 V c).before 2 ⟨0, hn⟩ d2) X _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexists d2; iexact H2

/-- The body at a point that is neither the first nor the last. -/
theorem body0_at_mid (c : Dev nD) (n : ℕ) (hn : n + 1 < cfg0.N) (h11 : n + 1 ≠ 11) :
    iprop(inv0 c (owns (c : Thread nD τ) scratch0 fullShare (acc0 V c n (Nat.lt_of_succ_lt hn))) ∗ (dat0 V c).owesAt () (Fin.castSucc ⟨n + 1, hn⟩)
        ∗ (∃ d, owns (c : Thread nD τ) (st0_0 ⟨n + 1, hn⟩) fullShare ((dat0 V c).before 0 ⟨n + 1, hn⟩ d))
        ∗ (∃ d, owns (c : Thread nD τ) (st0_1 ⟨n + 1, hn⟩) fullShare ((dat0 V c).before 1 ⟨n + 1, hn⟩ d))
        ∗ (∃ d, owns (c : Thread nD τ) (st0_2 ⟨n + 1, hn⟩) fullShare ((dat0 V c).before 2 ⟨n + 1, hn⟩ d)))
      ⊢ wp frame (wpE (defs₀ (F := F)) Variants.none c none) Set.univ (bodyAt0 ⟨n + 1, hn⟩) (fun _ =>
          iprop(inv0 c (owns (c : Thread nD τ) scratch0 fullShare (acc0 V c (n + 1) hn)) ∗ (dat0 V c).owesAt () (Fin.succ ⟨n + 1, hn⟩)
            ∗ owns (c : Thread nD τ) (st0_0 ⟨n + 1, hn⟩) fullShare ((dat0 V c).after 0 ⟨n + 1, hn⟩)
            ∗ owns (c : Thread nD τ) (st0_1 ⟨n + 1, hn⟩) fullShare ((dat0 V c).after 1 ⟨n + 1, hn⟩)
            ∗ (dat0 V c).leavesExact 2 ⟨n + 1, hn⟩)) := by
  have h1 : ¬ cond0_1 (grid0.coords ⟨n + 1, hn⟩) := fun h => absurd ((hcond0_1 _).mp h) (Nat.succ_ne_zero n)
  have h2 : cond0_2 (grid0.coords ⟨n + 1, hn⟩) := (hcond0_2 _).mpr (Nat.succ_pos n)
  have h3 : ¬ k0_cond3 (grid0.coords ⟨n + 1, hn⟩) = 1#1 := fun h => h11 ((hcond0_3 _).mp h)
  have hi : cfg0.idle (2 : Fin 3) (cfg0.grid.coords ⟨n + 1, hn⟩) = true := (hidle0_2 _).mpr h11
  have hf : (cfg0.win (2 : Fin 3)).flush ⟨n + 1, hn⟩ = false :=
    Bool.eq_false_iff.mpr fun h => h11 ((hflush0_2 _).mp h)
  rw [Dat.leavesExact_idle _ 2 _ hi hf]
  unfold bodyAt0
  simp only [dat0_before0, dat0_before1]
  rw [show (dat0 V c).owesAt () (Fin.succ ⟨n + 1, hn⟩) = (dat0 V c).owesAt () (Fin.castSucc ⟨n + 1, hn⟩) from rfl,
    dat0_after0, dat0_after1, acc0_succ]
  iintro ⟨⟨Hs, Hb, Hr⟩, Ho, ⟨%d0, H0⟩, ⟨%d1, H1⟩, ⟨%d2, H2⟩⟩
  iapply (body0_mid c Set.univ _ h1 h2 h3 _ _ _ _ _ _ _ _ (blk0 V c 0 ⟨n + 1, hn⟩) (blk0 V c 1 ⟨n + 1, hn⟩) ((dat0 V c).before 2 ⟨n + 1, hn⟩ d2)
    (acc0 V c n (Nat.lt_of_succ_lt hn)) _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexists d2; iexact H2

/-- The body at the last point. -/
theorem body0_at_last (c : Dev nD) (n : ℕ) (hn : n + 1 < cfg0.N) (h11 : n + 1 = 11) :
    iprop(inv0 c (owns (c : Thread nD τ) scratch0 fullShare (acc0 V c n (Nat.lt_of_succ_lt hn))) ∗ (dat0 V c).owesAt () (Fin.castSucc ⟨n + 1, hn⟩)
        ∗ (∃ d, owns (c : Thread nD τ) (st0_0 ⟨n + 1, hn⟩) fullShare ((dat0 V c).before 0 ⟨n + 1, hn⟩ d))
        ∗ (∃ d, owns (c : Thread nD τ) (st0_1 ⟨n + 1, hn⟩) fullShare ((dat0 V c).before 1 ⟨n + 1, hn⟩ d))
        ∗ (∃ d, owns (c : Thread nD τ) (st0_2 ⟨n + 1, hn⟩) fullShare ((dat0 V c).before 2 ⟨n + 1, hn⟩ d)))
      ⊢ wp frame (wpE (defs₀ (F := F)) Variants.none c none) Set.univ (bodyAt0 ⟨n + 1, hn⟩) (fun _ =>
          iprop(inv0 c (owns (c : Thread nD τ) scratch0 fullShare (acc0 V c (n + 1) hn)) ∗ (dat0 V c).owesAt () (Fin.succ ⟨n + 1, hn⟩)
            ∗ owns (c : Thread nD τ) (st0_0 ⟨n + 1, hn⟩) fullShare ((dat0 V c).after 0 ⟨n + 1, hn⟩)
            ∗ owns (c : Thread nD τ) (st0_1 ⟨n + 1, hn⟩) fullShare ((dat0 V c).after 1 ⟨n + 1, hn⟩)
            ∗ (dat0 V c).leavesExact 2 ⟨n + 1, hn⟩)) := by
  have h1 : ¬ cond0_1 (grid0.coords ⟨n + 1, hn⟩) := fun h => absurd ((hcond0_1 _).mp h) (Nat.succ_ne_zero n)
  have h2 : cond0_2 (grid0.coords ⟨n + 1, hn⟩) := (hcond0_2 _).mpr (Nat.succ_pos n)
  have h3 : k0_cond3 (grid0.coords ⟨n + 1, hn⟩) = 1#1 := (hcond0_3 _).mpr h11
  have hi : cfg0.idle (2 : Fin 3) (cfg0.grid.coords ⟨n + 1, hn⟩) = false :=
    Bool.eq_false_iff.mpr fun h => (hidle0_2 _).mp h h11
  rw [leaves0_2_live V c _ hi]
  unfold bodyAt0
  simp only [dat0_before0, dat0_before1]
  rw [show (dat0 V c).owesAt () (Fin.succ ⟨n + 1, hn⟩) = (dat0 V c).owesAt () (Fin.castSucc ⟨n + 1, hn⟩) from rfl,
    dat0_after0, dat0_after1, dat0_after2]
  rw [show acc0 V c (⟨n + 1, hn⟩ : Fin cfg0.N).val (⟨n + 1, hn⟩ : Fin cfg0.N).isLt = acc0 V c (n + 1) hn from rfl, acc0_succ]
  iintro ⟨⟨Hs, Hb, Hr⟩, Ho, ⟨%d0, H0⟩, ⟨%d1, H1⟩, ⟨%d2, H2⟩⟩
  iapply (body0_last c Set.univ _ h1 h2 h3 _ _ _ _ _ _ _ _ (blk0 V c 0 ⟨n + 1, hn⟩) (blk0 V c 1 ⟨n + 1, hn⟩) ((dat0 V c).before 2 ⟨n + 1, hn⟩ d2)
    (acc0 V c n (Nat.lt_of_succ_lt hn)) _)
  isplitl [H0]; · iexact H0
  isplitl [H1]; · iexact H1
  isplitl [H2]; · iexact H2
  isplitl [Hs]; · iexact Hs
  iintro ⟨H0, H1, H2, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  iexact H2

/-- The library's body obligation, at every point. -/
theorem body0_obligation (c : Dev nD) : BodyObligation (dat0 (F := F) V c) (defs₀ (F := F)) Variants.none () Set.univ := fun t => by
  rw [bigSep_W0, bigSep_W0]
  obtain ⟨n, hn⟩ := t
  cases n with
  | zero => exact body0_at_first V c hn
  | succ n =>
    by_cases h11 : n + 1 = 11
    · exact body0_at_last V c n hn h11
    · exact body0_at_mid V c n hn h11

end Cert.KernelIdeal.Hand

end
-- ==== Proof.KI.Reg1.lean ====
/-
  The second launch, at any float instance: one grid point handles 400 rows of the adjacency. From the 400×10000
  block of adj (converted to bf16), the whole 10000×60 support s1, the bias row b1 and the two weight matrices W2, W3
  it leaves in its two output blocks
    * the 400×7 block  relu(adj_blk · s1 + b1) · W2 · W3  (converted to bf16), and
    * the 400×10000 block of adj itself converted to bf16.
  The body has one control case, reads every input block whole and stores each output block whole, so what it leaves
  is a function of the five input blocks alone; the invariant between points carries nothing of the kernel's own.
-/
import proofs.«173976_g38912403702117_cont_8to1_b_1654_12_alg».proof.Proof.Gen.KernelIdeal.Launch
import proofs.«173976_g38912403702117_cont_8to1_b_1654_12_alg».proof.Proof.Gen.KernelIdeal.Skeleton
import proofs.«173976_g38912403702117_cont_8to1_b_1654_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the two output blocks -/

abbrev whole400x10000 : Rect S400x10000 := Rect.unit (s := S400x10000) ![0, 0] S400x10000.size inb_S400x10000_S400x10000_0_0
abbrev whole10000x60 : Rect S10000x60 := Rect.unit (s := S10000x60) ![0, 0] S10000x60.size inb_S10000x60_S10000x60_0_0
abbrev whole1x60 : Rect S1x60 := Rect.unit (s := S1x60) ![0, 0] S1x60.size inb_S1x60_S1x60_0_0
abbrev whole60x30 : Rect S60x30 := Rect.unit (s := S60x30) ![0, 0] S60x30.size inb_S60x30_S60x30_0_0
abbrev whole30x7 : Rect S30x7 := Rect.unit (s := S30x7) ![0, 0] S30x7.size inb_S30x7_S30x7_0_0
abbrev whole400x7 : Rect S400x7 := Rect.unit (s := S400x7) ![0, 0] S400x7.size inb_S400x7_S400x7_0_0

/-- The 400×7 output block: the layer's product chain of the five input blocks, stored whole. -/
def uBlock (a : Vec F S400x10000 .f32) (s : Vec F S10000x60 .bf16) (b : Vec F S1x60 .f32) (w2 : Vec F S60x30 .f32) (w3 : Vec F S30x7 .f32) :
    Vec F S400x7 .bf16 :=
  View.canon [⟨whole400x7, k1_pay2 (View.ld a whole400x10000) (View.ld s whole10000x60) (View.ld b whole1x60) (View.ld w2 whole60x30) (View.ld w3 whole30x7)⟩]

/-- The 400×10000 output block: the adjacency block in the narrower format, stored whole. -/
def a16Block (a : Vec F S400x10000 .f32) : Vec F S400x10000 .bf16 :=
  View.canon [⟨whole400x10000, k1_pay1 (View.ld a whole400x10000)⟩]

/-- One whole-block store covers the block. -/
theorem covers_u (p : Vec F S400x7 .bf16) (y : S400x7.Idx) :
    ∃ pc ∈ ([⟨whole400x7, p⟩] : List (View.Piece (Elt F) S400x7 .bf16)), y ∈ pc.1.set :=
  View.cover_of_tiled [⟨whole400x7, p⟩] S400x7.size (by rfl) y
theorem covers_a16 (p : Vec F S400x10000 .bf16) (y : S400x10000.Idx) :
    ∃ pc ∈ ([⟨whole400x10000, p⟩] : List (View.Piece (Elt F) S400x10000 .bf16)), y ∈ pc.1.set :=
  View.cover_of_tiled [⟨whole400x10000, p⟩] S400x10000.size (by rfl) y

/-! ## The body's triple -/

set_option maxHeartbeats 2000000 in
/-- On whole staging memrefs, the inputs' at contents `a s b w2 w3` and the outputs' at anything, the body runs to
    the continuation with the inputs as they were and the outputs at `uBlock` and `a16Block`. -/
theorem body1_sound (c : Dev nD) (E : Set ℕ) (i : grid1.Coords)
    (arg1 : Memref sig .tc .vmem S400x10000 .f32) (harg1 : arg1.IsWhole) (arg2 : Memref sig .tc .vmem S10000x60 .bf16) (harg2 : arg2.IsWhole)
    (arg3 : Memref sig .tc .vmem S1x60 .f32) (harg3 : arg3.IsWhole) (arg4 : Memref sig .tc .vmem S60x30 .f32) (harg4 : arg4.IsWhole)
    (arg5 : Memref sig .tc .vmem S30x7 .f32) (harg5 : arg5.IsWhole) (arg6 : Memref sig .tc .vmem S400x7 .bf16) (harg6 : arg6.IsWhole)
    (arg7 : Memref sig .tc .vmem S400x10000 .bf16) (harg7 : arg7.IsWhole)
    (a : Vec F S400x10000 .f32) (s : Vec F S10000x60 .bf16) (b : Vec F S1x60 .f32) (w2 : Vec F S60x30 .f32) (w3 : Vec F S30x7 .f32)
    (K : PUnit → sProp 𝕄) :
    iprop(owns (c : Thread nD τ) arg1 fullShare a ∗ owns (c : Thread nD τ) arg2 fullShare s ∗ owns (c : Thread nD τ) arg3 fullShare b
        ∗ owns (c : Thread nD τ) arg4 fullShare w2 ∗ owns (c : Thread nD τ) arg5 fullShare w3
        ∗ (∃ d, owns (c : Thread nD τ) arg6 fullShare d) ∗ (∃ d, owns (c : Thread nD τ) arg7 fullShare d)
        ∗ (iprop(owns (c : Thread nD τ) arg1 fullShare a ∗ owns (c : Thread nD τ) arg2 fullShare s ∗ owns (c : Thread nD τ) arg3 fullShare b
            ∗ owns (c : Thread nD τ) arg4 fullShare w2 ∗ owns (c : Thread nD τ) arg5 fullShare w3
            ∗ owns (c : Thread nD τ) arg6 fullShare (uBlock a s b w2 w3) ∗ owns (c : Thread nD τ) arg7 fullShare (a16Block a)) -∗ K ⟨⟩))
      ⊢ wp frame (wpE (defs₀ (F := F)) Variants.none c none) E (cc1__l1_body i arg1 harg1 arg2 harg2 arg3 harg3 arg4 harg4 arg5 harg5 arg6 harg6 arg7 harg7) K := by
  simp only [cc1__l1_body_eq_skeleton]; unfold cc1__l1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers_u _)
  iexists _; isplitr
  swap; · iexact H7
  ipureintro
  exact View.read_writes_eq_canon _ _ _ (covers_a16 _)

/-! ## The proof data and the body obligation -/

/-- The launch's proof data on core `c`: the arrays as found; after the body at point `t` each input's buffer at its
    block and the outputs' at `uBlock` / `a16Block` of the input blocks; nothing of the kernel's own carried between points. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => uBlock (blk1 V c 0 t) (blk1 V c 1 t) (blk1 V c 2 t) (blk1 V c 3 t) (blk1 V c 4 t)
    | ⟨6, _⟩ => a16Block (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) :
    (dat1 V c).after 5 t = uBlock (blk1 V c 0 t) (blk1 V c 1 t) (blk1 V c 2 t) (blk1 V c 3 t) (blk1 V c 4 t) := by dsimp only [dat1]
theorem dat1_after6 (c : Dev nD) (t : Fin cfg1.N) : (dat1 V c).after 6 t = a16Block (blk1 V c 0 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_sound c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body1_obligation (c : Dev nD) : BodyObligation (dat1 (F := F) V c) (defs₀ (F := F)) Variants.none () Set.univ := fun t => by
  rw [bigSep_W1, bigSep_W1]
  exact body1_at V c t

end Cert.KernelIdeal.Hand

end
-- ==== Proof.KI.Reg2.lean ====
/-
  The third launch, at any float instance: one grid point handles 1000 rows of the adjacency. From the 1000×10000
  block of adj (in bf16), the whole 10000×7 support u, the bias row b2 and the weight matrix W3 it leaves in its
  output block the 1000×7 block  adj_blk · u + b2 · W3  (converted to bf16).
  The body has one control case, reads every input block whole and stores the output block whole, so what it leaves
  is a function of the four input blocks alone; the invariant between points carries nothing of the kernel's own.
-/
import proofs.«173976_g38912403702117_cont_8to1_b_1654_12_alg».proof.Proof.Gen.KernelIdeal.Launch
import proofs.«173976_g38912403702117_cont_8to1_b_1654_12_alg».proof.Proof.Gen.KernelIdeal.Skeleton
import proofs.«173976_g38912403702117_cont_8to1_b_1654_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point, fetched there or not -/

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the output block -/

abbrev whole2_1000x10000 : Rect S1000x10000 := Rect.unit (s := S1000x10000) ![0, 0] S1000x10000.size inb_S1000x10000_S1000x10000_0_0
abbrev whole2_10000x7 : Rect S10000x7 := Rect.unit (s := S10000x7) ![0, 0] S10000x7.size inb_S10000x7_S10000x7_0_0
abbrev whole2_1x30 : Rect S1x30 := Rect.unit (s := S1x30) ![0, 0] S1x30.size inb_S1x30_S1x30_0_0
abbrev whole2_30x7 : Rect S30x7 := Rect.unit (s := S30x7) ![0, 0] S30x7.size inb_S30x7_S30x7_0_0
abbrev whole2_1000x7 : Rect S1000x7 := Rect.unit (s := S1000x7) ![0, 0] S1000x7.size inb_S1000x7_S1000x7_0_0

/-- The 1000×7 output block, stored whole. -/
def tBlock (a : Vec F S1000x10000 .bf16) (u : Vec F S10000x7 .bf16) (b : Vec F S1x30 .f32) (w3 : Vec F S30x7 .f32) : Vec F S1000x7 .bf16 :=
  View.canon [⟨whole2_1000x7, k2_pay1 (View.ld b whole2_1x30) (View.ld w3 whole2_30x7) (View.ld a whole2_1000x10000) (View.ld u whole2_10000x7)⟩]

/-- One whole-block store covers the block. -/
theorem covers_t (p : Vec F S1000x7 .bf16) (y : S1000x7.Idx) :
    ∃ pc ∈ ([⟨whole2_1000x7, p⟩] : List (View.Piece (Elt F) S1000x7 .bf16)), y ∈ pc.1.set :=
  View.cover_of_tiled [⟨whole2_1000x7, p⟩] S1000x7.size (by rfl) y

/-! ## The body's triple -/

set_option maxHeartbeats 2000000 in
/-- On whole staging memrefs, the inputs' at contents `a u b w3` and the output's at anything, the body runs to
    the continuation with the inputs as they were and the output at `tBlock`. -/
theorem body2_sound (c : Dev nD) (E : Set ℕ) (i : grid2.Coords)
    (arg1 : Memref sig .tc .vmem S1000x10000 .bf16) (harg1 : arg1.IsWhole) (arg2 : Memref sig .tc .vmem S10000x7 .bf16) (harg2 : arg2.IsWhole)
    (arg3 : Memref sig .tc .vmem S1x30 .f32) (harg3 : arg3.IsWhole) (arg4 : Memref sig .tc .vmem S30x7 .f32) (harg4 : arg4.IsWhole)
    (arg5 : Memref sig .tc .vmem S1000x7 .bf16) (harg5 : arg5.IsWhole)
    (a : Vec F S1000x10000 .bf16) (u : Vec F S10000x7 .bf16) (b : Vec F S1x30 .f32) (w3 : Vec F S30x7 .f32)
    (K : PUnit → sProp 𝕄) :
    iprop(owns (c : Thread nD τ) arg1 fullShare a ∗ owns (c : Thread nD τ) arg2 fullShare u ∗ owns (c : Thread nD τ) arg3 fullShare b
        ∗ owns (c : Thread nD τ) arg4 fullShare w3
        ∗ (∃ d, owns (c : Thread nD τ) arg5 fullShare d)
        ∗ (iprop(owns (c : Thread nD τ) arg1 fullShare a ∗ owns (c : Thread nD τ) arg2 fullShare u ∗ owns (c : Thread nD τ) arg3 fullShare b
            ∗ owns (c : Thread nD τ) arg4 fullShare w3
            ∗ owns (c : Thread nD τ) arg5 fullShare (tBlock a u b w3)) -∗ K ⟨⟩))
      ⊢ wp frame (wpE (defs₀ (F := F)) Variants.none c none) E (cc2__l2_body i arg1 harg1 arg2 harg2 arg3 harg3 arg4 harg4 arg5 harg5) K := by
  simp only [cc2__l2_body_eq_skeleton]; unfold cc2__l2_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers_t _)

/-! ## The proof data and the body obligation -/

/-- The launch's proof data on core `c`: the arrays as found; after the body at point `t` each input's buffer at its
    block and the output's at `tBlock` of the input blocks; nothing of the kernel's own carried between points. -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => tBlock (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = tBlock (blk2 V c 0 t) (blk2 V c 1 t) (blk2 V c 2 t) (blk2 V c 3 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2_sound c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body2_obligation (c : Dev nD) : BodyObligation (dat2 (F := F) V c) (defs₀ (F := F)) Variants.none () Set.univ := fun t => by
  rw [bigSep_W2, bigSep_W2]
  exact body2_at V c t

end Cert.KernelIdeal.Hand

end
-- ==== Proof.KI.Reg3.lean ====
/-
  The last launch, at any float instance: one grid point handles 1000 rows of the adjacency. From the 1000×10000
  block of adj (in bf16), the whole 10000×7 support t and the bias row b3 it leaves in its output block the
  1000×7 block  log_softmax (adj_blk · t + b3)  over each row, in f32.
  The body has one control case, reads every input block whole and stores the output block whole, so what it leaves
  is a function of the three input blocks alone; the invariant between points carries nothing of the kernel's own.
-/
import proofs.«173976_g38912403702117_cont_8to1_b_1654_12_alg».proof.Proof.Gen.KernelIdeal.Launch
import proofs.«173976_g38912403702117_cont_8to1_b_1654_12_alg».proof.Proof.Gen.KernelIdeal.Skeleton
import proofs.«173976_g38912403702117_cont_8to1_b_1654_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at grid point `t`, read off its array as the launch finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block at every point, fetched there or not -/

theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## What the body leaves in the output block -/

abbrev whole3_1000x10000 : Rect S1000x10000 := Rect.unit (s := S1000x10000) ![0, 0] S1000x10000.size inb_S1000x10000_S1000x10000_0_0
abbrev whole3_10000x7 : Rect S10000x7 := Rect.unit (s := S10000x7) ![0, 0] S10000x7.size inb_S10000x7_S10000x7_0_0
abbrev whole3_1x7 : Rect S1x7 := Rect.unit (s := S1x7) ![0, 0] S1x7.size inb_S1x7_S1x7_0_0
abbrev whole3_1000x7 : Rect S1000x7 := Rect.unit (s := S1000x7) ![0, 0] S1000x7.size inb_S1000x7_S1000x7_0_0

/-- The 1000×7 output block, stored whole. -/
def outBlock (a : Vec F S1000x10000 .bf16) (t : Vec F S10000x7 .bf16) (b : Vec F S1x7 .f32) : Vec F S1000x7 .f32 :=
  View.canon [⟨whole3_1000x7, k3_pay1 (View.ld a whole3_1000x10000) (View.ld t whole3_10000x7) (View.ld b whole3_1x7)⟩]

/-- One whole-block store covers the block. -/
theorem covers_out (p : Vec F S1000x7 .f32) (y : S1000x7.Idx) :
    ∃ pc ∈ ([⟨whole3_1000x7, p⟩] : List (View.Piece (Elt F) S1000x7 .f32)), y ∈ pc.1.set :=
  View.cover_of_tiled [⟨whole3_1000x7, p⟩] S1000x7.size (by rfl) y

/-! ## The body's triple -/

set_option maxHeartbeats 2000000 in
/-- On whole staging memrefs, the inputs' at contents `a s b` and the output's at anything, the body runs to
    the continuation with the inputs as they were and the output at `outBlock`. -/
theorem body3_sound (c : Dev nD) (E : Set ℕ) (i : grid3.Coords)
    (arg1 : Memref sig .tc .vmem S1000x10000 .bf16) (harg1 : arg1.IsWhole) (arg2 : Memref sig .tc .vmem S10000x7 .bf16) (harg2 : arg2.IsWhole)
    (arg3 : Memref sig .tc .vmem S1x7 .f32) (harg3 : arg3.IsWhole)
    (arg4 : Memref sig .tc .vmem S1000x7 .f32) (harg4 : arg4.IsWhole)
    (a : Vec F S1000x10000 .bf16) (s : Vec F S10000x7 .bf16) (b : Vec F S1x7 .f32)
    (K : PUnit → sProp 𝕄) :
    iprop(owns (c : Thread nD τ) arg1 fullShare a ∗ owns (c : Thread nD τ) arg2 fullShare s ∗ owns (c : Thread nD τ) arg3 fullShare b
        ∗ (∃ d, owns (c : Thread nD τ) arg4 fullShare d)
        ∗ (iprop(owns (c : Thread nD τ) arg1 fullShare a ∗ owns (c : Thread nD τ) arg2 fullShare s ∗ owns (c : Thread nD τ) arg3 fullShare b
            ∗ owns (c : Thread nD τ) arg4 fullShare (outBlock a s b)) -∗ K ⟨⟩))
      ⊢ wp frame (wpE (defs₀ (F := F)) Variants.none c none) E (cc3__l3_body i arg1 harg1 arg2 harg2 arg3 harg3 arg4 harg4) K := by
  simp only [cc3__l3_body_eq_skeleton]; unfold cc3__l3_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers_out _)

/-! ## The proof data and the body obligation -/

/-- The launch's proof data on core `c`: the arrays as found; after the body at point `t` each input's buffer at its
    block and the output's at `outBlock` of the input blocks; nothing of the kernel's own carried between points. -/

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => outBlock (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) :
    (dat3 V c).after 3 t = outBlock (blk3 V c 0 t) (blk3 V c 1 t) (blk3 V c 2 t) := by dsimp only [dat3]

theorem dat3_before0 (c : Dev nD) (t : Fin cfg3.N) (d) : (dat3 V c).before 0 t d = blk3 V c 0 t :=
  found3_0 V (dat3 V c) (dat3_A V c 0) (dat3_after0 V c) t d
theorem dat3_before1 (c : Dev nD) (t : Fin cfg3.N) (d) : (dat3 V c).before 1 t d = blk3 V c 1 t :=
  found3_1 V (dat3 V c) (dat3_A V c 1) (dat3_after1 V c) t d
theorem dat3_before2 (c : Dev nD) (t : Fin cfg3.N) (d) : (dat3 V c).before 2 t d = blk3 V c 2 t :=
  found3_2 V (dat3 V c) (dat3_A V c 2) (dat3_after2 V c) t d

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (body3_sound c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body3_obligation (c : Dev nD) : BodyObligation (dat3 (F := F) V c) (defs₀ (F := F)) Variants.none () Set.univ := fun t => by
  rw [bigSep_W3, bigSep_W3]
  exact body3_at V c t

end Cert.KernelIdeal.Hand

end
-- ==== Proof.KI.Run.lean ====
/-
  The run of the whole program, at any float instance. @main is four stretches of host operations — the three bias
  vectors reshaped to rows, the feature matrix transposed, a zero constant; the transposed features padded to 1536 rows;
  a second zero constant; the first weight matrix padded to 1536 rows — and then the four launches, nothing after them.

  The buffer contents at each boundary are a fold from the launch memory: a stretch takes the contents to what its
  operations compute from them, in order; a launch takes them to the same contents but for its own arrays, where an input
  array holds what it held and an output array its blocks' write-backs folded over the grid. Between any two items a core
  holds every unscoped buffer whole at the boundary's contents, its generator register at some state, and owes nothing.
  Each launch is entered from that state and left in it at the next boundary's contents; the program therefore terminates
  with every unscoped buffer at the last boundary's contents. No stretch and no launch writes an argument — a launch that
  has an argument among its arrays only reads it — so the fold at an argument's buffer walks back to the launch memory.
-/
import proofs.«173976_g38912403702117_cont_8to1_b_1654_12_alg».proof.Proof.Gen.KernelIdeal.Launch
import proofs.«173976_g38912403702117_cont_8to1_b_1654_12_alg».proof.Proof.Gen.KernelIdeal.Skeleton
import proofs.«173976_g38912403702117_cont_8to1_b_1654_12_alg».proof.Proof.Gen.KernelIdeal.Points
import proofs.«173976_g38912403702117_cont_8to1_b_1654_12_alg».proof.Proof.Gen.KernelIdeal.Regions
import proofs.«173976_g38912403702117_cont_8to1_b_1654_12_alg».proof.Proof.KI.Reg0
import proofs.«173976_g38912403702117_cont_8to1_b_1654_12_alg».proof.Proof.KI.Reg1
import proofs.«173976_g38912403702117_cont_8to1_b_1654_12_alg».proof.Proof.KI.Reg2
import proofs.«173976_g38912403702117_cont_8to1_b_1654_12_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first stretch: the bias rows, the transposed features, a zero. -/
abbrev W1 : Dev nD → Valuation τ sig (Elt F) := fun c => StableHlo.after hostOps0 (W0 m ρ c)
/-- After the second stretch: the transposed features padded with zero rows. -/
abbrev W2 : Dev nD → Valuation τ sig (Elt F) := fun c => StableHlo.after hostOps0_1 (W1 m ρ c)
/-- After the third stretch: another zero. -/
abbrev W3 : Dev nD → Valuation τ sig (Elt F) := fun c => StableHlo.after hostOps0_2 (W2 m ρ c)
/-- After the fourth stretch: the first weight matrix padded with zero rows. What the first launch is entered from. -/
abbrev W4 : Dev nD → Valuation τ sig (Elt F) := fun c => StableHlo.after hostOps0_3 (W3 m ρ c)
/-- The same contents read at the TensorCore's references (what the first launch's proof data take). -/
abbrev V4 : (c : Dev nD) → (b : Ref sig .tc) → Buf (Elt F) ((c : Thread nD τ).loc b) := fun c b => W4 m ρ c b

/-- When the first launch (the support x·W1) returns: its arrays hold what its write-backs leave (an input array what it held at entry, an
    output array its blocks' write-backs folded over the grid), every other buffer what it held at entry. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same contents read at the TensorCore's references. -/
abbrev V5 : (c : Dev nD) → (b : Ref sig .tc) → Buf (Elt F) ((c : Thread nD τ).loc b) := fun c b => W5 m ρ c b
/-- At the return each array holds what the pipeline leaves, and every other buffer what it held at entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- When the second launch (the first layer and the bf16 copy of the adjacency) returns: its arrays hold what its write-backs leave (an input array what it held at entry, an
    output array its blocks' write-backs folded over the grid), every other buffer what it held at entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same contents read at the TensorCore's references. -/
abbrev V6 : (c : Dev nD) → (b : Ref sig .tc) → Buf (Elt F) ((c : Thread nD τ).loc b) := fun c b => W6 m ρ c b
/-- At the return each array holds what the pipeline leaves, and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- When the third launch (the second propagation) returns: its arrays hold what its write-backs leave (an input array what it held at entry, an
    output array its blocks' write-backs folded over the grid), every other buffer what it held at entry. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same contents read at the TensorCore's references. -/
abbrev V7 : (c : Dev nD) → (b : Ref sig .tc) → Buf (Elt F) ((c : Thread nD τ).loc b) := fun c b => W7 m ρ c b
/-- At the return each array holds what the pipeline leaves, and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- When the fourth launch (the last propagation) returns: its arrays hold what its write-backs leave (an input array what it held at entry, an
    output array its blocks' write-backs folded over the grid), every other buffer what it held at entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references. -/
abbrev V8 : (c : Dev nD) → (b : Ref sig .tc) → Buf (Elt F) ((c : Thread nD τ).loc b) := fun c b => W8 m ρ c b
/-- At the return each array holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No stretch writes an argument (the stretches write the reshaped rows, the transpose, the constants and the padded
matrices), and a launch changes its output arrays only; where an argument is among a launch's arrays it is an input. -/

/-- A reference none of the four stretches writes holds, when the first launch is entered, what it held at launch. -/
theorem W4_of_not_written (c : Dev nD) (r : Ref sig .tc) (h0 : r ∉ hostOps0_W) (h1 : r ∉ hostOps0_1_W) (h2 : r ∉ hostOps0_2_W)
    (h3 : r ∉ hostOps0_3_W) : W4 m ρ c (Proc.devRef .tc r) = m ((c : Thread nD τ).loc r) :=
  (StableHlo.after_of_writes_sub hostOps0_3 _ hostOps0_3_writes h3).trans <|
    (StableHlo.after_of_writes_sub hostOps0_2 _ hostOps0_2_writes h2).trans <|
      (StableHlo.after_of_writes_sub hostOps0_1 _ hostOps0_1_writes h1).trans <|
        (StableHlo.after_of_writes_sub hostOps0 _ hostOps0_writes h0).trans rfl

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = m ((c : Thread nD τ).loc main_arg0) := W4_of_not_written m ρ c main_arg0 (by decide) (by decide) (by decide) (by decide)
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := (W6_arr m ρ c 0).trans (((dat1 (V5 m ρ) c).arrAt_in 0 rfl _).trans (dat1_A (V5 m ρ) c 0))
    _ = W4 m ρ c (Proc.devRef .tc main_arg1) := W5_of_ne m ρ c main_arg1 (by decide)
    _ = m ((c : Thread nD τ).loc main_arg1) := W4_of_not_written m ρ c main_arg1 (by decide) (by decide) (by decide) (by decide)
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = m ((c : Thread nD τ).loc main_arg2) := W4_of_not_written m ρ c main_arg2 (by decide) (by decide) (by decide) (by decide)
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = m ((c : Thread nD τ).loc main_arg3) := W4_of_not_written m ρ c main_arg3 (by decide) (by decide) (by decide) (by decide)
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := (W6_arr m ρ c 3).trans (((dat1 (V5 m ρ) c).arrAt_in 3 rfl _).trans (dat1_A (V5 m ρ) c 3))
    _ = W4 m ρ c (Proc.devRef .tc main_arg4) := W5_of_ne m ρ c main_arg4 (by decide)
    _ = m ((c : Thread nD τ).loc main_arg4) := W4_of_not_written m ρ c main_arg4 (by decide) (by decide) (by decide) (by decide)
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = m ((c : Thread nD τ).loc main_arg5) := W4_of_not_written m ρ c main_arg5 (by decide) (by decide) (by decide) (by decide)
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := (W7_arr m ρ c 3).trans (((dat2 (V6 m ρ) c).arrAt_in 3 rfl _).trans (dat2_A (V6 m ρ) c 3))
    _ = W5 m ρ c (Proc.devRef .tc main_arg6) := (W6_arr m ρ c 4).trans (((dat1 (V5 m ρ) c).arrAt_in 4 rfl _).trans (dat1_A (V5 m ρ) c 4))
    _ = W4 m ρ c (Proc.devRef .tc main_arg6) := W5_of_ne m ρ c main_arg6 (by decide)
    _ = m ((c : Thread nD τ).loc main_arg6) := W4_of_not_written m ρ c main_arg6 (by decide) (by decide) (by decide) (by decide)
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = m ((c : Thread nD τ).loc main_arg7) := W4_of_not_written m ρ c main_arg7 (by decide) (by decide) (by decide) (by decide)

/-! ## The proof data family and the thread state -/

/-- The prefetched tables' admissible contents: no launch has a table. -/
abbrev adm : (p : Fin 4) → (pcfgs (F := F) p).Adm := fun p => (cfgs p).toPCfg_adm
/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
  | ⟨2, _⟩ => fun c => dat2 (V6 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A stretch of host operations over the thread state: from every unscoped buffer at `W` to every unscoped buffer at
    what the operations compute from `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The launches as segments -/

-- a library lemma stated over the pinned configuration unifies with the printed one only when unification may unfold
-- plain definitions in a metavariable's type
set_option backward.isDefEq.respectTransparency.types false in
/-- The first launch over the thread state: entered from every unscoped buffer at `W4`, left at `W5`. Its arrays are split
    out of the unscoped buffers at entry and put back at the exit contents; the generator register and the scoped buffers no
    window stages go into the launch's own invariant — which carries the accumulator between grid points — at the first
    point and come back out of it at the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V4 m ρ) c).Φ 0 from rfl]
    refine BIBase.Entails.trans ?_ (phi0_first (V4 m ρ) c)
    iintro ⟨Hp, -, Hr⟩
    isplitl [Hp]; · iexact Hp
    iexact Hr
  hout c := by
    rw [Pipeline.ownSems0_none, show (pdats m ρ 0 c).Φ (Fin.last _) = (dat0 (V4 m ρ) c).Φ (Fin.last cfg0.N) from rfl]
    refine (phi0_last (V4 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second launch over the thread state: entered from every unscoped buffer at `W5`, left at `W6`. Its arrays are
    split out of the unscoped buffers at entry and put back at the exit contents; the generator register rides through the
    invariant of a body that carries nothing between points; nothing is owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third launch over the thread state: entered from every unscoped buffer at `W6`, left at `W7`, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The fourth launch over the thread state: entered from every unscoped buffer at `W7`, left at `W8` beside the core
    owing nothing — the state the program returns in. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight items in order: the four stretches, each from its boundary's contents, then the four launches. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .region (reg3 m ρ) ]

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final memory holds each unscoped buffer at the last boundary's
    contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: the program terminates, nothing faulting, and every final memory holds each of the eight argument arrays
    as launched — each read off the last boundary's contents, which at an argument are the launch memory's. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) (onTc (τ := τ) (main (F := F))) ⟨m, fun _ => 0, ρ⟩).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.KernelIdeal.Hand

end
-- ==== Proof.Spec.lean ====
/-
  The mathematics of the three-layer graph convolution, over the extended reals, index by index.
  A matrix is a function on rank-2 indices; `mm` is the matrix product (a finite sum of products), `addRow` adds a row
  vector to every row, `relu` is the maximum with zero, and `logSoftmax` subtracts from each row its maximum and then the
  logarithm of the sum of the exponentials of the shifted row. Two arrangements of the same network are named:
    * `refNet`  — layer by layer, the adjacency applied to each layer's projected features:
        log_softmax (adj · ((adj · (relu (adj · (x · W1) + b1) · W2) + b2) · W3) + b3);
    * `kerNet`  — the last two projections folded into the first aggregation, the second bias carried through W3:
        log_softmax (adj · (adj · ((relu (adj · s1 + b1) · W2) · W3) + b2 · W3) + b3),   s1 the support x · W1.
  They agree wherever every entry is a real number: the product of matrices is associative and distributes over sums there.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals on rank-2 indices. -/
abbrev Mat (n m : ℕ) : Type := (⟨2, ![n, m]⟩ : Shape).Idx → EReal
/-- A vector of extended reals on rank-1 indices. -/
abbrev Row (n : ℕ) : Type := (⟨1, ![n]⟩ : Shape).Idx → EReal

variable {n k m : ℕ}

/-- The row of a rank-2 index, as a number below the first extent. -/
def rowOf (y : (⟨2, ![n, m]⟩ : Shape).Idx) : Fin n := ⟨(y 0).val, idx2_lt0 y⟩
/-- The column of a rank-2 index, as a number below the second extent. -/
def colOf (y : (⟨2, ![n, m]⟩ : Shape).Idx) : Fin m := ⟨(y 1).val, idx2_lt1 y⟩

@[simp] theorem rowOf_ix2 (i : Fin n) (j : Fin m) : rowOf (ix2 i j) = i := rfl
@[simp] theorem colOf_ix2 (i : Fin n) (j : Fin m) : colOf (ix2 i j) = j := rfl

/-- The matrix product: entry (i, j) is the sum over l of A(i, l) · B(l, j). -/
def mm (A : Mat n k) (B : Mat k m) : Mat n m :=
  fun y => ∑ l : Fin k, A (ix2 (rowOf y) l) * B (ix2 l (colOf y))

theorem mm_apply (A : Mat n k) (B : Mat k m) (i : Fin n) (j : Fin m) :
    mm A B (ix2 i j) = ∑ l : Fin k, A (ix2 i l) * B (ix2 l j) := rfl

/-- A row vector added to every row. -/
def addRow (A : Mat n m) (b : Row m) : Mat n m := fun y => A y + b (ix1 (colOf y))

theorem addRow_apply (A : Mat n m) (b : Row m) (i : Fin n) (j : Fin m) : addRow A b (ix2 i j) = A (ix2 i j) + b (ix1 j) := rfl

/-- A row vector as a one-row matrix. -/
def asRow (b : Row m) : Mat 1 m := fun y => b (ix1 (colOf y))

/-- The one-row matrix `R` added to every row. -/
def addRowMat (A : Mat n m) (R : Mat 1 m) : Mat n m := fun y => A y + R (ix2 0 (colOf y))

theorem addRowMat_apply (A : Mat n m) (R : Mat 1 m) (i : Fin n) (j : Fin m) : addRowMat A R (ix2 i j) = A (ix2 i j) + R (ix2 0 j) := rfl

/-- The maximum with zero, entry by entry. -/
def relu (A : Mat n m) : Mat n m := fun y => max (A y) 0

theorem relu_apply (A : Mat n m) (y : (⟨2, ![n, m]⟩ : Shape).Idx) : relu A y = max (A y) 0 := rfl

/-- A row's maximum, folded from −∞. -/
def rowMax (H : Mat n m) (i : Fin n) : EReal := (Finset.univ : Finset (Fin m)).fold max ⊥ (fun j => H (ix2 i j))

/-- The sum over a row of the exponentials of the row shifted by `c`. -/
def rowExpSum (H : Mat n m) (i : Fin n) (c : EReal) : EReal := ∑ j : Fin m, Ideal.exp (H (ix2 i j) - c)

/-- log-softmax along rows: (h − max) − log Σ exp (h − max). -/
def logSoftmax (H : Mat n m) : Mat n m :=
  fun y => (H y - rowMax H (rowOf y)) - Ideal.log (rowExpSum H (rowOf y) (rowMax H (rowOf y)))

theorem logSoftmax_apply (H : Mat n m) (i : Fin n) (j : Fin m) :
    logSoftmax H (ix2 i j) = (H (ix2 i j) - rowMax H i) - Ideal.log (rowExpSum H i (rowMax H i)) := rfl

/-! ## The network in its two arrangements, at the statement's sizes -/

/-- The first layer after its activation: relu (adj · s + b1), from a support `s`. -/
def layer1 (adj : Mat 10000 10000) (s : Mat 10000 60) (b1 : Row 60) : Mat 10000 60 := relu (addRow (mm adj s) b1)

/-- The reference's arrangement, from the support x · W1 on. -/
def refNet (x : Mat 10000 1433) (adj : Mat 10000 10000) (W1 : Mat 1433 60) (b1 : Row 60) (W2 : Mat 60 30) (b2 : Row 30)
    (W3 : Mat 30 7) (b3 : Row 7) : Mat 10000 7 :=
  logSoftmax (addRow (mm adj (mm (addRow (mm adj (mm (layer1 adj (mm x W1) b1) W2)) b2) W3)) b3)

/-- The folded projection the second launch leaves, the bias as a one-row matrix: (relu (adj · s + B1) · W2) · W3. -/
def foldedU (adj : Mat 10000 10000) (s : Mat 10000 60) (B1 : Mat 1 60) (W2 : Mat 60 30) (W3 : Mat 30 7) : Mat 10000 7 :=
  mm (mm (relu (addRowMat (mm adj s) B1)) W2) W3

/-- What the third launch leaves, the bias as a one-row matrix: adj · u + B2 · W3. -/
def foldedT (adj : Mat 10000 10000) (u : Mat 10000 7) (B2 : Mat 1 30) (W3 : Mat 30 7) : Mat 10000 7 :=
  addRowMat (mm adj u) (mm B2 W3)

/-- What the last launch leaves, the bias as a one-row matrix: log_softmax (adj · t + B3). -/
def lastOut (adj : Mat 10000 10000) (t : Mat 10000 7) (B3 : Mat 1 7) : Mat 10000 7 := logSoftmax (addRowMat (mm adj t) B3)

/-- The kernel's arrangement, from the support `s` on, the three biases as one-row matrices. -/
def kerNet (adj : Mat 10000 10000) (s : Mat 10000 60) (B1 : Mat 1 60) (W2 : Mat 60 30) (B2 : Mat 1 30) (W3 : Mat 30 7) (B3 : Mat 1 7) : Mat 10000 7 :=
  lastOut adj (foldedT adj (foldedU adj s B1 W2 W3) B2 W3) B3

/-- The support as the first launch accumulates it: over the transposed features padded with zero rows to 1536,
    the sum over all 1536 padded rows of xt(k, i) · w(k, j). -/
def supportPadded (xt : Mat 1536 10000) (w : Mat 1536 60) : Mat 10000 60 :=
  fun y => ∑ l : Fin 1536, xt (ix2 l (rowOf y)) * w (ix2 l (colOf y))

theorem supportPadded_apply (xt : Mat 1536 10000) (w : Mat 1536 60) (i : Fin 10000) (j : Fin 60) :
    supportPadded xt w (ix2 i j) = ∑ l : Fin 1536, xt (ix2 l i) * w (ix2 l j) := rfl

/-- The transposed features padded below with zero rows. -/
def padT (x : Mat 10000 1433) : Mat 1536 10000 :=
  fun y => if h : (rowOf y).val < 1433 then x (ix2 (colOf y) ⟨(rowOf y).val, h⟩) else 0

/-- The first weight matrix padded below with zero rows. -/
def padRows (W1 : Mat 1433 60) : Mat 1536 60 :=
  fun y => if h : (rowOf y).val < 1433 then W1 (ix2 ⟨(rowOf y).val, h⟩ (colOf y)) else 0

/-- Every entry is a real number. -/
def AllReal {s : Shape} (A : s.Idx → EReal) : Prop := ∀ y, ∃ r : ℝ, A y = (r : EReal)

end Cert.Spec

end
-- ==== Proof.KI.Val0.lean ====
/-
  What the first launch leaves in its output array, over the extended reals. Point t forms the product of rows
  128·t, …, 128·t + 127 of the transposed, padded features with the same rows of the padded first weight matrix:
  entry (i, j) of that product is the sum over the chunk's rows r of xt(128·t + r, i) · w(128·t + r, j). The scratch
  after point n is the sum of the products of the chunks 0, …, n (induction on n; sums of extended reals commute and
  associate, nothing more is used). The twelve chunks of 128 rows are the 1536 rows, so after the last point the
  scratch holds, at (i, j), the sum over all 1536 rows l of xt(l, i) · w(l, j). The last point alone writes the output
  back; its block is the whole array and the change of format is the identity, so the array ends holding that sum.
-/
import proofs.«173976_g38912403702117_cont_8to1_b_1654_12_alg».proof.Proof.KI.Reg0
import proofs.«173976_g38912403702117_cont_8to1_b_1654_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.KernelIdeal Cert.KernelIdeal.Gen
open scoped BigOperators

namespace Launch0

/-! ## One chunk's product at an index -/

theorem dotL_0 (y : S10000x60.Idx) (q : dot_S128x10000_S128x60_S10000x60_0_0_1_1_n_n.contr.Idx) :
    (dot_S128x10000_S128x60_S10000x60_0_0_1_1_n_n.lhsIdx y q 0).val = (q ⟨0, by decide⟩).val :=
  dot_S128x10000_S128x60_S10000x60_0_0_1_1_n_n.lhsIdx_val_of_single rfl y q
theorem dotL_1 (y : S10000x60.Idx) (q : dot_S128x10000_S128x60_S10000x60_0_0_1_1_n_n.contr.Idx) :
    (dot_S128x10000_S128x60_S10000x60_0_0_1_1_n_n.lhsIdx y q 1).val = (y 0).val := by
  unfold DotDims.lhsIdx
  rw [dif_neg (show ¬(1 : Fin S128x10000.rank) ∈ dot_S128x10000_S128x60_S10000x60_0_0_1_1_n_n.lhsBatch by decide), dif_pos (show (1 : Fin S128x10000.rank) ∈ dot_S128x10000_S128x60_S10000x60_0_0_1_1_n_n.lhsNonContracting by decide)]
  rfl
theorem dotR_0 (y : S10000x60.Idx) (q : dot_S128x10000_S128x60_S10000x60_0_0_1_1_n_n.contr.Idx) :
    (dot_S128x10000_S128x60_S10000x60_0_0_1_1_n_n.rhsIdx y q 0).val = (q ⟨0, by decide⟩).val :=
  dot_S128x10000_S128x60_S10000x60_0_0_1_1_n_n.rhsIdx_val_of_single rfl y q
theorem dotR_1 (y : S10000x60.Idx) (q : dot_S128x10000_S128x60_S10000x60_0_0_1_1_n_n.contr.Idx) :
    (dot_S128x10000_S128x60_S10000x60_0_0_1_1_n_n.rhsIdx y q 1).val = (y 1).val := by
  unfold DotDims.rhsIdx
  rw [dif_neg (show ¬(1 : Fin S128x60.rank) ∈ dot_S128x10000_S128x60_S10000x60_0_0_1_1_n_n.rhsBatch by decide), dif_pos (show (1 : Fin S128x60.rank) ∈ dot_S128x10000_S128x60_S10000x60_0_0_1_1_n_n.rhsNonContracting by decide)]
  rfl

/-- The product of a 128×10000 block with a 128×60 block, contracted over the 128 rows: entry (i, j) is the sum over the
    rows r of x(r, i) · w(r, j). -/
theorem chunkProd_apply (x : Vec Ideal S128x10000 .f32) (w : Vec Ideal S128x60 .f32) (i : Fin 10000) (j : Fin 60) :
    k0_pay1 x w (ix2 i j) = ∑ r : Fin 128, x (ix2 r i) * w (ix2 r j) := by
  unfold k0_pay1
  refine (Ideal.matmul_constant_zero_apply dot_S128x10000_S128x60_S10000x60_0_0_1_1_n_n none _ _ (ix2 i j)).trans ?_
  rw [← Equiv.sum_comp (contrEquiv1 dot_S128x10000_S128x60_S10000x60_0_0_1_1_n_n 128 rfl rfl).symm]
  refine Finset.sum_congr rfl fun r _ => ?_
  have hr := contrEquiv1_symm_val dot_S128x10000_S128x60_S10000x60_0_0_1_1_n_n 128 rfl rfl r
  have el : dot_S128x10000_S128x60_S10000x60_0_0_1_1_n_n.lhsIdx (ix2 i j) ((contrEquiv1 dot_S128x10000_S128x60_S10000x60_0_0_1_1_n_n 128 rfl rfl).symm r) = ix2 r i := funext fun a => Fin.ext (by
    match a with
    | ⟨0, _⟩ => exact (dotL_0 _ _).trans hr
    | ⟨1, _⟩ => exact dotL_1 _ _)
  have er : dot_S128x10000_S128x60_S10000x60_0_0_1_1_n_n.rhsIdx (ix2 i j) ((contrEquiv1 dot_S128x10000_S128x60_S10000x60_0_0_1_1_n_n 128 rfl rfl).symm r) = ix2 r j := funext fun a => Fin.ext (by
    match a with
    | ⟨0, _⟩ => exact (dotR_0 _ _).trans hr
    | ⟨1, _⟩ => exact dotR_1 _ _)
  rw [el, er, truncf_apply, truncf_apply, shapeCast_self, shapeCast_self]

variable (V : (c : Dev nD) → (b : Ref sig .tc) → Buf (Elt Ideal) ((c : Thread nD τ).loc b))

/-! ## The blocks of the two inputs, read off their arrays -/

/-- The block index maps over the grid: the two inputs' block index is the point on the row axis and zero on the
    column axis; the output's one block sits at the origin. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row r of chunk t of a 1536-row array. -/
def chunkRow (t : Fin cfg0.N) (r : Fin 128) : Fin 1536 :=
  ⟨128 * t.val + r.val, by have h12 : t.val < 12 := lt_of_lt_of_eq t.isLt N_0; have := r.isLt; omega⟩

theorem chunkRow_val (t : Fin cfg0.N) (r : Fin 128) : (chunkRow t r).val = 128 * t.val + r.val := rfl

/-- Row r of the features' block at point t is row 128·t + r of the array. -/
theorem blk0_0_apply (c : Dev nD) (t : Fin cfg0.N) (r : Fin 128) (i : Fin 10000) :
    (blk0 (F := Ideal) V c 0 t : S128x10000.Idx → EReal) (ix2 r i) = (V c main_v4 : S1536x10000.Idx → EReal) (ix2 (chunkRow t r) i) := by
  obtain ⟨e0, e1, -, -, -, -⟩ := index_facts0 t
  show (V c main_v4 : S1536x10000.Idx → EReal) (((cfg0.win 0).blk t).view.emb (ix2 r i)) = _
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 10000 + 1 * i.val = i.val; omega

/-- Row r of the weights' block at point t is row 128·t + r of the array. -/
theorem blk0_1_apply (c : Dev nD) (t : Fin cfg0.N) (r : Fin 128) (j : Fin 60) :
    (blk0 (F := Ideal) V c 1 t : S128x60.Idx → EReal) (ix2 r j) = (V c main_v5 : S1536x60.Idx → EReal) (ix2 (chunkRow t r) j) := by
  obtain ⟨-, -, e0, e1, -, -⟩ := index_facts0 t
  show (V c main_v5 : S1536x60.Idx → EReal) (((cfg0.win 1).blk t).view.emb (ix2 r j)) = _
  refine congrArg _ (funext fun a => Fin.ext ?_)
  match a with
  | ⟨0, _⟩ => show win0_1.index t (0 : Fin 2) * 128 + 1 * r.val = 128 * t.val + r.val; omega
  | ⟨1, _⟩ => show win0_1.index t (1 : Fin 2) * 60 + 1 * j.val = j.val; omega

/-! ## The scratch after each point -/

theorem origin2 : (![0, 0] : Fin 2 → Nat) = fun _ => 0 := funext fun a => by fin_cases a <;> rfl

/-- Chunk t's contribution to entry (i, j): the sum over its 128 rows. -/
def chunkSum (xt : Cert.Spec.Mat 1536 10000) (w : Cert.Spec.Mat 1536 60) (t : Fin cfg0.N) (i : Fin 10000) (j : Fin 60) : EReal :=
  ∑ r : Fin 128, xt (ix2 (chunkRow t r) i) * w (ix2 (chunkRow t r) j)

/-- The product formed at point t is chunk t's contribution. -/
theorem prod_at (c : Dev nD) (t : Fin cfg0.N) (i : Fin 10000) (j : Fin 60) :
    k0_pay1 (View.ld (blk0 (F := Ideal) V c 0 t) whole0_128x10000) (View.ld (blk0 (F := Ideal) V c 1 t) whole0_128x60) (ix2 i j)
      = chunkSum (V c main_v4) (V c main_v5) t i j := by
  refine (chunkProd_apply _ _ i j).trans ?_
  unfold chunkSum
  refine Finset.sum_congr rfl fun r _ => ?_
  rw [View.ld_unit_zero (S := S128x10000) origin2, View.ld_unit_zero (S := S128x60) origin2, blk0_0_apply, blk0_1_apply]

/-- The scratch after point n holds, at (i, j), the contributions of the chunks 0, …, n. -/
theorem acc0_apply (c : Dev nD) : ∀ (n : ℕ) (h : n < cfg0.N) (i : Fin 10000) (j : Fin 60),
    acc0 (F := Ideal) V c n h (ix2 i j)
      = ∑ t : Fin (n + 1), chunkSum (V c main_v4) (V c main_v5) ⟨t.val, lt_of_lt_of_le t.isLt (Nat.succ_le_of_lt h)⟩ i j
  | 0, h, i, j => by
    unfold acc0
    rw [View.canon_unit_zero origin2]
    unfold k0_pay2
    rw [shapeCast_self, Fin.sum_univ_one]
    exact prod_at V c ⟨0, h⟩ i j
  | n + 1, h, i, j => by
    unfold acc0
    rw [View.canon_unit_zero origin2]
    unfold k0_pay3
    rw [shapeCast_self, addf_apply, View.ld_unit_zero (S := S10000x60) origin2, acc0_apply c n (Nat.lt_of_succ_lt h) i j]
    refine Eq.trans ?_ (Fin.sum_univ_castSucc _).symm
    exact congrArg _ (prod_at V c ⟨n + 1, h⟩ i j)

/-! ## The twelve chunks are the 1536 rows -/

theorem sum_chunks (xt : Cert.Spec.Mat 1536 10000) (w : Cert.Spec.Mat 1536 60) (i : Fin 10000) (j : Fin 60) :
    ∑ t : Fin cfg0.N, chunkSum xt w t i j = ∑ l : Fin 1536, xt (ix2 l i) * w (ix2 l j) := by
  rw [← Equiv.sum_comp (finProdFinEquiv (m := 12) (n := 128)) (fun l : Fin 1536 => xt (ix2 l i) * w (ix2 l j)), Fintype.sum_prod_type,
    ← Equiv.sum_comp (finCongr (show cfg0.N = 12 from N_0))]
  refine Finset.sum_congr rfl fun t _ => ?_
  unfold chunkSum
  refine Finset.sum_congr rfl fun r _ => ?_
  have e : chunkRow t r = finProdFinEquiv (finCongr (show cfg0.N = 12 from N_0) t, r) :=
    Fin.ext (by show 128 * t.val + r.val = r.val + 128 * t.val; omega)
  rw [e]

/-- After the last point the scratch holds the whole sum over the 1536 rows. -/
theorem acc0_last (c : Dev nD) (n : ℕ) (hn : n < cfg0.N) (e : n = 11) (i : Fin 10000) (j : Fin 60) :
    acc0 (F := Ideal) V c n hn (ix2 i j) = Cert.Spec.supportPadded (V c main_v4) (V c main_v5) (ix2 i j) := by
  subst e
  rw [acc0_apply, Cert.Spec.supportPadded_apply, ← sum_chunks]
  exact Fintype.sum_equiv (finCongr (N_0.symm : 11 + 1 = cfg0.N)) _ _ (fun _ => rfl)

/-! ## The array after the launch -/

/-- The stored block is the scratch, entry by entry: the change of format is the identity. -/
theorem s1Block_apply (acc : Vec Ideal S10000x60 .f32) (y : S10000x60.Idx) : s1Block (F := Ideal) acc y = acc y := by
  unfold s1Block
  rw [View.canon_unit_zero origin2]
  unfold k0_pay4
  rw [truncf_apply, View.ld_unit_zero (S := S10000x60) origin2]

/-- The output's one block is the whole array: an entry of the block sits at the same place in the array. -/
theorem out_emb (t : Fin cfg0.N) (y : S10000x60.Idx) : (((cfg0.win 2).blk t).view.emb y : S10000x60.Idx) = y := by
  obtain ⟨-, -, -, -, e0, e1⟩ := index_facts0 t
  refine funext fun a => Fin.ext ?_
  match a with
  | ⟨0, _⟩ => show win0_2.index t (0 : Fin 2) * 10000 + 1 * (y 0).val = (y 0).val; omega
  | ⟨1, _⟩ => show win0_2.index t (1 : Fin 2) * 60 + 1 * (y 1).val = (y 1).val; omega

theorem mem_out (t : Fin cfg0.N) (y : S10000x60.Idx) :
    y ∈ ((cfg0.win 2).blk t).view.set ↔ ∀ a : Fin 2, win0_2.index t a * S10000x60.size a ≤ (y a).val
      ∧ (y a).val < win0_2.index t a * S10000x60.size a + S10000x60.size a := by
  show y ∈ ((View.whole main_v6).slice (win0_2.rect t)).set ↔ _
  rw [View.set_slice_whole, Rect.mem_set_unit]
  exact Iff.rfl

end Launch0

open Launch0

variable (V : (c : Dev nD) → (b : Ref sig .tc) → Buf (Elt Ideal) ((c : Thread nD τ).loc b))

theorem reg0_support (c : Dev nD) :
    ((dat0 (F := Ideal) V c).arrAt 2 cfg0.N : Cert.Spec.Mat 10000 60) = Cert.Spec.supportPadded (V c main_v4) (V c main_v5) := by
  refine (dat0 (F := Ideal) V c).arrAt_eq_of_cover 2 (Cert.Spec.supportPadded (V c main_v4) (V c main_v5)) (fun t hf => ?_)
    (fun (y : S10000x60.Idx) => ?_)
  · have ht : t.val = 11 := by
      have h1 := (flush0_2 t).mp hf
      have h2 : t.val < 12 := lt_of_lt_of_eq t.isLt N_0
      omega
    show (cfg0.win 2).cut (grid0.coords t) ((dat0 (F := Ideal) V c).after 2 t) = _
    rw [dat0_after2]
    funext y
    show s1Block (F := Ideal) (acc0 (F := Ideal) V c t.val t.isLt) y
      = Cert.Spec.supportPadded (V c main_v4) (V c main_v5) (((cfg0.win 2).blk t).view.emb y)
    rw [out_emb, s1Block_apply]
    obtain ⟨i, j, rfl⟩ : ∃ (i : Fin 10000) (j : Fin 60), y = ix2 i j := ⟨y 0, y 1, eq_ix2 y⟩
    exact acc0_last V c t.val t.isLt ht i j
  · have h11 : (11 : ℕ) < cfg0.N := lt_of_lt_of_eq (by decide : (11 : ℕ) < 12) N_0.symm
    refine ⟨⟨11, h11⟩, (flush0_2 _).mpr rfl, ?_⟩
    obtain ⟨-, -, -, -, e0, e1⟩ := index_facts0 ⟨11, h11⟩
    rw [mem_out]
    intro a
    have y0 := idx2_lt0 y
    have y1 := idx2_lt1 y
    match a with
    | ⟨0, _⟩ =>
      show win0_2.index ⟨11, h11⟩ (0 : Fin 2) * 10000 ≤ (y 0).val ∧ (y 0).val < win0_2.index ⟨11, h11⟩ (0 : Fin 2) * 10000 + 10000
      omega
    | ⟨1, _⟩ =>
      show win0_2.index ⟨11, h11⟩ (1 : Fin 2) * 60 ≤ (y 1).val ∧ (y 1).val < win0_2.index ⟨11, h11⟩ (1 : Fin 2) * 60 + 60
      omega

end Cert.KernelIdeal.Hand

end
-- ==== Proof.KI.Val1.lean ====
/-
  The second launch at the ideal instance, read as whole arrays. Each of its 25 grid points takes 400 consecutive rows of
  the adjacency, the whole support, the bias row and the two weight matrices, and leaves 400 rows of each output. Entry
  (p, q) of the narrow block is a threefold sum: over l3 < 30 of (over l2 < 60 of max(Σ_{l<10000} adj(400t+p, l)·s(l, l2)
  + b(0, l2), 0) · W2(l2, l3)) · W3(l3, q), every change of float format being the identity on extended reals and each
  matrix product starting from a zero accumulator. Row r of either output is written by the one point r / 400, the 25
  blocks of 400 rows tile the 10000 rows, so the narrow output ends as (relu(adj · s + b) · W2) · W3 and the wide one as
  the adjacency itself.
-/
import proofs.«173976_g38912403702117_cont_8to1_b_1654_12_alg».proof.Proof.KI.Reg1
import proofs.«173976_g38912403702117_cont_8to1_b_1654_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.KernelIdeal Cert.KernelIdeal.Gen
open scoped BigOperators

-- the buffer contents when the launch is entered, at the ideal instance
variable (V : (c : Dev nD) → (b : Ref sig .tc) → Buf (Elt Ideal) ((c : Thread nD τ).loc b))

/-- The two zero offsets of a whole-block rectangle. -/
theorem zeros2 : (![0, 0] : Fin 2 → Nat) = fun _ => 0 := funext fun a => by fin_cases a <;> rfl

/-! ## Where each window's block sits: the row blocks move with the point, the others stay -/

/-- Block indices over the grid: the adjacency and the two outputs are at row block `t`, column block 0; the support, the
    bias and the weights are at block (0, 0) throughout. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The three matrix products at an entry -/

/-- The first product contracts the 10000 columns of the left factor with the 10000 rows of the right. -/
theorem lhsA_0 (i : S400x60.Idx) (q : dot_S400x10000_S10000x60_S400x60_1_0_0_1_n_n.contr.Idx) :
    (dot_S400x10000_S10000x60_S400x60_1_0_0_1_n_n.lhsIdx i q 0).val = (i 0).val := by
  unfold DotDims.lhsIdx
  rw [dif_neg (show ¬(0 : Fin S400x10000.rank) ∈ dot_S400x10000_S10000x60_S400x60_1_0_0_1_n_n.lhsBatch by decide), dif_pos (show (0 : Fin S400x10000.rank) ∈ dot_S400x10000_S10000x60_S400x60_1_0_0_1_n_n.lhsNonContracting by decide)]
  rfl
theorem lhsA_1 (i : S400x60.Idx) (q : dot_S400x10000_S10000x60_S400x60_1_0_0_1_n_n.contr.Idx) :
    (dot_S400x10000_S10000x60_S400x60_1_0_0_1_n_n.lhsIdx i q 1).val = (q ⟨0, by decide⟩).val :=
  dot_S400x10000_S10000x60_S400x60_1_0_0_1_n_n.lhsIdx_val_of_single rfl i q
theorem rhsA_0 (i : S400x60.Idx) (q : dot_S400x10000_S10000x60_S400x60_1_0_0_1_n_n.contr.Idx) :
    (dot_S400x10000_S10000x60_S400x60_1_0_0_1_n_n.rhsIdx i q 0).val = (q ⟨0, by decide⟩).val :=
  dot_S400x10000_S10000x60_S400x60_1_0_0_1_n_n.rhsIdx_val_of_single rfl i q
theorem rhsA_1 (i : S400x60.Idx) (q : dot_S400x10000_S10000x60_S400x60_1_0_0_1_n_n.contr.Idx) :
    (dot_S400x10000_S10000x60_S400x60_1_0_0_1_n_n.rhsIdx i q 1).val = (i 1).val := by
  unfold DotDims.rhsIdx
  rw [dif_neg (show ¬(1 : Fin S10000x60.rank) ∈ dot_S400x10000_S10000x60_S400x60_1_0_0_1_n_n.rhsBatch by decide), dif_pos (show (1 : Fin S10000x60.rank) ∈ dot_S400x10000_S10000x60_S400x60_1_0_0_1_n_n.rhsNonContracting by decide)]
  rfl

/-- Into a zero accumulator, entry (p, q) of the first product is Σ_l A(p, l) · B(l, q). -/
theorem prodA_apply (A : FVec Ideal S400x10000 .bf16) (B : FVec Ideal S10000x60 .bf16) (p : Fin 400) (q : Fin 60) :
    matmul dot_S400x10000_S10000x60_S400x60_1_0_0_1_n_n none A B (constant (F := Ideal) S400x60 .f32 0x00000000#32) (ix2 p q)
      = ∑ l : Fin 10000, A (ix2 p l) * B (ix2 l q) := by
  simp only [matmul]
  rw [Ideal.matmul_constant_zero_apply, ← Equiv.sum_comp (contrEquiv1 dot_S400x10000_S10000x60_S400x60_1_0_0_1_n_n 10000 rfl rfl).symm]
  refine Finset.sum_congr rfl fun k _ => ?_
  have hk := contrEquiv1_symm_val dot_S400x10000_S10000x60_S400x60_1_0_0_1_n_n 10000 rfl rfl k
  have el : dot_S400x10000_S10000x60_S400x60_1_0_0_1_n_n.lhsIdx (ix2 p q) ((contrEquiv1 dot_S400x10000_S10000x60_S400x60_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x60_S400x60_1_0_0_1_n_n.rhsIdx (ix2 p q) ((contrEquiv1 dot_S400x10000_S10000x60_S400x60_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

/-- The second product contracts the 60 columns of the left factor with the 60 rows of the right. -/
theorem lhsB_0 (i : S400x30.Idx) (q : dot_S400x60_S60x30_S400x30_1_0_0_1_n_n.contr.Idx) :
    (dot_S400x60_S60x30_S400x30_1_0_0_1_n_n.lhsIdx i q 0).val = (i 0).val := by
  unfold DotDims.lhsIdx
  rw [dif_neg (show ¬(0 : Fin S400x60.rank) ∈ dot_S400x60_S60x30_S400x30_1_0_0_1_n_n.lhsBatch by decide), dif_pos (show (0 : Fin S400x60.rank) ∈ dot_S400x60_S60x30_S400x30_1_0_0_1_n_n.lhsNonContracting by decide)]
  rfl
theorem lhsB_1 (i : S400x30.Idx) (q : dot_S400x60_S60x30_S400x30_1_0_0_1_n_n.contr.Idx) :
    (dot_S400x60_S60x30_S400x30_1_0_0_1_n_n.lhsIdx i q 1).val = (q ⟨0, by decide⟩).val :=
  dot_S400x60_S60x30_S400x30_1_0_0_1_n_n.lhsIdx_val_of_single rfl i q
theorem rhsB_0 (i : S400x30.Idx) (q : dot_S400x60_S60x30_S400x30_1_0_0_1_n_n.contr.Idx) :
    (dot_S400x60_S60x30_S400x30_1_0_0_1_n_n.rhsIdx i q 0).val = (q ⟨0, by decide⟩).val :=
  dot_S400x60_S60x30_S400x30_1_0_0_1_n_n.rhsIdx_val_of_single rfl i q
theorem rhsB_1 (i : S400x30.Idx) (q : dot_S400x60_S60x30_S400x30_1_0_0_1_n_n.contr.Idx) :
    (dot_S400x60_S60x30_S400x30_1_0_0_1_n_n.rhsIdx i q 1).val = (i 1).val := by
  unfold DotDims.rhsIdx
  rw [dif_neg (show ¬(1 : Fin S60x30.rank) ∈ dot_S400x60_S60x30_S400x30_1_0_0_1_n_n.rhsBatch by decide), dif_pos (show (1 : Fin S60x30.rank) ∈ dot_S400x60_S60x30_S400x30_1_0_0_1_n_n.rhsNonContracting by decide)]
  rfl

/-- Into a zero accumulator, entry (p, q) of the second product is Σ_l A(p, l) · B(l, q). -/
theorem prodB_apply (A : FVec Ideal S400x60 .f32) (B : FVec Ideal S60x30 .f32) (p : Fin 400) (q : Fin 30) :
    matmul dot_S400x60_S60x30_S400x30_1_0_0_1_n_n none A B (constant (F := Ideal) S400x30 .f32 0x00000000#32) (ix2 p q)
      = ∑ l : Fin 60, A (ix2 p l) * B (ix2 l q) := by
  simp only [matmul]
  rw [Ideal.matmul_constant_zero_apply, ← Equiv.sum_comp (contrEquiv1 dot_S400x60_S60x30_S400x30_1_0_0_1_n_n 60 rfl rfl).symm]
  refine Finset.sum_congr rfl fun k _ => ?_
  have hk := contrEquiv1_symm_val dot_S400x60_S60x30_S400x30_1_0_0_1_n_n 60 rfl rfl k
  have el : dot_S400x60_S60x30_S400x30_1_0_0_1_n_n.lhsIdx (ix2 p q) ((contrEquiv1 dot_S400x60_S60x30_S400x30_1_0_0_1_n_n 60 rfl rfl).symm k) = ix2 p k := funext fun a => Fin.ext (by
    match a with
    | ⟨0, _⟩ => exact lhsB_0 _ _
    | ⟨1, _⟩ => exact (lhsB_1 _ _).trans hk)
  have er : dot_S400x60_S60x30_S400x30_1_0_0_1_n_n.rhsIdx (ix2 p q) ((contrEquiv1 dot_S400x60_S60x30_S400x30_1_0_0_1_n_n 60 rfl rfl).symm k) = ix2 k q := funext fun a => Fin.ext (by
    match a with
    | ⟨0, _⟩ => exact (rhsB_0 _ _).trans hk
    | ⟨1, _⟩ => exact rhsB_1 _ _)
  rw [el, er]

/-- The third product contracts the 30 columns of the left factor with the 30 rows of the right. -/
theorem lhsC_0 (i : S400x7.Idx) (q : dot_S400x30_S30x7_S400x7_1_0_0_1_n_n.contr.Idx) :
    (dot_S400x30_S30x7_S400x7_1_0_0_1_n_n.lhsIdx i q 0).val = (i 0).val := by
  unfold DotDims.lhsIdx
  rw [dif_neg (show ¬(0 : Fin S400x30.rank) ∈ dot_S400x30_S30x7_S400x7_1_0_0_1_n_n.lhsBatch by decide), dif_pos (show (0 : Fin S400x30.rank) ∈ dot_S400x30_S30x7_S400x7_1_0_0_1_n_n.lhsNonContracting by decide)]
  rfl
theorem lhsC_1 (i : S400x7.Idx) (q : dot_S400x30_S30x7_S400x7_1_0_0_1_n_n.contr.Idx) :
    (dot_S400x30_S30x7_S400x7_1_0_0_1_n_n.lhsIdx i q 1).val = (q ⟨0, by decide⟩).val :=
  dot_S400x30_S30x7_S400x7_1_0_0_1_n_n.lhsIdx_val_of_single rfl i q
theorem rhsC_0 (i : S400x7.Idx) (q : dot_S400x30_S30x7_S400x7_1_0_0_1_n_n.contr.Idx) :
    (dot_S400x30_S30x7_S400x7_1_0_0_1_n_n.rhsIdx i q 0).val = (q ⟨0, by decide⟩).val :=
  dot_S400x30_S30x7_S400x7_1_0_0_1_n_n.rhsIdx_val_of_single rfl i q
theorem rhsC_1 (i : S400x7.Idx) (q : dot_S400x30_S30x7_S400x7_1_0_0_1_n_n.contr.Idx) :
    (dot_S400x30_S30x7_S400x7_1_0_0_1_n_n.rhsIdx i q 1).val = (i 1).val := by
  unfold DotDims.rhsIdx
  rw [dif_neg (show ¬(1 : Fin S30x7.rank) ∈ dot_S400x30_S30x7_S400x7_1_0_0_1_n_n.rhsBatch by decide), dif_pos (show (1 : Fin S30x7.rank) ∈ dot_S400x30_S30x7_S400x7_1_0_0_1_n_n.rhsNonContracting by decide)]
  rfl

/-- Into a zero accumulator, entry (p, q) of the third product is Σ_l A(p, l) · B(l, q). -/
theorem prodC_apply (A : FVec Ideal S400x30 .f32) (B : FVec Ideal S30x7 .f32) (p : Fin 400) (q : Fin 7) :
    matmul dot_S400x30_S30x7_S400x7_1_0_0_1_n_n none A B (constant (F := Ideal) S400x7 .f32 0x00000000#32) (ix2 p q)
      = ∑ l : Fin 30, A (ix2 p l) * B (ix2 l q) := by
  simp only [matmul]
  rw [Ideal.matmul_constant_zero_apply, ← Equiv.sum_comp (contrEquiv1 dot_S400x30_S30x7_S400x7_1_0_0_1_n_n 30 rfl rfl).symm]
  refine Finset.sum_congr rfl fun k _ => ?_
  have hk := contrEquiv1_symm_val dot_S400x30_S30x7_S400x7_1_0_0_1_n_n 30 rfl rfl k
  have el : dot_S400x30_S30x7_S400x7_1_0_0_1_n_n.lhsIdx (ix2 p q) ((contrEquiv1 dot_S400x30_S30x7_S400x7_1_0_0_1_n_n 30 rfl rfl).symm k) = ix2 p k := funext fun a => Fin.ext (by
    match a with
    | ⟨0, _⟩ => exact lhsC_0 _ _
    | ⟨1, _⟩ => exact (lhsC_1 _ _).trans hk)
  have er : dot_S400x30_S30x7_S400x7_1_0_0_1_n_n.rhsIdx (ix2 p q) ((contrEquiv1 dot_S400x30_S30x7_S400x7_1_0_0_1_n_n 30 rfl rfl).symm k) = ix2 k q := funext fun a => Fin.ext (by
    match a with
    | ⟨0, _⟩ => exact (rhsC_0 _ _).trans hk
    | ⟨1, _⟩ => exact rhsC_1 _ _)
  rw [el, er]

/-! ## The two payloads at an entry -/

/-- The wide payload is the adjacency block, the narrowing of its format being the identity. -/
theorem pay1_apply (a : Vec Ideal S400x10000 .f32) (y : S400x10000.Idx) : k1_pay1 a y = a y := rfl

/-- The narrow payload at (p, q): the threefold sum of the head comment. -/
theorem pay2_apply (a : Vec Ideal S400x10000 .f32) (s : Vec Ideal S10000x60 .bf16) (b : Vec Ideal S1x60 .f32)
    (w2 : Vec Ideal S60x30 .f32) (w3 : Vec Ideal S30x7 .f32) (p : Fin 400) (q : Fin 7) :
    k1_pay2 a s b w2 w3 (ix2 p q)
      = ∑ l3 : Fin 30, (∑ l2 : Fin 60, max ((∑ l : Fin 10000, a (ix2 p l) * s (ix2 l l2)) + b (ix2 (0 : Fin 1) l2)) 0 * w2 (ix2 l2 l3)) * w3 (ix2 l3 q) := by
  unfold k1_pay2
  refine (truncf_apply (φ := .f32) (ψ := .bf16) _ bitsLt_bf16_f32 _).trans ?_
  refine (prodC_apply _ _ p q).trans ?_
  refine Finset.sum_congr rfl fun l3 _ => ?_
  refine congrArg (· * w3 (ix2 l3 q)) ?_
  refine (prodB_apply _ _ p l3).trans ?_
  refine Finset.sum_congr rfl fun l2 _ => ?_
  refine congrArg (· * w2 (ix2 l2 l3)) ?_
  refine (maximumf_apply _ _ _).trans ?_
  refine congrArg₂ max ?_ Ideal.ofBits_zero_f32
  refine (addf_apply _ _ _).trans ?_
  refine congrArg₂ (· + ·) ?_ ?_
  · simp only [shapeCast_self]
    exact prodA_apply (k1_pay1 a) s p l2
  · simp only [shapeCast_self]
    exact broadcastTo_1b_ab_apply b _ p l2

/-! ## Each input block, read off its array -/

/-- The adjacency block at point `t` is rows 400·t … 400·t + 399 of the adjacency, all columns. -/
theorem adjBlock_apply (c : Dev nD) (t : Fin cfg1.N) (p : Fin 400) (l : Fin 10000) (r : Fin 10000) (hr : r.val = 400 * t.val + p.val) :
    (blk1 V c 0 t : Vec Ideal S400x10000 .f32) (ix2 p l) = (V c main_arg1 : Cert.Spec.Mat 10000 10000) (ix2 r l) := by
  obtain ⟨e0, e1, -⟩ := index1 t
  unfold blk1
  rw [View.read_apply]
  show V c main_arg1 _ = V c main_arg1 _
  congr 1
  funext a
  apply Fin.ext
  match a with
  | ⟨0, _⟩ => show win1_0.index t (0 : Fin 2) * 400 + 1 * p.val = r.val; rw [e0, hr]; omega
  | ⟨1, _⟩ => show win1_0.index t (1 : Fin 2) * 10000 + 1 * l.val = l.val; rw [e1]; omega

/-- The support's block is the whole support at every point. -/
theorem supBlock_eq (c : Dev nD) (t : Fin cfg1.N) :
    (blk1 V c 1 t : Vec Ideal S10000x60 .bf16) = (V c main_v6 : Cert.Spec.Mat 10000 60) := by
  obtain ⟨-, -, i10, i11, i20, i21, i30, i31, i40, i41, -⟩ := index1 t
  funext y
  unfold blk1
  rw [View.read_apply]
  show V c main_v6 _ = V c main_v6 y
  congr 1
  funext a
  apply Fin.ext
  match a with
  | ⟨0, _⟩ => show win1_1.index t (0 : Fin 2) * 10000 + 1 * (y 0).val = (y 0).val; rw [i10]; omega
  | ⟨1, _⟩ => show win1_1.index t (1 : Fin 2) * 60 + 1 * (y 1).val = (y 1).val; rw [i11]; omega

/-- The bias row's block is the whole row at every point. -/
theorem biasBlock_eq (c : Dev nD) (t : Fin cfg1.N) :
    (blk1 V c 2 t : Vec Ideal S1x60 .f32) = (V c main_v0 : Cert.Spec.Mat 1 60) := by
  obtain ⟨-, -, i10, i11, i20, i21, i30, i31, i40, i41, -⟩ := index1 t
  funext y
  unfold blk1
  rw [View.read_apply]
  show V c main_v0 _ = V c main_v0 y
  congr 1
  funext a
  apply Fin.ext
  match a with
  | ⟨0, _⟩ => show win1_2.index t (0 : Fin 2) * 1 + 1 * (y 0).val = (y 0).val; rw [i20]; omega
  | ⟨1, _⟩ => show win1_2.index t (1 : Fin 2) * 60 + 1 * (y 1).val = (y 1).val; rw [i21]; omega

/-- The second weight matrix's block is the whole matrix at every point. -/
theorem w2Block_eq (c : Dev nD) (t : Fin cfg1.N) :
    (blk1 V c 3 t : Vec Ideal S60x30 .f32) = (V c main_arg4 : Cert.Spec.Mat 60 30) := by
  obtain ⟨-, -, i10, i11, i20, i21, i30, i31, i40, i41, -⟩ := index1 t
  funext y
  unfold blk1
  rw [View.read_apply]
  show V c main_arg4 _ = V c main_arg4 y
  congr 1
  funext a
  apply Fin.ext
  match a with
  | ⟨0, _⟩ => show win1_3.index t (0 : Fin 2) * 60 + 1 * (y 0).val = (y 0).val; rw [i30]; omega
  | ⟨1, _⟩ => show win1_3.index t (1 : Fin 2) * 30 + 1 * (y 1).val = (y 1).val; rw [i31]; omega

/-- The third weight matrix's block is the whole matrix at every point. -/
theorem w3Block_eq (c : Dev nD) (t : Fin cfg1.N) :
    (blk1 V c 4 t : Vec Ideal S30x7 .f32) = (V c main_arg6 : Cert.Spec.Mat 30 7) := by
  obtain ⟨-, -, i10, i11, i20, i21, i30, i31, i40, i41, -⟩ := index1 t
  funext y
  unfold blk1
  rw [View.read_apply]
  show V c main_arg6 _ = V c main_arg6 y
  congr 1
  funext a
  apply Fin.ext
  match a with
  | ⟨0, _⟩ => show win1_4.index t (0 : Fin 2) * 30 + 1 * (y 0).val = (y 0).val; rw [i40]; omega
  | ⟨1, _⟩ => show win1_4.index t (1 : Fin 2) * 7 + 1 * (y 1).val = (y 1).val; rw [i41]; omega

/-! ## What one point writes back -/

/-- A 400-row block whose row p is row r of `A`, pushed through the payload with the whole `S`, `B`, `W2`, `W3`,
    has as its row p row r of (relu(A · S + B) · W2) · W3: each row of the chain depends on that one row of `A`. -/
theorem pay2_rows (a : Vec Ideal S400x10000 .f32) (A : Cert.Spec.Mat 10000 10000) (S : Cert.Spec.Mat 10000 60) (B : Cert.Spec.Mat 1 60)
    (W2 : Cert.Spec.Mat 60 30) (W3 : Cert.Spec.Mat 30 7) (p : Fin 400) (q : Fin 7) (r : Fin 10000)
    (ha : ∀ l : Fin 10000, a (ix2 p l) = A (ix2 r l)) :
    k1_pay2 a S B W2 W3 (ix2 p q) = Cert.Spec.foldedU A S B W2 W3 (ix2 r q) := by
  refine (pay2_apply a S B W2 W3 p q).trans ?_
  simp only [ha]
  rfl

/-- Point `t` writes back, to the narrow output, block `t` of (relu(adj · s + b) · W2) · W3. -/
theorem flushed_u (c : Dev nD) (t : Fin cfg1.N) :
    (dat1 V c).flushed 5 t = ((cfg1.win 5).blk t).view.read (Elt Ideal)
      (Cert.Spec.foldedU (V c main_arg1) (V c main_v6) (V c main_v0) (V c main_arg4) (V c main_arg6)) := by
  show (cfg1.win 5).cut (grid1.coords t) ((dat1 V c).after 5 t) = _
  rw [dat1_after5]
  unfold uBlock
  rw [View.canon_unit_zero zeros2]
  simp only [View.ld_unit_zero (S := S400x10000) zeros2, View.ld_unit_zero (S := S10000x60) zeros2, View.ld_unit_zero (S := S1x60) zeros2,
    View.ld_unit_zero (S := S60x30) zeros2, View.ld_unit_zero (S := S30x7) zeros2]
  funext j
  obtain ⟨p, q, rfl⟩ : ∃ (p : Fin 400) (q : Fin 7), j = ix2 p q := ⟨j 0, j 1, eq_ix2 j⟩
  have ht : t.val < 25 := t.isLt
  obtain ⟨-, -, -, -, -, -, -, -, -, -, i50, i51, -⟩ := index1 t
  have hemb : ((cfg1.win 5).blk t).view.emb (ix2 p q) = ix2 (⟨400 * t.val + p.val, by omega⟩ : Fin 10000) q := by
    funext a; apply Fin.ext
    match a with
    | ⟨0, _⟩ => show win1_5.index t (0 : Fin 2) * 400 + 1 * p.val = 400 * t.val + p.val; rw [i50]; omega
    | ⟨1, _⟩ => show win1_5.index t (1 : Fin 2) * 7 + 1 * q.val = q.val; rw [i51]; omega
  show k1_pay2 (blk1 V c 0 t) (blk1 V c 1 t) (blk1 V c 2 t) (blk1 V c 3 t) (blk1 V c 4 t) (ix2 p q)
    = Cert.Spec.foldedU (V c main_arg1) (V c main_v6) (V c main_v0) (V c main_arg4) (V c main_arg6) (((cfg1.win 5).blk t).view.emb (ix2 p q))
  rw [hemb, supBlock_eq, biasBlock_eq, w2Block_eq, w3Block_eq]
  exact pay2_rows (blk1 V c 0 t) (V c main_arg1) (V c main_v6) (V c main_v0) (V c main_arg4) (V c main_arg6) p q ⟨400 * t.val + p.val, by omega⟩
    (fun l => adjBlock_apply V c t p l ⟨400 * t.val + p.val, by omega⟩ rfl)

/-- Point `t` writes back, to the wide output, block `t` of the adjacency. -/
theorem flushed_a16 (c : Dev nD) (t : Fin cfg1.N) :
    (dat1 V c).flushed 6 t = ((cfg1.win 6).blk t).view.read (Elt Ideal) (V c main_arg1 : Cert.Spec.Mat 10000 10000) := by
  show (cfg1.win 6).cut (grid1.coords t) ((dat1 V c).after 6 t) = _
  rw [dat1_after6]
  unfold a16Block
  rw [View.canon_unit_zero zeros2]
  simp only [View.ld_unit_zero (S := S400x10000) zeros2]
  funext j
  obtain ⟨p, l, rfl⟩ : ∃ (p : Fin 400) (l : Fin 10000), j = ix2 p l := ⟨j 0, j 1, eq_ix2 j⟩
  have ht : t.val < 25 := t.isLt
  obtain ⟨-, -, -, -, -, -, -, -, -, -, -, -, i60, i61⟩ := index1 t
  have hemb : ((cfg1.win 6).blk t).view.emb (ix2 p l) = ix2 (⟨400 * t.val + p.val, by omega⟩ : Fin 10000) l := by
    funext a; apply Fin.ext
    match a with
    | ⟨0, _⟩ => show win1_6.index t (0 : Fin 2) * 400 + 1 * p.val = 400 * t.val + p.val; rw [i60]; omega
    | ⟨1, _⟩ => show win1_6.index t (1 : Fin 2) * 10000 + 1 * l.val = l.val; rw [i61]; omega
  show k1_pay1 (blk1 V c 0 t) (ix2 p l) = (V c main_arg1 : Cert.Spec.Mat 10000 10000) (((cfg1.win 6).blk t).view.emb (ix2 p l))
  rw [hemb]
  exact adjBlock_apply V c t p l ⟨400 * t.val + p.val, by omega⟩ rfl

/-! ## The 25 row blocks tile the 10000 rows -/

/-- An entry of the narrow output is in point `t`'s block iff each coordinate is in the block's range on its axis. -/
theorem mem_uBlk (t : Fin cfg1.N) (i : S10000x7.Idx) :
    i ∈ ((cfg1.win 5).blk t).view.set ↔ ∀ a : Fin 2, win1_5.index t a * S400x7.size a ≤ (i a).val ∧ (i a).val < win1_5.index t a * S400x7.size a + S400x7.size a := by
  show i ∈ ((View.whole main_v7_0).slice (win1_5.rect t)).set ↔ _
  rw [View.set_slice_whole, Rect.mem_set_unit]
  exact Iff.rfl

/-- The same for the wide output. -/
theorem mem_a16Blk (t : Fin cfg1.N) (i : S10000x10000.Idx) :
    i ∈ ((cfg1.win 6).blk t).view.set ↔ ∀ a : Fin 2, win1_6.index t a * S400x10000.size a ≤ (i a).val ∧ (i a).val < win1_6.index t a * S400x10000.size a + S400x10000.size a := by
  show i ∈ ((View.whole main_v7_1).slice (win1_6.rect t)).set ↔ _
  rw [View.set_slice_whole, Rect.mem_set_unit]
  exact Iff.rfl

/-- Row r of the narrow output is in the block of point r / 400, which writes back. -/
theorem cover_u (i : S10000x7.Idx) : ∃ t : Fin cfg1.N, (cfg1.win 5).flush t = true ∧ i ∈ ((cfg1.win 5).blk t).view.set := by
  have h0 : (i 0).val < 10000 := (i 0).isLt
  have h1 : (i 1).val < 7 := (i 1).isLt
  obtain ⟨t, ht⟩ : ∃ t : Fin cfg1.N, t.val = (i 0).val / 400 := ⟨⟨(i 0).val / 400, by show _ < 25; omega⟩, rfl⟩
  refine ⟨t, flush1_5 t, ?_⟩
  rw [mem_uBlk]
  obtain ⟨-, -, -, -, -, -, -, -, -, -, i50, i51, -⟩ := index1 t
  intro a
  match a with
  | ⟨0, _⟩ => show win1_5.index t (0 : Fin 2) * 400 ≤ (i 0).val ∧ (i 0).val < win1_5.index t (0 : Fin 2) * 400 + 400; rw [i50]; omega
  | ⟨1, _⟩ => show win1_5.index t (1 : Fin 2) * 7 ≤ (i 1).val ∧ (i 1).val < win1_5.index t (1 : Fin 2) * 7 + 7; rw [i51]; omega

/-- Row r of the wide output is in the block of point r / 400, which writes back. -/
theorem cover_a16 (i : S10000x10000.Idx) : ∃ t : Fin cfg1.N, (cfg1.win 6).flush t = true ∧ i ∈ ((cfg1.win 6).blk t).view.set := by
  have h0 : (i 0).val < 10000 := (i 0).isLt
  have h1 : (i 1).val < 10000 := (i 1).isLt
  obtain ⟨t, ht⟩ : ∃ t : Fin cfg1.N, t.val = (i 0).val / 400 := ⟨⟨(i 0).val / 400, by show _ < 25; omega⟩, rfl⟩
  refine ⟨t, flush1_6 t, ?_⟩
  rw [mem_a16Blk]
  obtain ⟨-, -, -, -, -, -, -, -, -, -, -, -, i60, i61⟩ := index1 t
  intro a
  match a with
  | ⟨0, _⟩ => show win1_6.index t (0 : Fin 2) * 400 ≤ (i 0).val ∧ (i 0).val < win1_6.index t (0 : Fin 2) * 400 + 400; rw [i60]; omega
  | ⟨1, _⟩ => show win1_6.index t (1 : Fin 2) * 10000 ≤ (i 1).val ∧ (i 1).val < win1_6.index t (1 : Fin 2) * 10000 + 10000; rw [i61]; omega

/-! ## The two output arrays after the launch -/

/-- The narrow output ends as (relu(adj · s + b) · W2) · W3 of the arrays the launch was entered with. -/
theorem reg1_u (c : Dev nD) : ((dat1 (F := Ideal) V c).arrAt 5 cfg1.N : Cert.Spec.Mat 10000 7)
    = Cert.Spec.foldedU (V c main_arg1) (V c main_v6) (V c main_v0) (V c main_arg4) (V c main_arg6) :=
  (dat1 (F := Ideal) V c).arrAt_eq_of_cover 5
    (Cert.Spec.foldedU (V c main_arg1) (V c main_v6) (V c main_v0) (V c main_arg4) (V c main_arg6))
    (fun t _ => flushed_u V c t) cover_u

/-- The wide output ends as the adjacency. -/
theorem reg1_a16 (c : Dev nD) : ((dat1 (F := Ideal) V c).arrAt 6 cfg1.N : Cert.Spec.Mat 10000 10000)
    = (V c main_arg1 : Cert.Spec.Mat 10000 10000) :=
  (dat1 (F := Ideal) V c).arrAt_eq_of_cover 6 (V c main_arg1 : Cert.Spec.Mat 10000 10000)
    (fun t _ => flushed_a16 V c t) cover_a16

end Cert.KernelIdeal.Hand

end
-- ==== Proof.KI.Val2.lean ====
/-
  What the third launch leaves in its output array, at the ideal instance: the 10000×7 matrix  adj · u + b2 · W3,
  entry by entry, of the arrays the launch was entered with (the adjacency in bf16, the support u, the bias as a 1×30
  matrix, the 30×7 weight matrix). Each of the 10 grid points writes back rows 1000 t … 1000 t + 999: its block's entry
  (p, q) is row p of the adjacency block against column q of u, plus the one-row product b2 · W3 at column q, and row p
  of the block at point t is row 1000 t + p of the adjacency. The blocks tile the rows, so the array ends at that matrix.
-/
import proofs.«173976_g38912403702117_cont_8to1_b_1654_12_alg».proof.Proof.KI.Reg2
import proofs.«173976_g38912403702117_cont_8to1_b_1654_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen
open scoped BigOperators

-- the buffer contents when the launch is entered
variable (V : (c : Dev nD) → (b : Ref sig .tc) → Buf (Elt Ideal) ((c : Thread nD τ).loc b))

/-! ## The two products of the body, read at an entry -/

theorem lhs2a_0 (i : S1000x7.Idx) (r : dot_S1000x10000_S10000x7_S1000x7_1_0_0_1_n_n.contr.Idx) :
    (dot_S1000x10000_S10000x7_S1000x7_1_0_0_1_n_n.lhsIdx i r 0).val = (i 0).val := by
  unfold DotDims.lhsIdx
  rw [dif_neg (show ¬(0 : Fin S1000x10000.rank) ∈ dot_S1000x10000_S10000x7_S1000x7_1_0_0_1_n_n.lhsBatch by decide), dif_pos (show (0 : Fin S1000x10000.rank) ∈ dot_S1000x10000_S10000x7_S1000x7_1_0_0_1_n_n.lhsNonContracting by decide)]
  rfl
theorem lhs2a_1 (i : S1000x7.Idx) (r : dot_S1000x10000_S10000x7_S1000x7_1_0_0_1_n_n.contr.Idx) :
    (dot_S1000x10000_S10000x7_S1000x7_1_0_0_1_n_n.lhsIdx i r 1).val = (r ⟨0, by decide⟩).val :=
  dot_S1000x10000_S10000x7_S1000x7_1_0_0_1_n_n.lhsIdx_val_of_single rfl i r
theorem rhs2a_0 (i : S1000x7.Idx) (r : dot_S1000x10000_S10000x7_S1000x7_1_0_0_1_n_n.contr.Idx) :
    (dot_S1000x10000_S10000x7_S1000x7_1_0_0_1_n_n.rhsIdx i r 0).val = (r ⟨0, by decide⟩).val :=
  dot_S1000x10000_S10000x7_S1000x7_1_0_0_1_n_n.rhsIdx_val_of_single rfl i r
theorem rhs2a_1 (i : S1000x7.Idx) (r : dot_S1000x10000_S10000x7_S1000x7_1_0_0_1_n_n.contr.Idx) :
    (dot_S1000x10000_S10000x7_S1000x7_1_0_0_1_n_n.rhsIdx i r 1).val = (i 1).val := by
  unfold DotDims.rhsIdx
  rw [dif_neg (show ¬(1 : Fin S10000x7.rank) ∈ dot_S1000x10000_S10000x7_S1000x7_1_0_0_1_n_n.rhsBatch by decide), dif_pos (show (1 : Fin S10000x7.rank) ∈ dot_S1000x10000_S10000x7_S1000x7_1_0_0_1_n_n.rhsNonContracting by decide)]
  rfl

/-- The 1000×10000 by 10000×7 product into a zero accumulator, entry (p, q): the sum over l of x(p, l) · y(l, q). -/
theorem mm2a_apply {φ₁ φ₂ : FTy} (x : FVec Ideal S1000x10000 φ₁) (y : FVec Ideal S10000x7 φ₂) (p : Fin 1000) (q : Fin 7) :
    matmul dot_S1000x10000_S10000x7_S1000x7_1_0_0_1_n_n none x y (constant (F := Ideal) S1000x7 .f32 0x00000000#32) (ix2 p q)
      = ∑ l : Fin 10000, x (ix2 p l) * y (ix2 l q) := by
  simp only [matmul]
  rw [Ideal.matmul_constant_zero_apply, ← Equiv.sum_comp (contrEquiv1 dot_S1000x10000_S10000x7_S1000x7_1_0_0_1_n_n 10000 rfl rfl).symm]
  refine Finset.sum_congr rfl fun l _ => ?_
  have hl := contrEquiv1_symm_val dot_S1000x10000_S10000x7_S1000x7_1_0_0_1_n_n 10000 rfl rfl l
  have el : dot_S1000x10000_S10000x7_S1000x7_1_0_0_1_n_n.lhsIdx (ix2 p q) ((contrEquiv1 dot_S1000x10000_S10000x7_S1000x7_1_0_0_1_n_n 10000 rfl rfl).symm l) = ix2 p l := funext fun a => Fin.ext (by
    match a with
    | ⟨0, _⟩ => exact lhs2a_0 _ _
    | ⟨1, _⟩ => exact (lhs2a_1 _ _).trans hl)
  have er : dot_S1000x10000_S10000x7_S1000x7_1_0_0_1_n_n.rhsIdx (ix2 p q) ((contrEquiv1 dot_S1000x10000_S10000x7_S1000x7_1_0_0_1_n_n 10000 rfl rfl).symm l) = ix2 l q := funext fun a => Fin.ext (by
    match a with
    | ⟨0, _⟩ => exact (rhs2a_0 _ _).trans hl
    | ⟨1, _⟩ => exact rhs2a_1 _ _)
  rw [el, er]

theorem lhs2b_0 (i : S1x7.Idx) (r : dot_S1x30_S30x7_S1x7_1_0_0_1_n_n.contr.Idx) :
    (dot_S1x30_S30x7_S1x7_1_0_0_1_n_n.lhsIdx i r 0).val = (i 0).val := by
  unfold DotDims.lhsIdx
  rw [dif_neg (show ¬(0 : Fin S1x30.rank) ∈ dot_S1x30_S30x7_S1x7_1_0_0_1_n_n.lhsBatch by decide), dif_pos (show (0 : Fin S1x30.rank) ∈ dot_S1x30_S30x7_S1x7_1_0_0_1_n_n.lhsNonContracting by decide)]
  rfl
theorem lhs2b_1 (i : S1x7.Idx) (r : dot_S1x30_S30x7_S1x7_1_0_0_1_n_n.contr.Idx) :
    (dot_S1x30_S30x7_S1x7_1_0_0_1_n_n.lhsIdx i r 1).val = (r ⟨0, by decide⟩).val :=
  dot_S1x30_S30x7_S1x7_1_0_0_1_n_n.lhsIdx_val_of_single rfl i r
theorem rhs2b_0 (i : S1x7.Idx) (r : dot_S1x30_S30x7_S1x7_1_0_0_1_n_n.contr.Idx) :
    (dot_S1x30_S30x7_S1x7_1_0_0_1_n_n.rhsIdx i r 0).val = (r ⟨0, by decide⟩).val :=
  dot_S1x30_S30x7_S1x7_1_0_0_1_n_n.rhsIdx_val_of_single rfl i r
theorem rhs2b_1 (i : S1x7.Idx) (r : dot_S1x30_S30x7_S1x7_1_0_0_1_n_n.contr.Idx) :
    (dot_S1x30_S30x7_S1x7_1_0_0_1_n_n.rhsIdx i r 1).val = (i 1).val := by
  unfold DotDims.rhsIdx
  rw [dif_neg (show ¬(1 : Fin S30x7.rank) ∈ dot_S1x30_S30x7_S1x7_1_0_0_1_n_n.rhsBatch by decide), dif_pos (show (1 : Fin S30x7.rank) ∈ dot_S1x30_S30x7_S1x7_1_0_0_1_n_n.rhsNonContracting by decide)]
  rfl

/-- The 1×30 by 30×7 product into a zero accumulator, entry (p, q): the sum over l of x(p, l) · y(l, q). -/
theorem mm2b_apply {φ₁ φ₂ : FTy} (x : FVec Ideal S1x30 φ₁) (y : FVec Ideal S30x7 φ₂) (p : Fin 1) (q : Fin 7) :
    matmul dot_S1x30_S30x7_S1x7_1_0_0_1_n_n none x y (constant (F := Ideal) S1x7 .f32 0x00000000#32) (ix2 p q)
      = ∑ l : Fin 30, x (ix2 p l) * y (ix2 l q) := by
  simp only [matmul]
  rw [Ideal.matmul_constant_zero_apply, ← Equiv.sum_comp (contrEquiv1 dot_S1x30_S30x7_S1x7_1_0_0_1_n_n 30 rfl rfl).symm]
  refine Finset.sum_congr rfl fun l _ => ?_
  have hl := contrEquiv1_symm_val dot_S1x30_S30x7_S1x7_1_0_0_1_n_n 30 rfl rfl l
  have el : dot_S1x30_S30x7_S1x7_1_0_0_1_n_n.lhsIdx (ix2 p q) ((contrEquiv1 dot_S1x30_S30x7_S1x7_1_0_0_1_n_n 30 rfl rfl).symm l) = ix2 p l := funext fun a => Fin.ext (by
    match a with
    | ⟨0, _⟩ => exact lhs2b_0 _ _
    | ⟨1, _⟩ => exact (lhs2b_1 _ _).trans hl)
  have er : dot_S1x30_S30x7_S1x7_1_0_0_1_n_n.rhsIdx (ix2 p q) ((contrEquiv1 dot_S1x30_S30x7_S1x7_1_0_0_1_n_n 30 rfl rfl).symm l) = ix2 l q := funext fun a => Fin.ext (by
    match a with
    | ⟨0, _⟩ => exact (rhs2b_0 _ _).trans hl
    | ⟨1, _⟩ => exact rhs2b_1 _ _)
  rw [el, er]

/-- The body's arithmetic at entry (p, q): row p of the adjacency block against column q of u, plus the bias row against column q of W3. -/
theorem payT_apply (b : Vec Ideal S1x30 .f32) (w3 : Vec Ideal S30x7 .f32) (a : Vec Ideal S1000x10000 .bf16) (u : Vec Ideal S10000x7 .bf16)
    (p : Fin 1000) (q : Fin 7) :
    k2_pay1 b w3 a u (ix2 p q) = (∑ l : Fin 10000, a (ix2 p l) * u (ix2 l q)) + ∑ l : Fin 30, b (ix2 0 l) * w3 (ix2 l q) := by
  unfold k2_pay1
  simp only [shapeCast_self]
  rw [truncf_apply, addf_apply, mm2a_apply, broadcastTo_1b_ab_apply, mm2b_apply]

/-! ## From the blocks to the array -/

theorem hz2 : (![0, 0] : Fin 2 → Nat) = fun _ => 0 := funext fun a => by fin_cases a <;> rfl

/-- The output block at entry (p, q), from the four input blocks. -/
theorem tBlock_apply (a : Vec Ideal S1000x10000 .bf16) (u : Vec Ideal S10000x7 .bf16) (b : Vec Ideal S1x30 .f32) (w3 : Vec Ideal S30x7 .f32)
    (p : Fin 1000) (q : Fin 7) :
    tBlock a u b w3 (ix2 p q) = (∑ l : Fin 10000, a (ix2 p l) * u (ix2 l q)) + ∑ l : Fin 30, b (ix2 0 l) * w3 (ix2 l q) := by
  unfold tBlock
  rw [View.canon_unit_zero hz2]
  simp only [View.ld_unit_zero (S := S1000x10000) hz2, View.ld_unit_zero (S := S10000x7) hz2, View.ld_unit_zero (S := S1x30) hz2,
    View.ld_unit_zero (S := S30x7) hz2]
  exact payT_apply b w3 a u p q

/-- The printed index maps over the grid: the adjacency's and the output's block number along the rows is the point's
    number; every other block number is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The adjacency block at point t is rows 1000 t … 1000 t + 999 of the adjacency. -/
theorem blk2_adj (c : Dev nD) (t : Fin cfg2.N) (p : Fin 1000) (l : Fin 10000) (r : Fin 10000) (hr : r.val = t.val * 1000 + p.val) :
    (blk2 V c 0 t : Vec Ideal S1000x10000 .bf16) (ix2 p l) = (V c main_v7_1 : S10000x10000.Idx → EReal) (ix2 r l) := by
  obtain ⟨e0, e1, -⟩ := idx_facts2 t
  show V c main_v7_1 (((cfg2.win 0).blk t).view.emb (ix2 p l)) = V c main_v7_1 (ix2 r l)
  refine congrArg _ (funext fun a => Fin.ext ?_)
  match a with
  | ⟨0, _⟩ => show win2_0.index t (0 : Fin 2) * 1000 + 1 * p.val = r.val; omega
  | ⟨1, _⟩ => show win2_0.index t (1 : Fin 2) * 10000 + 1 * l.val = l.val; omega

/-- The other three input blocks are their whole arrays. -/
theorem blk2_u (c : Dev nD) (t : Fin cfg2.N) (l : Fin 10000) (q : Fin 7) :
    (blk2 V c 1 t : Vec Ideal S10000x7 .bf16) (ix2 l q) = (V c main_v7_0 : S10000x7.Idx → EReal) (ix2 l q) := by
  obtain ⟨-, -, e0, e1, -⟩ := idx_facts2 t
  show V c main_v7_0 (((cfg2.win 1).blk t).view.emb (ix2 l q)) = V c main_v7_0 (ix2 l q)
  refine congrArg _ (funext fun a => Fin.ext ?_)
  match a with
  | ⟨0, _⟩ => show win2_1.index t (0 : Fin 2) * 10000 + 1 * l.val = l.val; omega
  | ⟨1, _⟩ => show win2_1.index t (1 : Fin 2) * 7 + 1 * q.val = q.val; omega
theorem blk2_b (c : Dev nD) (t : Fin cfg2.N) (l : Fin 30) :
    (blk2 V c 2 t : Vec Ideal S1x30 .f32) (ix2 0 l) = (V c main_v1 : S1x30.Idx → EReal) (ix2 0 l) := by
  obtain ⟨-, -, -, -, e0, e1, -⟩ := idx_facts2 t
  show V c main_v1 (((cfg2.win 2).blk t).view.emb (ix2 0 l)) = V c main_v1 (ix2 0 l)
  refine congrArg _ (funext fun a => Fin.ext ?_)
  match a with
  | ⟨0, _⟩ => show win2_2.index t (0 : Fin 2) * 1 + 1 * 0 = 0; omega
  | ⟨1, _⟩ => show win2_2.index t (1 : Fin 2) * 30 + 1 * l.val = l.val; omega
theorem blk2_w3 (c : Dev nD) (t : Fin cfg2.N) (l : Fin 30) (q : Fin 7) :
    (blk2 V c 3 t : Vec Ideal S30x7 .f32) (ix2 l q) = (V c main_arg6 : S30x7.Idx → EReal) (ix2 l q) := by
  obtain ⟨-, -, -, -, -, -, e0, e1, -⟩ := idx_facts2 t
  show V c main_arg6 (((cfg2.win 3).blk t).view.emb (ix2 l q)) = V c main_arg6 (ix2 l q)
  refine congrArg _ (funext fun a => Fin.ext ?_)
  match a with
  | ⟨0, _⟩ => show win2_3.index t (0 : Fin 2) * 30 + 1 * l.val = l.val; omega
  | ⟨1, _⟩ => show win2_3.index t (1 : Fin 2) * 7 + 1 * q.val = q.val; omega

/-- Entry (p, q) of the output block at point t is entry (1000 t + p, q) of the output array. -/
theorem emb2_out (t : Fin cfg2.N) (p : Fin 1000) (q : Fin 7) (r : Fin 10000) (hr : r.val = t.val * 1000 + p.val) :
    ((cfg2.win 4).blk t).view.emb (ix2 p q) = (ix2 r q : S10000x7.Idx) := by
  obtain ⟨-, -, -, -, -, -, -, -, e0, e1⟩ := idx_facts2 t
  refine funext fun a => Fin.ext ?_
  match a with
  | ⟨0, _⟩ => show win2_4.index t (0 : Fin 2) * 1000 + 1 * p.val = r.val; omega
  | ⟨1, _⟩ => show win2_4.index t (1 : Fin 2) * 7 + 1 * q.val = q.val; omega

/-- What point t writes back is block t of the whole-array function. -/
theorem flushed2_eq (c : Dev nD) (t : Fin cfg2.N) :
    (dat2 (F := Ideal) V c).flushed 4 t
      = ((cfg2.win 4).blk t).view.read (Elt Ideal) (Cert.Spec.foldedT (V c main_v7_1) (V c main_v7_0) (V c main_v1) (V c main_arg6)) := by
  show (cfg2.win 4).cut (grid2.coords t) ((dat2 V c).after 4 t) = _
  rw [dat2_after4]
  funext j
  obtain ⟨p, q, rfl⟩ : ∃ (p : Fin 1000) (q : Fin 7), j = ix2 p q := ⟨j 0, j 1, eq_ix2 j⟩
  have ht : t.val < 10 := t.isLt
  have hr : t.val * 1000 + p.val < 10000 := by have := p.isLt; omega
  show tBlock (blk2 V c 0 t) (blk2 V c 1 t) (blk2 V c 2 t) (blk2 V c 3 t) (ix2 p q)
    = Cert.Spec.foldedT (V c main_v7_1) (V c main_v7_0) (V c main_v1) (V c main_arg6) (((cfg2.win 4).blk t).view.emb (ix2 p q))
  rw [emb2_out t p q ⟨t.val * 1000 + p.val, hr⟩ rfl]
  refine (tBlock_apply (blk2 V c 0 t) (blk2 V c 1 t) (blk2 V c 2 t) (blk2 V c 3 t) p q).trans ?_
  unfold Cert.Spec.foldedT
  rw [Cert.Spec.addRowMat_apply, Cert.Spec.mm_apply, Cert.Spec.mm_apply]
  refine congrArg₂ (· + ·) ?_ ?_
  · exact Finset.sum_congr rfl fun l _ => by rw [blk2_adj V c t p l ⟨t.val * 1000 + p.val, hr⟩ rfl, blk2_u V c t l q]
  · exact Finset.sum_congr rfl fun l _ => by rw [blk2_b V c t l, blk2_w3 V c t l q]

/-- An index of the output array is in point t's block iff its row is among the block's rows. -/
theorem mem_blk2 (t : Fin cfg2.N) (i : S10000x7.Idx) :
    i ∈ ((cfg2.win 4).blk t).view.set ↔ ∀ a : Fin 2, win2_4.index t a * S1000x7.size a ≤ (i a).val ∧ (i a).val < win2_4.index t a * S1000x7.size a + S1000x7.size a := by
  show i ∈ ((View.whole main_v8).slice (win2_4.rect t)).set ↔ _
  rw [View.set_slice_whole, Rect.mem_set_unit]
  exact Iff.rfl

/-- Every row is in the block of the point numbered row / 1000. -/
theorem cover2 (i : S10000x7.Idx) : ∃ t : Fin cfg2.N, (cfg2.win 4).flush t = true ∧ i ∈ ((cfg2.win 4).blk t).view.set := by
  have hi0 : (i 0).val < 10000 := (i 0).isLt
  have hi1 : (i 1).val < 7 := (i 1).isLt
  let t : Fin cfg2.N := ⟨(i 0).val / 1000, by show (i 0).val / 1000 < 10; omega⟩
  obtain ⟨-, -, -, -, -, -, -, -, e0, e1⟩ := idx_facts2 t
  have et : t.val = (i 0).val / 1000 := rfl
  refine ⟨t, flush2_4 t, ?_⟩
  rw [mem_blk2]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 7 ≤ (i 1).val ∧ (i 1).val < win2_4.index t (1 : Fin 2) * 7 + 7; omega

/-- The output array after the launch: adj · u + b2 · W3, entry by entry. -/
theorem reg2_t (c : Dev nD) :
    ((dat2 (F := Ideal) V c).arrAt 4 cfg2.N : Cert.Spec.Mat 10000 7)
      = Cert.Spec.foldedT (V c main_v7_1) (V c main_v7_0) (V c main_v1) (V c main_arg6) :=
  (dat2 (F := Ideal) V c).arrAt_eq_of_cover 4 _ (fun t _ => flushed2_eq V c t) cover2

end Cert.KernelIdeal.Hand

end
-- ==== Proof.KI.Val3.lean ====
/-
  What the last launch leaves in its output array, at the ideal instance: the 10000×7 matrix
  log_softmax (adj · t + b3)  along rows, entry by entry, of the arrays the launch was entered with (the adjacency in
  bf16, the support t, the bias as a 1×7 matrix). Each of the 10 grid points writes back rows 1000 t … 1000 t + 999. Its
  block's entry (p, q) is the log-softmax, over row p, of the block's product plus the bias row: the row's entry minus
  the row's maximum (folded from −∞) minus the logarithm of the row's sum of exponentials of the shifted entries. The
  log-softmax of a row depends on that row alone, and row p of the block at point t is row 1000 t + p of the adjacency;
  the blocks tile the rows, so the array ends at that matrix.
-/
import proofs.«173976_g38912403702117_cont_8to1_b_1654_12_alg».proof.Proof.KI.Reg3
import proofs.«173976_g38912403702117_cont_8to1_b_1654_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen
open scoped BigOperators

-- the buffer contents when the launch is entered
variable (V : (c : Dev nD) → (b : Ref sig .tc) → Buf (Elt Ideal) ((c : Thread nD τ).loc b))

/-! ## The product of the body, read at an entry -/

theorem lhs3a_0 (i : S1000x7.Idx) (r : dot_S1000x10000_S10000x7_S1000x7_1_0_0_1_n_n.contr.Idx) :
    (dot_S1000x10000_S10000x7_S1000x7_1_0_0_1_n_n.lhsIdx i r 0).val = (i 0).val := by
  unfold DotDims.lhsIdx
  rw [dif_neg (show ¬(0 : Fin S1000x10000.rank) ∈ dot_S1000x10000_S10000x7_S1000x7_1_0_0_1_n_n.lhsBatch by decide), dif_pos (show (0 : Fin S1000x10000.rank) ∈ dot_S1000x10000_S10000x7_S1000x7_1_0_0_1_n_n.lhsNonContracting by decide)]
  rfl
theorem lhs3a_1 (i : S1000x7.Idx) (r : dot_S1000x10000_S10000x7_S1000x7_1_0_0_1_n_n.contr.Idx) :
    (dot_S1000x10000_S10000x7_S1000x7_1_0_0_1_n_n.lhsIdx i r 1).val = (r ⟨0, by decide⟩).val :=
  dot_S1000x10000_S10000x7_S1000x7_1_0_0_1_n_n.lhsIdx_val_of_single rfl i r
theorem rhs3a_0 (i : S1000x7.Idx) (r : dot_S1000x10000_S10000x7_S1000x7_1_0_0_1_n_n.contr.Idx) :
    (dot_S1000x10000_S10000x7_S1000x7_1_0_0_1_n_n.rhsIdx i r 0).val = (r ⟨0, by decide⟩).val :=
  dot_S1000x10000_S10000x7_S1000x7_1_0_0_1_n_n.rhsIdx_val_of_single rfl i r
theorem rhs3a_1 (i : S1000x7.Idx) (r : dot_S1000x10000_S10000x7_S1000x7_1_0_0_1_n_n.contr.Idx) :
    (dot_S1000x10000_S10000x7_S1000x7_1_0_0_1_n_n.rhsIdx i r 1).val = (i 1).val := by
  unfold DotDims.rhsIdx
  rw [dif_neg (show ¬(1 : Fin S10000x7.rank) ∈ dot_S1000x10000_S10000x7_S1000x7_1_0_0_1_n_n.rhsBatch by decide), dif_pos (show (1 : Fin S10000x7.rank) ∈ dot_S1000x10000_S10000x7_S1000x7_1_0_0_1_n_n.rhsNonContracting by decide)]
  rfl

/-- The 1000×10000 by 10000×7 product into a zero accumulator, entry (p, q): the sum over l of x(p, l) · y(l, q). -/
theorem mm3a_apply {φ₁ φ₂ : FTy} (x : FVec Ideal S1000x10000 φ₁) (y : FVec Ideal S10000x7 φ₂) (p : Fin 1000) (q : Fin 7) :
    matmul dot_S1000x10000_S10000x7_S1000x7_1_0_0_1_n_n none x y (constant (F := Ideal) S1000x7 .f32 0x00000000#32) (ix2 p q)
      = ∑ l : Fin 10000, x (ix2 p l) * y (ix2 l q) := by
  simp only [matmul]
  rw [Ideal.matmul_constant_zero_apply, ← Equiv.sum_comp (contrEquiv1 dot_S1000x10000_S10000x7_S1000x7_1_0_0_1_n_n 10000 rfl rfl).symm]
  refine Finset.sum_congr rfl fun l _ => ?_
  have hl := contrEquiv1_symm_val dot_S1000x10000_S10000x7_S1000x7_1_0_0_1_n_n 10000 rfl rfl l
  have el : dot_S1000x10000_S10000x7_S1000x7_1_0_0_1_n_n.lhsIdx (ix2 p q) ((contrEquiv1 dot_S1000x10000_S10000x7_S1000x7_1_0_0_1_n_n 10000 rfl rfl).symm l) = ix2 p l := funext fun a => Fin.ext (by
    match a with
    | ⟨0, _⟩ => exact lhs3a_0 _ _
    | ⟨1, _⟩ => exact (lhs3a_1 _ _).trans hl)
  have er : dot_S1000x10000_S10000x7_S1000x7_1_0_0_1_n_n.rhsIdx (ix2 p q) ((contrEquiv1 dot_S1000x10000_S10000x7_S1000x7_1_0_0_1_n_n 10000 rfl rfl).symm l) = ix2 l q := funext fun a => Fin.ext (by
    match a with
    | ⟨0, _⟩ => exact (rhs3a_0 _ _).trans hl
    | ⟨1, _⟩ => exact rhs3a_1 _ _)
  rw [el, er]

/-! ## A row's reduction kept as a column, and the column spread over the row -/

/-- A vector of 1000 cast to a 1000×1 column reads, at (p, z), the vector at p. -/
theorem cast3_col {α : Type} (x : S1000.Idx → α) (h : S1000.ShapeCasts S1000x1) (p : Fin 1000) (z : Fin 1) :
    shapeCast S1000x1 x h (ix2 p z) = x (ix1 p) :=
  shapeCast_apply x h _ _ (by
    have hz : z.val = 0 := by omega
    rw [Shape.rowMajor_val_one, Shape.rowMajor_val_two]
    show p.val = p.val * 1 + z.val
    omega)

/-- A 1000×1 column broadcast to 1000×7 reads, at (p, q), the column at (p, 0). -/
theorem bcast3_col {α : Type} (x : S1000x1.Idx → α) (h : S1000x1.Broadcasts S1000x7) (p : Fin 1000) (q : Fin 7) :
    broadcastTo S1000x7 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- The index of row p with column k put back. -/
theorem lift3 (h : S1000x7.Reduces [1] S1000) (p : Fin 1000) (k : Fin 7) : h.lift (ix1 p) k = ix2 p k :=
  funext fun a => Fin.ext (by
    match a with
    | ⟨0, _⟩ => rfl
    | ⟨1, _⟩ => rfl)

theorem negInf3 : Ideal.ofBits .f32 0xFF800000#32 = ⊥ := by simp [Ideal.ofBits, Ideal.ieee]

/-- The maximum over a row, from −∞: the row's fold of max from ⊥. -/
theorem rowMax3 (x : FVec Ideal S1000x7 .f32) (h : S1000x7.Reduces [1] S1000) (hφ : FKind.Formats .f32)
    (hacc : (0xFF800000#32 : BitVec 32) = 0xFF800000#32) (p : Fin 1000) :
    multiReduction .maximumf [1] S1000 x 0xFF800000#32 h hφ hacc (ix1 p) = Cert.Spec.rowMax (x : Cert.Spec.Mat 1000 7) p := by
  refine (Ideal.multiReduction_maximumf_single x 0xFF800000#32 h hφ hacc (ix1 p)).trans ?_
  show (Finset.univ : Finset (Fin 7)).fold max (Ideal.ofBits .f32 0xFF800000#32) (x ∘ h.lift (ix1 p)) = (Finset.univ : Finset (Fin 7)).fold max ⊥ (fun j => x (ix2 p j))
  rw [negInf3]
  exact congrArg (fun f : Fin 7 → EReal => (Finset.univ : Finset (Fin 7)).fold max ⊥ f) (funext fun j => congrArg x (lift3 h p j))

/-- The sum over a row, from zero. -/
theorem rowSum3 (x : FVec Ideal S1000x7 .f32) (h : S1000x7.Reduces [1] S1000) (hφ : FKind.Formats .f32)
    (hacc : (0x00000000#32 : BitVec 32) = 0x00000000#32) (p : Fin 1000) :
    multiReduction .add [1] S1000 x 0x00000000#32 h hφ hacc (ix1 p) = ∑ j : Fin 7, x (ix2 p j) := by
  refine (Ideal.multiReduction_add_single x 0x00000000#32 h hφ hacc (ix1 p)).trans ?_
  exact Finset.sum_congr rfl fun j _ => congrArg x (lift3 h p j)

/-! ## The body's arithmetic is the row-wise log-softmax of adj_blk · t + b3 -/

/-- The tail of the body on any 1000×7 matrix x: subtract each row's maximum, then the logarithm of the row's sum of
    exponentials of the shifted row. -/
theorem lsm3_apply (x : FVec Ideal S1000x7 .f32) (p : Fin 1000) (q : Fin 7) :
    subf (subf x (broadcastTo S1000x7 (shapeCast S1000x1 (multiReduction .maximumf [1] S1000 x 0xFF800000#32 reduces_S1000x7_S1000 (.inl rfl) rfl) shapeCasts_S1000_S1000x1) broadcasts_S1000x1_S1000x7))
        (broadcastTo S1000x7 (log (shapeCast S1000x1 (multiReduction .add [1] S1000
            (exp (subf x (broadcastTo S1000x7 (shapeCast S1000x1 (multiReduction .maximumf [1] S1000 x 0xFF800000#32 reduces_S1000x7_S1000 (.inl rfl) rfl) shapeCasts_S1000_S1000x1) broadcasts_S1000x1_S1000x7)))
            0x00000000#32 reduces_S1000x7_S1000 (.inl rfl) rfl) shapeCasts_S1000_S1000x1)) broadcasts_S1000x1_S1000x7) (ix2 p q)
      = Cert.Spec.logSoftmax (x : Cert.Spec.Mat 1000 7) (ix2 p q) := by
  have hM : ∀ q' : Fin 7, broadcastTo S1000x7 (shapeCast S1000x1 (multiReduction .maximumf [1] S1000 x 0xFF800000#32 reduces_S1000x7_S1000 (.inl rfl) rfl) shapeCasts_S1000_S1000x1) broadcasts_S1000x1_S1000x7 (ix2 p q')
      = Cert.Spec.rowMax (x : Cert.Spec.Mat 1000 7) p := fun q' =>
    (bcast3_col _ _ p q').trans ((cast3_col _ _ p 0).trans (rowMax3 x _ _ _ p))
  rw [Cert.Spec.logSoftmax_apply, subf_apply, subf_apply, hM q, bcast3_col]
  refine congrArg (fun z => (x (ix2 p q) - Cert.Spec.rowMax (x : Cert.Spec.Mat 1000 7) p) - z) ?_
  show Ideal.log (shapeCast S1000x1 _ shapeCasts_S1000_S1000x1 (ix2 p (0 : Fin 1))) = _
  rw [cast3_col, rowSum3]
  refine congrArg Ideal.log (Finset.sum_congr rfl fun j _ => ?_)
  show Ideal.exp (subf x _ (ix2 p j)) = Ideal.exp (x (ix2 p j) - Cert.Spec.rowMax (x : Cert.Spec.Mat 1000 7) p)
  rw [subf_apply, hM j]

/-- The body's arithmetic at entry (p, q). -/
theorem pay3_apply (a : Vec Ideal S1000x10000 .bf16) (t : Vec Ideal S10000x7 .bf16) (b : Vec Ideal S1x7 .f32) (p : Fin 1000) (q : Fin 7) :
    k3_pay1 (F := Ideal) a t b (ix2 p q)
      = Cert.Spec.logSoftmax (Cert.Spec.addRowMat (Cert.Spec.mm (a : Cert.Spec.Mat 1000 10000) (t : Cert.Spec.Mat 10000 7)) (b : Cert.Spec.Mat 1 7)) (ix2 p q) := by
  have hH : addf (matmul (φ₁ := .bf16) (φ₂ := .bf16) dot_S1000x10000_S10000x7_S1000x7_1_0_0_1_n_n none a t (constant (F := Ideal) S1000x7 .f32 0x00000000#32)) (broadcastTo S1000x7 (b : FVec Ideal S1x7 .f32) broadcasts_S1x7_S1000x7)
      = (Cert.Spec.addRowMat (Cert.Spec.mm (a : Cert.Spec.Mat 1000 10000) (t : Cert.Spec.Mat 10000 7)) (b : Cert.Spec.Mat 1 7) : S1000x7.Idx → EReal) := by
    funext y
    obtain ⟨p', q', rfl⟩ : ∃ (p' : Fin 1000) (q' : Fin 7), y = ix2 p' q' := ⟨y 0, y 1, eq_ix2 y⟩
    rw [addf_apply, mm3a_apply, broadcastTo_1b_ab_apply, Cert.Spec.addRowMat_apply, Cert.Spec.mm_apply]
  unfold k3_pay1
  simp only [shapeCast_self]
  rw [← hH]
  exact lsm3_apply _ p q

/-! ## From the blocks to the array -/

theorem hz3 : (![0, 0] : Fin 2 → Nat) = fun _ => 0 := funext fun a => by fin_cases a <;> rfl

/-- The output block at entry (p, q), from the three input blocks. -/
theorem outBlock_apply (a : Vec Ideal S1000x10000 .bf16) (t : Vec Ideal S10000x7 .bf16) (b : Vec Ideal S1x7 .f32) (p : Fin 1000) (q : Fin 7) :
    outBlock a t b (ix2 p q)
      = Cert.Spec.logSoftmax (Cert.Spec.addRowMat (Cert.Spec.mm (a : Cert.Spec.Mat 1000 10000) (t : Cert.Spec.Mat 10000 7)) (b : Cert.Spec.Mat 1 7)) (ix2 p q) := by
  unfold outBlock
  rw [View.canon_unit_zero hz3]
  simp only [View.ld_unit_zero (S := S1000x10000) hz3, View.ld_unit_zero (S := S10000x7) hz3, View.ld_unit_zero (S := S1x7) hz3]
  exact pay3_apply a t b p q

/-- The log-softmax of a row depends on that row alone. -/
theorem logSoftmax_row {n n' m : ℕ} (H : Cert.Spec.Mat n m) (H' : Cert.Spec.Mat n' m) (i : Fin n) (i' : Fin n')
    (h : ∀ j, H (ix2 i j) = H' (ix2 i' j)) (q : Fin m) :
    Cert.Spec.logSoftmax H (ix2 i q) = Cert.Spec.logSoftmax H' (ix2 i' q) := by
  simp only [Cert.Spec.logSoftmax_apply, Cert.Spec.rowMax, Cert.Spec.rowExpSum, h]

/-- The printed index maps over the grid: the adjacency's and the output's block number along the rows is the point's
    number; every other block number is 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The adjacency block at point t is rows 1000 t … 1000 t + 999 of the adjacency. -/
theorem blk3_adj (c : Dev nD) (t : Fin cfg3.N) (p : Fin 1000) (l : Fin 10000) (r : Fin 10000) (hr : r.val = t.val * 1000 + p.val) :
    (blk3 V c 0 t : Vec Ideal S1000x10000 .bf16) (ix2 p l) = (V c main_v7_1 : S10000x10000.Idx → EReal) (ix2 r l) := by
  obtain ⟨e0, e1, -⟩ := idx_facts3 t
  show V c main_v7_1 (((cfg3.win 0).blk t).view.emb (ix2 p l)) = V c main_v7_1 (ix2 r l)
  refine congrArg _ (funext fun a => Fin.ext ?_)
  match a with
  | ⟨0, _⟩ => show win3_0.index t (0 : Fin 2) * 1000 + 1 * p.val = r.val; omega
  | ⟨1, _⟩ => show win3_0.index t (1 : Fin 2) * 10000 + 1 * l.val = l.val; omega

/-- The other two input blocks are their whole arrays. -/
theorem blk3_t (c : Dev nD) (t : Fin cfg3.N) (l : Fin 10000) (q : Fin 7) :
    (blk3 V c 1 t : Vec Ideal S10000x7 .bf16) (ix2 l q) = (V c main_v8 : S10000x7.Idx → EReal) (ix2 l q) := by
  obtain ⟨-, -, e0, e1, -⟩ := idx_facts3 t
  show V c main_v8 (((cfg3.win 1).blk t).view.emb (ix2 l q)) = V c main_v8 (ix2 l q)
  refine congrArg _ (funext fun a => Fin.ext ?_)
  match a with
  | ⟨0, _⟩ => show win3_1.index t (0 : Fin 2) * 10000 + 1 * l.val = l.val; omega
  | ⟨1, _⟩ => show win3_1.index t (1 : Fin 2) * 7 + 1 * q.val = q.val; omega
theorem blk3_b (c : Dev nD) (t : Fin cfg3.N) (q : Fin 7) :
    (blk3 V c 2 t : Vec Ideal S1x7 .f32) (ix2 0 q) = (V c main_v2 : S1x7.Idx → EReal) (ix2 0 q) := by
  obtain ⟨-, -, -, -, e0, e1, -⟩ := idx_facts3 t
  show V c main_v2 (((cfg3.win 2).blk t).view.emb (ix2 0 q)) = V c main_v2 (ix2 0 q)
  refine congrArg _ (funext fun a => Fin.ext ?_)
  match a with
  | ⟨0, _⟩ => show win3_2.index t (0 : Fin 2) * 1 + 1 * 0 = 0; omega
  | ⟨1, _⟩ => show win3_2.index t (1 : Fin 2) * 7 + 1 * q.val = q.val; omega

/-- Entry (p, q) of the output block at point t is entry (1000 t + p, q) of the output array. -/
theorem emb3_out (t : Fin cfg3.N) (p : Fin 1000) (q : Fin 7) (r : Fin 10000) (hr : r.val = t.val * 1000 + p.val) :
    ((cfg3.win 3).blk t).view.emb (ix2 p q) = (ix2 r q : S10000x7.Idx) := by
  obtain ⟨-, -, -, -, -, -, e0, e1⟩ := idx_facts3 t
  refine funext fun a => Fin.ext ?_
  match a with
  | ⟨0, _⟩ => show win3_3.index t (0 : Fin 2) * 1000 + 1 * p.val = r.val; omega
  | ⟨1, _⟩ => show win3_3.index t (1 : Fin 2) * 7 + 1 * q.val = q.val; omega

/-- What point t writes back is block t of the whole-array function. -/
theorem flushed3_eq (c : Dev nD) (t : Fin cfg3.N) :
    (dat3 (F := Ideal) V c).flushed 3 t
      = ((cfg3.win 3).blk t).view.read (Elt Ideal) (Cert.Spec.lastOut (V c main_v7_1) (V c main_v8) (V c main_v2)) := by
  show (cfg3.win 3).cut (grid3.coords t) ((dat3 V c).after 3 t) = _
  rw [dat3_after3]
  funext j
  obtain ⟨p, q, rfl⟩ : ∃ (p : Fin 1000) (q : Fin 7), j = ix2 p q := ⟨j 0, j 1, eq_ix2 j⟩
  have ht : t.val < 10 := t.isLt
  have hr : t.val * 1000 + p.val < 10000 := by have := p.isLt; omega
  show outBlock (blk3 V c 0 t) (blk3 V c 1 t) (blk3 V c 2 t) (ix2 p q)
    = Cert.Spec.lastOut (V c main_v7_1) (V c main_v8) (V c main_v2) (((cfg3.win 3).blk t).view.emb (ix2 p q))
  rw [emb3_out t p q ⟨t.val * 1000 + p.val, hr⟩ rfl]
  refine (outBlock_apply (blk3 V c 0 t) (blk3 V c 1 t) (blk3 V c 2 t) p q).trans ?_
  unfold Cert.Spec.lastOut
  refine logSoftmax_row _ _ p ⟨t.val * 1000 + p.val, hr⟩ (fun j => ?_) q
  rw [Cert.Spec.addRowMat_apply, Cert.Spec.addRowMat_apply, Cert.Spec.mm_apply, Cert.Spec.mm_apply]
  refine congrArg₂ (· + ·) ?_ ?_
  · exact Finset.sum_congr rfl fun l _ => by rw [blk3_adj V c t p l ⟨t.val * 1000 + p.val, hr⟩ rfl, blk3_t V c t l j]
  · exact blk3_b V c t j

/-- An index of the output array is in point t's block iff its row is among the block's rows. -/
theorem mem_blk3 (t : Fin cfg3.N) (i : S10000x7.Idx) :
    i ∈ ((cfg3.win 3).blk t).view.set ↔ ∀ a : Fin 2, win3_3.index t a * S1000x7.size a ≤ (i a).val ∧ (i a).val < win3_3.index t a * S1000x7.size a + S1000x7.size a := by
  show i ∈ ((View.whole main_v9).slice (win3_3.rect t)).set ↔ _
  rw [View.set_slice_whole, Rect.mem_set_unit]
  exact Iff.rfl

/-- Every row is in the block of the point numbered row / 1000. -/
theorem cover3 (i : S10000x7.Idx) : ∃ t : Fin cfg3.N, (cfg3.win 3).flush t = true ∧ i ∈ ((cfg3.win 3).blk t).view.set := by
  have hi0 : (i 0).val < 10000 := (i 0).isLt
  have hi1 : (i 1).val < 7 := (i 1).isLt
  let t : Fin cfg3.N := ⟨(i 0).val / 1000, by show (i 0).val / 1000 < 10; omega⟩
  obtain ⟨-, -, -, -, -, -, e0, e1⟩ := idx_facts3 t
  have et : t.val = (i 0).val / 1000 := rfl
  refine ⟨t, flush3_3 t, ?_⟩
  rw [mem_blk3]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 7 ≤ (i 1).val ∧ (i 1).val < win3_3.index t (1 : Fin 2) * 7 + 7; omega

/-- The output array after the launch: log_softmax (adj · t + b3) along rows, entry by entry. -/
theorem reg3_out (c : Dev nD) :
    ((dat3 (F := Ideal) V c).arrAt 3 cfg3.N : Cert.Spec.Mat 10000 7)
      = Cert.Spec.lastOut (V c main_v7_1) (V c main_v8) (V c main_v2) :=
  (dat3 (F := Ideal) V c).arrAt_eq_of_cover 3 _ (fun t _ => flushed3_eq V c t) cover3

end Cert.KernelIdeal.Hand

end
-- ==== Proof.KI.Host.lean ====
/-
  What the host operations before the first launch leave, at the ideal instance.
  Three bias vectors are recast as one-row matrices; the features are transposed and padded below with 103 rows of the
  converted integer zero, which is the real zero; the first weight matrix is padded the same way. No operation writes an
  argument. Each array is read index by index: a recast by row-major position, a transpose by swapping coordinates, a pad
  by whether the row lies among the first 1433.
-/
import proofs.«173976_g38912403702117_cont_8to1_b_1654_12_alg».proof.Proof.Gen.KernelIdeal.Launch
import proofs.«173976_g38912403702117_cont_8to1_b_1654_12_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.TcCoe Idealize.ShloMosaic.ValueIdx

abbrev hostAfter (V0 : Valuation τ sig (Elt Ideal)) : Valuation τ sig (Elt Ideal) :=
  StableHlo.after hostOps0_3 (StableHlo.after hostOps0_2 (StableHlo.after hostOps0_1 (StableHlo.after hostOps0 V0)))

variable (V0 : Valuation τ sig (Elt Ideal))

/-! ## The operations' terms -/

theorem term_b1 : (hostAfter V0 (Proc.devRef .tc main_v0) : S1x60.Idx → EReal)
    = shapeCast S1x60 (V0 (Proc.devRef .tc main_arg3) : S60.Idx → EReal) shapeCasts_S60_S1x60 := by
  dsimp only [hostAfter, hostOps0, hostOps0_1, hostOps0_2, hostOps0_3]; after_results; rfl

theorem term_b2 : (hostAfter V0 (Proc.devRef .tc main_v1) : S1x30.Idx → EReal)
    = shapeCast S1x30 (V0 (Proc.devRef .tc main_arg5) : S30.Idx → EReal) shapeCasts_S30_S1x30 := by
  dsimp only [hostAfter, hostOps0, hostOps0_1, hostOps0_2, hostOps0_3]; after_results; rfl

theorem term_b3 : (hostAfter V0 (Proc.devRef .tc main_v2) : S1x7.Idx → EReal)
    = shapeCast S1x7 (V0 (Proc.devRef .tc main_arg7) : S7.Idx → EReal) shapeCasts_S7_S1x7 := by
  dsimp only [hostAfter, hostOps0, hostOps0_1, hostOps0_2, hostOps0_3]; after_results; rfl

theorem term_xt : (hostAfter V0 (Proc.devRef .tc main_v4) : S1536x10000.Idx → EReal)
    = pad S1536x10000 ![0, 0] ![103, 0] ![0, 0]
        (transpose S1433x10000 [1, 0] (V0 (Proc.devRef .tc main_arg0) : S10000x1433.Idx → EReal) transposes_S10000x1433_S1433x10000_1_0)
        (sitofp .f32 (constantI S_ 32 0#32) : FVec Ideal S_ .f32) pads_S1433x10000_S1536x10000_01030_000 h_S_ := by
  dsimp only [hostAfter, hostOps0, hostOps0_1, hostOps0_2, hostOps0_3]; after_results; rfl

theorem term_w1 : (hostAfter V0 (Proc.devRef .tc main_v5) : S1536x60.Idx → EReal)
    = pad S1536x60 ![0, 0] ![103, 0] ![0, 0] (V0 (Proc.devRef .tc main_arg2) : S1433x60.Idx → EReal)
        (sitofp .f32 (constantI S_ 32 0#32) : FVec Ideal S_ .f32) pads_S1433x60_S1536x60_01030_000 h_S_ := by
  dsimp only [hostAfter, hostOps0, hostOps0_1, hostOps0_2, hostOps0_3]; after_results; rfl

/-! ## The terms read at an index -/

/-- A vector recast as a one-row matrix has the vector's entry q in column q. -/
theorem oneRow_apply {m : ℕ} (b : (⟨1, ![m]⟩ : Shape).Idx → EReal) (h : (⟨1, ![m]⟩ : Shape).ShapeCasts ⟨2, ![1, m]⟩)
    (p : Fin 1) (q : Fin m) : shapeCast ⟨2, ![1, m]⟩ b h (ix2 p q) = b (ix1 q) := by
  refine shapeCast_apply b h (ix2 p q) (ix1 q) ?_
  rw [Shape.rowMajor_val_one, Shape.rowMajor_val_two]
  show q.val = p.val * m + q.val
  have hp : p.val = 0 := by have := p.isLt; omega
  rw [hp, Nat.zero_mul, Nat.zero_add]

/-- The converted integer zero is the real zero. -/
theorem padValue_eq (i : S_.Idx) : (sitofp .f32 (constantI S_ 32 0#32) : FVec Ideal S_ .f32) i = 0 :=
  sitofp_zero

/-- A matrix padded with 103 rows at the high end of axis 0 is the matrix on the first rows and the padding value below. -/
theorem padHigh_apply {n m : ℕ} (x : (⟨2, ![n, m]⟩ : Shape).Idx → EReal) (v : S_.Idx → EReal)
    (h : (⟨2, ![n, m]⟩ : Shape).Pads (![0, 0] : Fin 2 → Nat) ![103, 0] ![0, 0] ⟨2, ![n + 103, m]⟩)
    (p : Fin (n + 103)) (q : Fin m) :
    pad ⟨2, ![n + 103, m]⟩ ![0, 0] ![103, 0] ![0, 0] x v h h_S_ (ix2 p q)
      = if hp : p.val < n then x (ix2 ⟨p.val, hp⟩ q) else v ix0 := by
  by_cases hp : p.val < n
  · rw [dif_pos hp]
    refine pad_apply_of_inside _ _ _ x v h h_S_ (ix2 p q) (ix2 ⟨p.val, hp⟩ q) fun a => ?_
    match a with
    | ⟨0, _⟩ => show p.val = 0 + p.val * (0 + 1); omega
    | ⟨1, _⟩ => show q.val = 0 + q.val * (0 + 1); omega
  · rw [dif_neg hp]
    refine (pad_apply_of_not_inside _ _ _ x v h h_S_ (ix2 p q) (0 : Fin 2) ?_).trans (congrArg v (eq_ix0 _))
    show ¬(0 ≤ p.val ∧ (p.val - 0) % (0 + 1) = 0 ∧ (p.val - 0) / (0 + 1) < n)
    omega

/-! ## What the stretches leave -/

theorem host_b1 : (hostAfter V0 (Proc.devRef .tc main_v0) : Cert.Spec.Mat 1 60) = Cert.Spec.asRow (V0 (Proc.devRef .tc main_arg3)) := by
  funext y
  obtain ⟨p, q, rfl⟩ : ∃ p q, y = ix2 p q := ⟨y 0, y 1, eq_ix2 y⟩
  exact (congrFun (term_b1 V0) (ix2 p q)).trans (oneRow_apply _ _ p q)

theorem host_b2 : (hostAfter V0 (Proc.devRef .tc main_v1) : Cert.Spec.Mat 1 30) = Cert.Spec.asRow (V0 (Proc.devRef .tc main_arg5)) := by
  funext y
  obtain ⟨p, q, rfl⟩ : ∃ p q, y = ix2 p q := ⟨y 0, y 1, eq_ix2 y⟩
  exact (congrFun (term_b2 V0) (ix2 p q)).trans (oneRow_apply _ _ p q)

theorem host_b3 : (hostAfter V0 (Proc.devRef .tc main_v2) : Cert.Spec.Mat 1 7) = Cert.Spec.asRow (V0 (Proc.devRef .tc main_arg7)) := by
  funext y
  obtain ⟨p, q, rfl⟩ : ∃ p q, y = ix2 p q := ⟨y 0, y 1, eq_ix2 y⟩
  exact (congrFun (term_b3 V0) (ix2 p q)).trans (oneRow_apply _ _ p q)

theorem host_xt : (hostAfter V0 (Proc.devRef .tc main_v4) : Cert.Spec.Mat 1536 10000) = Cert.Spec.padT (V0 (Proc.devRef .tc main_arg0)) := by
  funext y
  obtain ⟨p, q, rfl⟩ : ∃ p q, y = ix2 p q := ⟨y 0, y 1, eq_ix2 y⟩
  refine (congrFun (term_xt V0) (ix2 p q)).trans ?_
  refine (padHigh_apply (n := 1433) (m := 10000) _ _ pads_S1433x10000_S1536x10000_01030_000 p q).trans ?_
  show _ = if h : p.val < 1433 then (V0 (Proc.devRef .tc main_arg0) : S10000x1433.Idx → EReal) (ix2 q ⟨p.val, h⟩) else (0 : EReal)
  by_cases hp : p.val < 1433
  · rw [dif_pos hp, dif_pos hp]
    exact transpose_apply _ _ transposes_S10000x1433_S1433x10000_1_0 (ix2 ⟨p.val, hp⟩ q) (ix2 q ⟨p.val, hp⟩)
      (fun b => match b with | ⟨0, _⟩ => rfl | ⟨1, _⟩ => rfl)
  · rw [dif_neg hp, dif_neg hp]; exact padValue_eq _

theorem host_w1 : (hostAfter V0 (Proc.devRef .tc main_v5) : Cert.Spec.Mat 1536 60) = Cert.Spec.padRows (V0 (Proc.devRef .tc main_arg2)) := by
  funext y
  obtain ⟨p, q, rfl⟩ : ∃ p q, y = ix2 p q := ⟨y 0, y 1, eq_ix2 y⟩
  refine (congrFun (term_w1 V0) (ix2 p q)).trans ?_
  refine (padHigh_apply (n := 1433) (m := 60) _ _ pads_S1433x60_S1536x60_01030_000 p q).trans ?_
  show _ = if h : p.val < 1433 then (V0 (Proc.devRef .tc main_arg2) : S1433x60.Idx → EReal) (ix2 ⟨p.val, h⟩ q) else (0 : EReal)
  by_cases hp : p.val < 1433
  · rw [dif_pos hp, dif_pos hp]
  · rw [dif_neg hp, dif_neg hp]; exact padValue_eq _

/-! ## No stretch writes an argument -/

theorem host_arg1 : hostAfter V0 (Proc.devRef .tc main_arg1) = V0 (Proc.devRef .tc main_arg1) := by
  dsimp only [hostAfter, hostOps0, hostOps0_1, hostOps0_2, hostOps0_3]; after_results

theorem host_arg4 : hostAfter V0 (Proc.devRef .tc main_arg4) = V0 (Proc.devRef .tc main_arg4) := by
  dsimp only [hostAfter, hostOps0, hostOps0_1, hostOps0_2, hostOps0_3]; after_results

theorem host_arg6 : hostAfter V0 (Proc.devRef .tc main_arg6) = V0 (Proc.devRef .tc main_arg6) := by
  dsimp only [hostAfter, hostOps0, hostOps0_1, hostOps0_2, hostOps0_3]; after_results

end Cert.KernelIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Algebra.lean ====
/-
  The two arrangements of the three-layer graph convolution agree on real inputs.

  Over the extended reals the sum is a commutative monoid, so padding a contraction with zero terms never changes it; but the
  product is neither associative with sums nor distributive in general (⊤ + ⊥, 0 · ⊤ have conventional values).  On matrices
  whose entries are all real numbers the matrix product is the real one: it is associative, (A · B) · C = A · (B · C), and it
  distributes over an added row, (A + 1 bᵀ) · W = A · W + 1 (bᵀ · W).  These two identities fold the last two projections of the
  network into the first aggregation; the log-softmax is then applied to equal arguments.
-/
import proofs.«173976_g38912403702117_cont_8to1_b_1654_12_alg».proof.Proof.Spec
import proofs.«173976_g38912403702117_cont_8to1_b_1654_12_alg».proof.Proof.LibReal
import Mathlib.Data.EReal.Basic
import Mathlib.Data.EReal.Operations
import Mathlib.Algebra.BigOperators.Fin
import Mathlib.Algebra.BigOperators.Ring.Finset
import Mathlib.Tactic.Ring

noncomputable section

open scoped BigOperators

namespace Cert.Spec

open Idealize.ShloMosaic Idealize.ShloMosaic.ValueIdx Cert.LibReal

variable {n k l m : ℕ}

/-! ## Matrices entry by entry -/

/-- Two matrices with the same entry at every (row, column) are equal. -/
theorem mat_ext {A B : Mat n m} (h : ∀ (i : Fin n) (j : Fin m), A (ix2 i j) = B (ix2 i j)) : A = B := by
  funext y
  obtain ⟨i, j, rfl⟩ : ∃ (i : Fin n) (j : Fin m), y = ix2 i j := ⟨_, _, eq_ix2 y⟩
  exact h i j

theorem asRow_apply (b : Row m) (i : Fin 1) (j : Fin m) : asRow b (ix2 i j) = b (ix1 j) := rfl

/-- Adding a row vector, or the same vector as a one-row matrix, is the same matrix. -/
theorem addRowMat_asRow (A : Mat n m) (b : Row m) : addRowMat A (asRow b) = addRow A b := rfl

/-! ## Real entries are kept by every layer operation -/

theorem allReal_mm {A : Mat n k} {B : Mat k m} (hA : AllReal A) (hB : AllReal B) : AllReal (mm A B) :=
  fun _ => IsReal.sum _ _ fun _ _ => IsReal.mul (hA _) (hB _)

theorem allReal_addRow {A : Mat n m} {b : Row m} (hA : AllReal A) (hb : AllReal b) : AllReal (addRow A b) :=
  fun y => IsReal.add (hA y) (hb _)

theorem allReal_relu {A : Mat n m} (hA : AllReal A) : AllReal (relu A) :=
  fun y => IsReal.max (hA y) IsReal.zero

/-! ## The matrix product on real entries -/

/-- (A · B) · C = A · (B · C) for matrices of real numbers: both are Σ_p Σ_q A(i,p) B(p,q) C(q,j). -/
theorem mm_assoc_of_real (A : Mat n k) (B : Mat k l) (C : Mat l m) (hA : AllReal A) (hB : AllReal B) (hC : AllReal C) :
    mm (mm A B) C = mm A (mm B C) := by
  choose a ha using hA
  choose b hb using hB
  choose c hc using hC
  refine mat_ext fun i j => ?_
  simp only [mm_apply, ha, hb, hc]
  simp only [← EReal.coe_mul, ← coe_sum]
  congr 1
  simp only [Finset.sum_mul, Finset.mul_sum]
  rw [Finset.sum_comm]
  exact Finset.sum_congr rfl fun p _ => Finset.sum_congr rfl fun q _ => mul_assoc _ _ _

/-- (A + 1 bᵀ) · W = A · W + 1 (bᵀ · W) for real entries: Σ_p (A(i,p) + b(p)) W(p,j) = Σ_p A(i,p) W(p,j) + Σ_p b(p) W(p,j). -/
theorem mm_addRow_of_real (A : Mat n k) (b : Row k) (W : Mat k m) (hA : AllReal A) (hb : AllReal b) (hW : AllReal W) :
    mm (addRow A b) W = addRowMat (mm A W) (mm (asRow b) W) := by
  choose a ha using hA
  choose β hβ using hb
  choose w hw using hW
  refine mat_ext fun i j => ?_
  simp only [addRowMat_apply, mm_apply, addRow_apply, asRow_apply, ha, hβ, hw]
  simp only [← EReal.coe_mul, ← EReal.coe_add, ← coe_sum]
  congr 1
  simp only [add_mul, Finset.sum_add_distrib]

/-! ## Zero padding of a contraction -/

/-- A sum over N terms of which only the first a are not the literal zero is the sum of those a terms. -/
theorem sum_dite_lt {a N : ℕ} (hN : a ≤ N) (G : Fin a → EReal) :
    ∑ p : Fin N, (if h : p.val < a then G ⟨p.val, h⟩ else 0) = ∑ p : Fin a, G p := by
  obtain ⟨c, rfl⟩ := Nat.exists_eq_add_of_le hN
  rw [Fin.sum_univ_add]
  have h1 : ∀ p : Fin a, (if h : (Fin.castAdd c p).val < a then G ⟨(Fin.castAdd c p).val, h⟩ else 0) = G p := by
    intro p
    rw [dif_pos (by rw [Fin.coe_castAdd]; exact p.isLt)]
    rfl
  have h2 : ∀ p : Fin c, (if h : (Fin.natAdd a p).val < a then G ⟨(Fin.natAdd a p).val, h⟩ else 0) = 0 := by
    intro p
    rw [dif_neg (by rw [Fin.coe_natAdd]; omega)]
  rw [Finset.sum_congr rfl fun p _ => h1 p, Finset.sum_congr rfl fun p _ => h2 p, Finset.sum_const_zero, add_zero]

theorem padT_apply (x : Mat 10000 1433) (p : Fin 1536) (i : Fin 10000) :
    padT x (ix2 p i) = if h : p.val < 1433 then x (ix2 i ⟨p.val, h⟩) else 0 := rfl

theorem padRows_apply (W1 : Mat 1433 60) (p : Fin 1536) (j : Fin 60) :
    padRows W1 (ix2 p j) = if h : p.val < 1433 then W1 (ix2 ⟨p.val, h⟩ j) else 0 := rfl

/-- The support accumulated over the 1536 padded rows is x · W1: the 103 padded terms are 0 · 0. -/
theorem supportPadded_eq (x : Mat 10000 1433) (W1 : Mat 1433 60) : supportPadded (padT x) (padRows W1) = mm x W1 := by
  refine mat_ext fun i j => ?_
  rw [supportPadded_apply, mm_apply,
    ← sum_dite_lt (a := 1433) (N := 1536) (by norm_num) (fun p => x (ix2 i p) * W1 (ix2 p j))]
  refine Finset.sum_congr rfl fun p _ => ?_
  rw [padT_apply, padRows_apply]
  by_cases h : p.val < 1433
  · rw [dif_pos h, dif_pos h, dif_pos h]
  · rw [dif_neg h, dif_neg h, dif_neg h, mul_zero]

/-! ## The two arrangements -/

/-- The pre-activation of the last layer, folded: with P = relu (adj · s + b1) · W2 real,
    (adj · P + b2) · W3 = adj · (P · W3) + b2 · W3. -/
theorem fold_of_real (adj : Mat 10000 10000) (P : Mat 10000 30) (b2 : Row 30) (W3 : Mat 30 7)
    (hadj : AllReal adj) (hP : AllReal P) (hb2 : AllReal b2) (hW3 : AllReal W3) :
    mm (addRow (mm adj P) b2) W3 = addRowMat (mm adj (mm P W3)) (mm (asRow b2) W3) := by
  rw [mm_addRow_of_real _ _ _ (allReal_mm hadj hP) hb2 hW3, mm_assoc_of_real _ _ _ hadj hP hW3]

/-- The kernel's arrangement, fed the padded support and the biases as one-row matrices, is the reference's arrangement
    wherever every input entry is a real number. -/
theorem nets_agree (x : Mat 10000 1433) (adj : Mat 10000 10000) (W1 : Mat 1433 60) (b1 : Row 60) (W2 : Mat 60 30) (b2 : Row 30)
    (W3 : Mat 30 7) (b3 : Row 7)
    (hx : AllReal x) (hadj : AllReal adj) (hW1 : AllReal W1) (hb1 : AllReal b1) (hW2 : AllReal W2) (hb2 : AllReal b2)
    (hW3 : AllReal W3) (hb3 : AllReal b3) :
    kerNet adj (supportPadded (padT x) (padRows W1)) (asRow b1) W2 (asRow b2) W3 (asRow b3)
      = refNet x adj W1 b1 W2 b2 W3 b3 := by
  have hP : AllReal (mm (layer1 adj (mm x W1) b1) W2) :=
    allReal_mm (allReal_relu (allReal_addRow (allReal_mm hadj (allReal_mm hx hW1)) hb1)) hW2
  have hfold := fold_of_real adj (mm (layer1 adj (mm x W1) b1) W2) b2 W3 hadj hP hb2 hW3
  have hpre : addRowMat (mm adj (foldedT adj (foldedU adj (mm x W1) (asRow b1) W2 W3) (asRow b2) W3)) (asRow b3)
      = addRow (mm adj (mm (addRow (mm adj (mm (layer1 adj (mm x W1) b1) W2)) b2) W3)) b3 := by
    rw [hfold]
    rfl
  unfold kerNet lastOut refNet
  rw [supportPadded_eq, hpre]

end Cert.Spec

end
-- ==== Proof.KI.Chain.lean ====
/-
  The idealized kernel program's result as one function of its arguments. Reading the output buffer back through the
  four launches and the host operations before them: the last launch leaves log_softmax (adj · t + b3) of the adjacency
  copy and t; the third leaves t = adj · u + b2 · W3; the second leaves u = (relu (adj · s + b1) · W2) · W3 and the
  adjacency itself as its copy; the first leaves the support s accumulated over the padded transposed features. No
  launch changes an array it only reads, and no host operation writes an argument. Where every input entry is a real
  number this is the layer-by-layer network.
-/
import proofs.«173976_g38912403702117_cont_8to1_b_1654_12_alg».proof.Proof.KI.Run
import proofs.«173976_g38912403702117_cont_8to1_b_1654_12_alg».proof.Proof.KI.Val0
import proofs.«173976_g38912403702117_cont_8to1_b_1654_12_alg».proof.Proof.KI.Val1
import proofs.«173976_g38912403702117_cont_8to1_b_1654_12_alg».proof.Proof.KI.Val2
import proofs.«173976_g38912403702117_cont_8to1_b_1654_12_alg».proof.Proof.KI.Val3
import proofs.«173976_g38912403702117_cont_8to1_b_1654_12_alg».proof.Proof.KI.Host
import proofs.«173976_g38912403702117_cont_8to1_b_1654_12_alg».proof.Proof.Algebra

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Spec

variable (m : (ℓ : Loc nD τ sig) → Buf (Elt Ideal) ℓ) (ρ : Dev nD → PrngReg) (c : Dev nD)

/-! ## An array a launch only reads is left as found -/

theorem W5_in (w : Fin cfg0.W) (hw : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hw _).trans (dat0_A (V4 m ρ) c w))
theorem W6_in (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (dat1_A (V5 m ρ) c w))
theorem W7_in (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (dat2_A (V6 m ρ) c w))

/-! ## What each launch is entered with -/

/-- The first launch finds the padded transposed features, the padded first weight matrix. -/
theorem V4_xt : (V4 m ρ c main_v4 : Mat 1536 10000) = padT (m ((c : Thread nD τ).loc main_arg0)) := host_xt (W0 m ρ c)
theorem V4_w1 : (V4 m ρ c main_v5 : Mat 1536 60) = padRows (m ((c : Thread nD τ).loc main_arg2)) := host_w1 (W0 m ρ c)

/-- The support the first launch leaves. -/
theorem V5_s : (V5 m ρ c main_v6 : Mat 10000 60) = supportPadded (padT (m ((c : Thread nD τ).loc main_arg0))) (padRows (m ((c : Thread nD τ).loc main_arg2))) := by
  have h := (W5_arr m ρ c 2).trans (reg0_support (V4 m ρ) c)
  rw [V4_xt, V4_w1] at h
  exact h

theorem V5_adj : V5 m ρ c main_arg1 = m ((c : Thread nD τ).loc main_arg1) :=
  (W5_of_ne m ρ c main_arg1 (by decide)).trans (host_arg1 (W0 m ρ c))
theorem V5_b1 : (V5 m ρ c main_v0 : Mat 1 60) = asRow (m ((c : Thread nD τ).loc main_arg3)) :=
  (W5_of_ne m ρ c main_v0 (by decide)).trans (host_b1 (W0 m ρ c))
theorem V5_W2 : V5 m ρ c main_arg4 = m ((c : Thread nD τ).loc main_arg4) :=
  (W5_of_ne m ρ c main_arg4 (by decide)).trans (host_arg4 (W0 m ρ c))
theorem V5_W3 : V5 m ρ c main_arg6 = m ((c : Thread nD τ).loc main_arg6) :=
  (W5_of_ne m ρ c main_arg6 (by decide)).trans (host_arg6 (W0 m ρ c))
theorem V5_b2 : (V5 m ρ c main_v1 : Mat 1 30) = asRow (m ((c : Thread nD τ).loc main_arg5)) :=
  (W5_of_ne m ρ c main_v1 (by decide)).trans (host_b2 (W0 m ρ c))
theorem V5_b3 : (V5 m ρ c main_v2 : Mat 1 7) = asRow (m ((c : Thread nD τ).loc main_arg7)) :=
  (W5_of_ne m ρ c main_v2 (by decide)).trans (host_b3 (W0 m ρ c))

/-- What the second launch leaves: the folded projection u and the adjacency's copy. -/
theorem V6_u : (V6 m ρ c main_v7_0 : Mat 10000 7)
    = foldedU (m ((c : Thread nD τ).loc main_arg1)) (supportPadded (padT (m ((c : Thread nD τ).loc main_arg0))) (padRows (m ((c : Thread nD τ).loc main_arg2))))
        (asRow (m ((c : Thread nD τ).loc main_arg3))) (m ((c : Thread nD τ).loc main_arg4)) (m ((c : Thread nD τ).loc main_arg6)) := by
  have h := (W6_arr m ρ c 5).trans (reg1_u (V5 m ρ) c)
  rw [V5_adj, V5_s, V5_b1, V5_W2, V5_W3] at h
  exact h
theorem V6_adj : (V6 m ρ c main_v7_1 : Mat 10000 10000) = (m ((c : Thread nD τ).loc main_arg1) : Mat 10000 10000) := by
  have h := (W6_arr m ρ c 6).trans (reg1_a16 (V5 m ρ) c)
  rw [V5_adj] at h
  exact h
theorem V6_W3 : V6 m ρ c main_arg6 = m ((c : Thread nD τ).loc main_arg6) :=
  (W6_in m ρ c 4 rfl).trans (V5_W3 m ρ c)
theorem V6_b2 : (V6 m ρ c main_v1 : Mat 1 30) = asRow (m ((c : Thread nD τ).loc main_arg5)) :=
  (W6_of_ne m ρ c main_v1 (by decide)).trans (V5_b2 m ρ c)
theorem V6_b3 : (V6 m ρ c main_v2 : Mat 1 7) = asRow (m ((c : Thread nD τ).loc main_arg7)) :=
  (W6_of_ne m ρ c main_v2 (by decide)).trans (V5_b3 m ρ c)

/-- What the third launch leaves. -/
theorem V7_t : (V7 m ρ c main_v8 : Mat 10000 7)
    = foldedT (m ((c : Thread nD τ).loc main_arg1))
        (foldedU (m ((c : Thread nD τ).loc main_arg1)) (supportPadded (padT (m ((c : Thread nD τ).loc main_arg0))) (padRows (m ((c : Thread nD τ).loc main_arg2))))
          (asRow (m ((c : Thread nD τ).loc main_arg3))) (m ((c : Thread nD τ).loc main_arg4)) (m ((c : Thread nD τ).loc main_arg6)))
        (asRow (m ((c : Thread nD τ).loc main_arg5))) (m ((c : Thread nD τ).loc main_arg6)) := by
  have h := (W7_arr m ρ c 4).trans (reg2_t (V6 m ρ) c)
  rw [V6_adj, V6_u, V6_b2, V6_W3] at h
  exact h
theorem V7_adj : (V7 m ρ c main_v7_1 : Mat 10000 10000) = (m ((c : Thread nD τ).loc main_arg1) : Mat 10000 10000) :=
  (W7_in m ρ c 0 rfl).trans (V6_adj m ρ c)
theorem V7_b3 : (V7 m ρ c main_v2 : Mat 1 7) = asRow (m ((c : Thread nD τ).loc main_arg7)) :=
  (W7_of_ne m ρ c main_v2 (by decide)).trans (V6_b3 m ρ c)

/-- The result buffer after the run, in the kernel's arrangement. -/
theorem out_kerNet : (W8 m ρ c (Proc.devRef .tc main_v9) : Mat 10000 7)
    = kerNet (m ((c : Thread nD τ).loc main_arg1)) (supportPadded (padT (m ((c : Thread nD τ).loc main_arg0))) (padRows (m ((c : Thread nD τ).loc main_arg2))))
        (asRow (m ((c : Thread nD τ).loc main_arg3))) (m ((c : Thread nD τ).loc main_arg4)) (asRow (m ((c : Thread nD τ).loc main_arg5)))
        (m ((c : Thread nD τ).loc main_arg6)) (asRow (m ((c : Thread nD τ).loc main_arg7))) := by
  have h := (W8_arr m ρ c 3).trans (reg3_out (V7 m ρ) c)
  rw [V7_adj, V7_t, V7_b3] at h
  exact h

/-- … and, every input entry a real number, in the reference's. -/
theorem out_refNet (hx : AllReal (m ((c : Thread nD τ).loc main_arg0))) (hadj : AllReal (m ((c : Thread nD τ).loc main_arg1)))
    (hW1 : AllReal (m ((c : Thread nD τ).loc main_arg2))) (hb1 : AllReal (m ((c : Thread nD τ).loc main_arg3)))
    (hW2 : AllReal (m ((c : Thread nD τ).loc main_arg4))) (hb2 : AllReal (m ((c : Thread nD τ).loc main_arg5)))
    (hW3 : AllReal (m ((c : Thread nD τ).loc main_arg6))) (hb3 : AllReal (m ((c : Thread nD τ).loc main_arg7))) :
    (W8 m ρ c (Proc.devRef .tc main_v9) : Mat 10000 7)
      = refNet (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) :=
  (out_kerNet m ρ c).trans (nets_agree _ _ _ _ _ _ _ _ hx hadj hW1 hb1 hW2 hb2 hW3 hb3)

end Cert.KernelIdeal.Hand

end
-- ==== Proof.Ref.lean ====
/-
  The reference's result, read index by index, is the layer-by-layer network. Each `dot_general` is a matrix product (the sum
  over the contracted coordinate of the products of the operands' entries); a bias broadcast to one row and then to every row,
  added, is the bias added to every row; the maximum with the zero constant is relu; and the closing stages are the row-wise
  log-softmax: the row maximum is the fold of `max` from −∞ over the row's seven entries (the maximum of −∞ and it is itself), the
  shifted row is exponentiated and summed from zero, and the logarithm of that sum is subtracted from the shifted entry.
-/
import proofs.«173976_g38912403702117_cont_8to1_b_1654_12_alg».proof.Proof.RefRun
import proofs.«173976_g38912403702117_cont_8to1_b_1654_12_alg».proof.Proof.RefRead
import proofs.«173976_g38912403702117_cont_8to1_b_1654_12_alg».proof.Proof.Spec
import Idealize.ShloMosaic.Lib.ValueIdx
import Idealize.ShloMosaic.PureOps.Reduce
import Idealize.ShloMosaic.PureOps.Ideal.Laws

noncomputable section

open scoped BigOperators

namespace Cert.ReferenceIdeal.RefSpec

open Cert.ReferenceIdeal Cert.ReferenceIdeal.Gen Idealize.ShloMosaic Idealize.ShloMosaic.ValueIdx Idealize.ShloMosaic.TcCoe Idealize.SL.Sem Idealize.ShloMosaic.StableHlo
open Cert.Spec (Mat Row)

variable (x0 : Mat 10000 1433) (x1 : Mat 10000 10000) (x2 : Mat 1433 60) (x3 : Row 60) (x4 : Mat 60 30) (x5 : Row 30)
  (x6 : Mat 30 7) (x7 : Row 7)

/-! ## The matrix products -/

/-- The support x · W1. -/
theorem support_eq : ReadP.val_main_v0 (F := Ideal) x0 x2 = Spec.mm x0 x2 := by
  funext i
  obtain ⟨p, q, rfl⟩ : ∃ (p : Fin 10000) (q : Fin 60), i = ix2 p q := ⟨i 0, i 1, eq_ix2 i⟩
  rw [ReadP.val_main_v0_apply, Spec.mm_apply]
  refine Finset.sum_congr rfl fun k _ => ?_
  have el : ReadP.lidx_main_v0 (ix2 p q) k = ix2 p k := funext fun a => Fin.ext (by match a with | ⟨0, _⟩ => rfl | ⟨1, _⟩ => rfl)
  have er : ReadP.ridx_main_v0 (ix2 p q) k = ix2 k q := funext fun a => Fin.ext (by match a with | ⟨0, _⟩ => rfl | ⟨1, _⟩ => rfl)
  rw [el, er]

/-- The first aggregation adj · (x · W1). -/
theorem agg1_eq : ReadP.val_main_v1 (F := Ideal) x0 x1 x2 = Spec.mm x1 (Spec.mm x0 x2) := by
  funext i
  obtain ⟨p, q, rfl⟩ : ∃ (p : Fin 10000) (q : Fin 60), i = ix2 p q := ⟨i 0, i 1, eq_ix2 i⟩
  rw [ReadP.val_main_v1_apply, support_eq, Spec.mm_apply]
  refine Finset.sum_congr rfl fun k _ => ?_
  have el : ReadP.lidx_main_v1 (ix2 p q) k = ix2 p k := funext fun a => Fin.ext (by match a with | ⟨0, _⟩ => rfl | ⟨1, _⟩ => rfl)
  have er : ReadP.ridx_main_v1 (ix2 p q) k = ix2 k q := funext fun a => Fin.ext (by match a with | ⟨0, _⟩ => rfl | ⟨1, _⟩ => rfl)
  rw [el, er]

/-- The first bias at every row. -/
theorem bias1_at (p : Fin 10000) (q : Fin 60) : ReadP.val_main_v3 (F := Ideal) x3 (ix2 p q) = x3 (ix1 q) := by
  rw [ReadP.val_main_v3_apply, ReadP.val_main_v2_apply]
  exact congrArg x3 (funext fun a => Fin.ext (by match a with | ⟨0, _⟩ => rfl))

/-- The first layer after its activation. -/
theorem layer1_eq : ReadP.val_main_v5 (F := Ideal) x0 x1 x2 x3 = Spec.layer1 x1 (Spec.mm x0 x2) x3 := by
  funext i
  obtain ⟨p, q, rfl⟩ : ∃ (p : Fin 10000) (q : Fin 60), i = ix2 p q := ⟨i 0, i 1, eq_ix2 i⟩
  rw [ReadP.val_main_v5_apply, ReadP.val_main_v4_apply, agg1_eq, bias1_at, ReadP.val_main_call0_v0_apply,
    ReadP.val_main_call0_cst_apply, Ideal.maximumf_def, Ideal.addf_def, Ideal.ofBits_def, Ideal.ofBits_zero_f32]
  rfl

/-- The second layer's projection. -/
theorem proj2_eq : ReadP.val_main_v6 (F := Ideal) x0 x1 x2 x3 x4 = Spec.mm (Spec.layer1 x1 (Spec.mm x0 x2) x3) x4 := by
  funext i
  obtain ⟨p, q, rfl⟩ : ∃ (p : Fin 10000) (q : Fin 30), i = ix2 p q := ⟨i 0, i 1, eq_ix2 i⟩
  rw [ReadP.val_main_v6_apply, layer1_eq, Spec.mm_apply]
  refine Finset.sum_congr rfl fun k _ => ?_
  have el : ReadP.lidx_main_v6 (ix2 p q) k = ix2 p k := funext fun a => Fin.ext (by match a with | ⟨0, _⟩ => rfl | ⟨1, _⟩ => rfl)
  have er : ReadP.ridx_main_v6 (ix2 p q) k = ix2 k q := funext fun a => Fin.ext (by match a with | ⟨0, _⟩ => rfl | ⟨1, _⟩ => rfl)
  rw [el, er]

/-- The second aggregation. -/
theorem agg2_eq : ReadP.val_main_v7 (F := Ideal) x0 x1 x2 x3 x4 = Spec.mm x1 (Spec.mm (Spec.layer1 x1 (Spec.mm x0 x2) x3) x4) := by
  funext i
  obtain ⟨p, q, rfl⟩ : ∃ (p : Fin 10000) (q : Fin 30), i = ix2 p q := ⟨i 0, i 1, eq_ix2 i⟩
  rw [ReadP.val_main_v7_apply, proj2_eq, Spec.mm_apply]
  refine Finset.sum_congr rfl fun k _ => ?_
  have el : ReadP.lidx_main_v7 (ix2 p q) k = ix2 p k := funext fun a => Fin.ext (by match a with | ⟨0, _⟩ => rfl | ⟨1, _⟩ => rfl)
  have er : ReadP.ridx_main_v7 (ix2 p q) k = ix2 k q := funext fun a => Fin.ext (by match a with | ⟨0, _⟩ => rfl | ⟨1, _⟩ => rfl)
  rw [el, er]

/-- The second bias at every row. -/
theorem bias2_at (p : Fin 10000) (q : Fin 30) : ReadP.val_main_v9 (F := Ideal) x5 (ix2 p q) = x5 (ix1 q) := by
  rw [ReadP.val_main_v9_apply, ReadP.val_main_v8_apply]
  exact congrArg x5 (funext fun a => Fin.ext (by match a with | ⟨0, _⟩ => rfl))

/-- The second layer (it has no activation). -/
theorem layer2_eq : ReadP.val_main_v10 (F := Ideal) x0 x1 x2 x3 x4 x5
    = Spec.addRow (Spec.mm x1 (Spec.mm (Spec.layer1 x1 (Spec.mm x0 x2) x3) x4)) x5 := by
  funext i
  obtain ⟨p, q, rfl⟩ : ∃ (p : Fin 10000) (q : Fin 30), i = ix2 p q := ⟨i 0, i 1, eq_ix2 i⟩
  rw [ReadP.val_main_v10_apply, agg2_eq, bias2_at, Ideal.addf_def, Spec.addRow_apply]

/-- The third layer's projection. -/
theorem proj3_eq : ReadP.val_main_v11 (F := Ideal) x0 x1 x2 x3 x4 x5 x6
    = Spec.mm (Spec.addRow (Spec.mm x1 (Spec.mm (Spec.layer1 x1 (Spec.mm x0 x2) x3) x4)) x5) x6 := by
  funext i
  obtain ⟨p, q, rfl⟩ : ∃ (p : Fin 10000) (q : Fin 7), i = ix2 p q := ⟨i 0, i 1, eq_ix2 i⟩
  rw [ReadP.val_main_v11_apply, layer2_eq, Spec.mm_apply]
  refine Finset.sum_congr rfl fun k _ => ?_
  have el : ReadP.lidx_main_v11 (ix2 p q) k = ix2 p k := funext fun a => Fin.ext (by match a with | ⟨0, _⟩ => rfl | ⟨1, _⟩ => rfl)
  have er : ReadP.ridx_main_v11 (ix2 p q) k = ix2 k q := funext fun a => Fin.ext (by match a with | ⟨0, _⟩ => rfl | ⟨1, _⟩ => rfl)
  rw [el, er]

/-- The third aggregation. -/
theorem agg3_eq : ReadP.val_main_v12 (F := Ideal) x0 x1 x2 x3 x4 x5 x6
    = Spec.mm x1 (Spec.mm (Spec.addRow (Spec.mm x1 (Spec.mm (Spec.layer1 x1 (Spec.mm x0 x2) x3) x4)) x5) x6) := by
  funext i
  obtain ⟨p, q, rfl⟩ : ∃ (p : Fin 10000) (q : Fin 7), i = ix2 p q := ⟨i 0, i 1, eq_ix2 i⟩
  rw [ReadP.val_main_v12_apply, proj3_eq, Spec.mm_apply]
  refine Finset.sum_congr rfl fun k _ => ?_
  have el : ReadP.lidx_main_v12 (ix2 p q) k = ix2 p k := funext fun a => Fin.ext (by match a with | ⟨0, _⟩ => rfl | ⟨1, _⟩ => rfl)
  have er : ReadP.ridx_main_v12 (ix2 p q) k = ix2 k q := funext fun a => Fin.ext (by match a with | ⟨0, _⟩ => rfl | ⟨1, _⟩ => rfl)
  rw [el, er]

/-- The third bias at every row. -/
theorem bias3_at (p : Fin 10000) (q : Fin 7) : ReadP.val_main_v14 (F := Ideal) x7 (ix2 p q) = x7 (ix1 q) := by
  rw [ReadP.val_main_v14_apply, ReadP.val_main_v13_apply]
  exact congrArg x7 (funext fun a => Fin.ext (by match a with | ⟨0, _⟩ => rfl))

/-- The third layer before the log-softmax. -/
theorem pre_eq : ReadP.val_main_v15 (F := Ideal) x0 x1 x2 x3 x4 x5 x6 x7
    = Spec.addRow (Spec.mm x1 (Spec.mm (Spec.addRow (Spec.mm x1 (Spec.mm (Spec.layer1 x1 (Spec.mm x0 x2) x3) x4)) x5) x6)) x7 := by
  funext i
  obtain ⟨p, q, rfl⟩ : ∃ (p : Fin 10000) (q : Fin 7), i = ix2 p q := ⟨i 0, i 1, eq_ix2 i⟩
  rw [ReadP.val_main_v15_apply, agg3_eq, bias3_at, Ideal.addf_def, Spec.addRow_apply]

/-! ## The log-softmax -/

/-- The bit pattern of −∞ denotes the least extended real. -/
theorem ofBits_negInf : Ideal.ofBits .f32 0xFF800000#32 = (⊥ : EReal) := by simp [Ideal.ofBits, Ideal.ieee]

theorem reduces_cols : S10000x7.Reduces [1] S10000 := by decide

/-- The reduced index `p` with column `k` put back is (p, k). -/
theorem lift_row (h : S10000x7.Reduces [1] S10000) (p : Fin 10000) (k : Fin (S10000x7.size 1)) :
    h.lift (ix1 p) k = ix2 p (⟨k.val, k.isLt⟩ : Fin 7) := by
  funext c; apply Fin.ext
  fin_cases c <;> rfl

/-- From −∞ the reduce with a maximum body along a row is the row's maximum. -/
theorem rowMax_at (H : FVec Ideal S10000x7 .f32) (p : Fin 10000) :
    (Host.reduce (FloatOps.maximumf (F := Ideal) (φ := .f32)) H (ReadP.val_main_call1_cst (F := Ideal)) reducesTo_S10000x7_S10000_d1 h_S_
      : FVec Ideal S10000 .f32) (ix1 p) = Spec.rowMax H p := by
  rw [Host.reduce_eq_fold_single FloatOps.maximumf H _ reducesTo_S10000x7_S10000_d1 reduces_cols h_S_]
  have hf : (H ∘ reduces_cols.lift (ix1 p)) = fun k : Fin 7 => H (ix2 p k) := funext fun k => congrArg H (lift_row reduces_cols p k)
  unfold Spec.rowMax
  refine Eq.trans ?_ (congrArg (fun b => Finset.fold max b (fun k : Fin 7 => H (ix2 p k)) (Finset.univ : Finset (Fin 7))) ofBits_negInf)
  exact congrArg (fun f => Finset.fold max (Ideal.ofBits .f32 0xFF800000#32) f (Finset.univ : Finset (Fin 7))) hf

/-- The maximum the reference subtracts: the maximum of −∞ and the row's maximum, which is the row's maximum. -/
theorem rowMax_eq (p : Fin 10000) : ReadP.val_main_call1_v2 (F := Ideal) x0 x1 x2 x3 x4 x5 x6 x7 (ix1 p)
    = Spec.rowMax (ReadP.val_main_v15 (F := Ideal) x0 x1 x2 x3 x4 x5 x6 x7) p := by
  rw [ReadP.val_main_call1_v2_apply, ReadP.val_main_call1_v1_apply, ReadP.val_main_call1_cst_0_apply, Ideal.maximumf_def, Ideal.ofBits_def,
    ofBits_negInf]
  unfold ReadP.val_main_call1_v0
  rw [rowMax_at]
  exact max_eq_right bot_le

/-- The shifted entry. -/
theorem shift_at (p : Fin 10000) (q : Fin 7) : ReadP.val_main_call1_v5 (F := Ideal) x0 x1 x2 x3 x4 x5 x6 x7 (ix2 p q)
    = ReadP.val_main_v15 (F := Ideal) x0 x1 x2 x3 x4 x5 x6 x7 (ix2 p q) - Spec.rowMax (ReadP.val_main_v15 (F := Ideal) x0 x1 x2 x3 x4 x5 x6 x7) p := by
  have e : ReadP.idx_main_call1_v3 (ReadP.idx_main_call1_v4 (ix2 p q)) = ix1 p := funext fun a => Fin.ext (by match a with | ⟨0, _⟩ => rfl)
  rw [ReadP.val_main_call1_v5_apply, ReadP.val_main_call1_v4_apply, ReadP.val_main_call1_v3_apply, e, rowMax_eq, Ideal.subf_def]

/-- The sum of the exponentials of the shifted row. -/
theorem expSum_at (p : Fin 10000) : ReadP.val_main_call1_v7 (F := Ideal) x0 x1 x2 x3 x4 x5 x6 x7 (ix1 p)
    = Spec.rowExpSum (ReadP.val_main_v15 (F := Ideal) x0 x1 x2 x3 x4 x5 x6 x7) p (Spec.rowMax (ReadP.val_main_v15 (F := Ideal) x0 x1 x2 x3 x4 x5 x6 x7) p) := by
  rw [ReadP.val_main_call1_v7_apply, ReadP.val_main_call1_cst_1_apply, Ideal.ofBits_def, Ideal.ofBits_zero_f32, zero_add]
  unfold Spec.rowExpSum
  refine Finset.sum_congr rfl fun k _ => ?_
  have e : ReadP.idx_main_call1_v7 (ix1 p) k = ix2 p k := funext fun a => Fin.ext (by match a with | ⟨0, _⟩ => rfl | ⟨1, _⟩ => rfl)
  rw [e, ReadP.val_main_call1_v6_apply, shift_at, Ideal.hostUnary_exp_def]

/-- The result at an index: the shifted entry minus the logarithm of the row's sum. -/
theorem result_at (p : Fin 10000) (q : Fin 7) : ReadP.val_main_v16 (F := Ideal) x0 x1 x2 x3 x4 x5 x6 x7 (ix2 p q)
    = Spec.logSoftmax (ReadP.val_main_v15 (F := Ideal) x0 x1 x2 x3 x4 x5 x6 x7) (ix2 p q) := by
  have e : ReadP.idx_main_call1_v8 (ReadP.idx_main_call1_v10 (ix2 p q)) = ix1 p := funext fun a => Fin.ext (by match a with | ⟨0, _⟩ => rfl)
  rw [ReadP.val_main_v16_apply, ReadP.val_main_call1_v10_apply, ReadP.val_main_call1_v9_apply, ReadP.val_main_call1_v8_apply, e, expSum_at,
    shift_at, Ideal.subf_def, Ideal.hostUnary_log_def, Spec.logSoftmax_apply]

/-! ## The reference is the specification -/

/-- The reference's result term is the layer-by-layer network of its eight argument arrays. -/
theorem ref_is_refNet (m : (ℓ : Loc nD τ sig) → Buf (Elt Ideal) ℓ) (c : Dev nD) :
    (Cert.ReferenceIdeal.ValueP.res_main_v16 (F := Ideal) m c : Cert.Spec.Mat 10000 7)
      = Cert.Spec.refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ReadP.val_main_v16_eq]
  funext i
  obtain ⟨p, q, rfl⟩ : ∃ (p : Fin 10000) (q : Fin 7), i = ix2 p q := ⟨i 0, i 1, eq_ix2 i⟩
  rw [result_at, pre_eq]
  rfl

end Cert.ReferenceIdeal.RefSpec

end
-- ==== Proof.Finite.lean ====
/-
  From the precondition to real entries, at the ideal instance.
  The precondition says of each of the eight arguments that every entry has absolute value below +∞, and conjoins the eight.
  An extended real whose absolute value max x (−x) is below ⊤ is neither ⊤ nor ⊥, hence a real number; so every argument is
  real-entried.
-/
import proofs.«173976_g38912403702117_cont_8to1_b_1654_12_alg».proof.Pre_finite_inputs
import proofs.«173976_g38912403702117_cont_8to1_b_1654_12_alg».proof.Proof.Spec
import proofs.«173976_g38912403702117_cont_8to1_b_1654_12_alg».proof.Proof.LibReal
import Idealize.ShloMosaic.Lib.ReduceAll
import Idealize.ShloMosaic.Lib.ValueIdx

noncomputable section

namespace Cert.Spec

open Idealize.ShloMosaic Idealize.ShloMosaic.ValueIdx Cert.Pre_finite_inputs

/-- The scalar shape has one index. -/
instance subsingleton_scalarIdx : Subsingleton S_.Idx := ⟨fun a b => funext fun d => d.elim0⟩

/-- The pattern 0x7F800000 denotes +∞. -/
theorem inf_bits_eq_top : Ideal.ofBits .f32 0x7F800000#32 = (⊤ : EReal) := by simp [Ideal.ofBits, Ideal.ieee]

/-- An ordered "less than" that came out 1 is the strict order. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- An extended real whose absolute value is below +∞ is a real number. -/
theorem exists_real_of_abs_lt_top {x : EReal} (h : max x (-x) < ⊤) : ∃ r : ℝ, x = (r : EReal) := by
  have h1 : x ≠ ⊤ := (lt_of_le_of_lt (le_max_left _ _) h).ne
  have h2 : x ≠ ⊥ := fun e => by
    have hr := lt_of_le_of_lt (le_max_right x (-x)) h
    rw [e, EReal.neg_bot] at hr
    exact lt_irrefl _ hr
  exact ⟨x.toReal, (EReal.coe_toReal h1 h2).symm⟩

/-- An array whose entries all compare below +∞ in absolute value, the comparisons reduced by "and" to 1, is real-entried. -/
theorem allReal_of_reduce {s : Shape} {axes : List (Fin s.rank)} (A : FVec Ideal s .f32)
    (hb : S_.BroadcastsInDim s (![] : Fin 0 → Fin s.rank)) (hr : s.ReducesTo axes S_) (hu : 0 < S_.numel)
    (e : Host.reduce IntOp.andi (cmpf .olt (Host.absf A) (broadcastInDim s ![] hb (constant (F := Ideal) S_ .f32 0x7F800000#32)))
        (constantI S_ 1 1#1) hr hu ix0 = 1#1) : AllReal A := by
  intro y
  have hy : Ideal.cmp .olt (max (A y) (-(A y))) (Ideal.ofBits .f32 0x7F800000#32) = 1#1 :=
    Host.reduce_andi_all _ _ hr hu ix0 e y
  have hlt := lt_of_cmp_olt hy
  rw [inf_bits_eq_top] at hlt
  exact exists_real_of_abs_lt_top hlt

theorem allReal_of_finite [Cert.Pre_finite_inputs.Facts] (a0 : FVec Ideal Cert.Pre_finite_inputs.S10000x1433 .f32)
    (a1 : FVec Ideal Cert.Pre_finite_inputs.S10000x10000 .f32) (a2 : FVec Ideal Cert.Pre_finite_inputs.S1433x60 .f32)
    (a3 : FVec Ideal Cert.Pre_finite_inputs.S60 .f32) (a4 : FVec Ideal Cert.Pre_finite_inputs.S60x30 .f32)
    (a5 : FVec Ideal Cert.Pre_finite_inputs.S30 .f32) (a6 : FVec Ideal Cert.Pre_finite_inputs.S30x7 .f32)
    (a7 : FVec Ideal Cert.Pre_finite_inputs.S7 .f32)
    (h : Cert.Pre_finite_inputs.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h38 := congrFun h ix0
  dsimp only [Cert.Pre_finite_inputs.fn, Cert.Pre_finite_inputs.fn_part1, Cert.Pre_finite_inputs.fn_part2] at h38
  obtain ⟨h33, r7⟩ := IntOp.andi_eq_one.1 h38
  obtain ⟨h28, r6⟩ := IntOp.andi_eq_one.1 h33
  obtain ⟨h23, r5⟩ := IntOp.andi_eq_one.1 h28
  obtain ⟨h18, r4⟩ := IntOp.andi_eq_one.1 h23
  obtain ⟨h13, r3⟩ := IntOp.andi_eq_one.1 h18
  obtain ⟨h8, r2⟩ := IntOp.andi_eq_one.1 h13
  obtain ⟨r0, r1⟩ := IntOp.andi_eq_one.1 h8
  exact ⟨allReal_of_reduce a0 _ _ _ r0, allReal_of_reduce a1 _ _ _ r1, allReal_of_reduce a2 _ _ _ r2,
    allReal_of_reduce a3 _ _ _ r3, allReal_of_reduce a4 _ _ _ r4, allReal_of_reduce a5 _ _ _ r5,
    allReal_of_reduce a6 _ _ _ r6, allReal_of_reduce a7 _ _ _ r7⟩

end Cert.Spec

end
-- ==== Proof.lean ====
/-
  The certificate: a three-layer graph convolution with a dense adjacency, computed by four launches — the support x·W1
  accumulated over chunks of padded feature rows; relu (adj·s + b1)·W2·W3 together with a narrower copy of the adjacency;
  adj·u + b2·W3; log_softmax (adj·t + b3) — against the layer-by-layer reference
  log_softmax (adj·((adj·(relu (adj·(x·W1) + b1)·W2) + b2)·W3) + b3).
  Each program runs to the end without a fault and leaves its arguments unchanged; the idealization rewrote nothing; and
  over the extended reals, on inputs every entry of which is finite, the two results agree entry by entry: the matrix
  product is associative and distributes over the added bias row wherever every entry is a real number, and the padded
  rows of the accumulated support contribute zero.
-/
import proofs.«173976_g38912403702117_cont_8to1_b_1654_12_alg».proof.Defs
import proofs.«173976_g38912403702117_cont_8to1_b_1654_12_alg».proof.Proof.Gen.Kernel
import proofs.«173976_g38912403702117_cont_8to1_b_1654_12_alg».proof.Proof.Gen.KernelIdeal
import proofs.«173976_g38912403702117_cont_8to1_b_1654_12_alg».proof.Proof.Gen.ReferenceIdeal
import proofs.«173976_g38912403702117_cont_8to1_b_1654_12_alg».proof.Proof.Gen.Pre_finite_inputs
import proofs.«173976_g38912403702117_cont_8to1_b_1654_12_alg».proof.Proof.K.Run
import proofs.«173976_g38912403702117_cont_8to1_b_1654_12_alg».proof.Proof.KI.Chain
import proofs.«173976_g38912403702117_cont_8to1_b_1654_12_alg».proof.Proof.Ref
import proofs.«173976_g38912403702117_cont_8to1_b_1654_12_alg».proof.Proof.Finite
import Idealize.ShloMosaic.Adequacy
import Idealize.ShloMosaic.Init

noncomputable section

namespace Cert.Proof

open Idealize.ShloMosaic Idealize.ShloMosaic.TcCoe Idealize.SL.Sem

/-- The bit-level program runs and keeps its arguments. -/
theorem frame_k : Cert.frame_Kernel := fun m ρ _ => Cert.Kernel.Hand.frame_all (F := Bits) m ρ

/-- The idealized program runs and keeps its arguments. -/
theorem frame_ki : Cert.frame_KernelIdeal := fun m ρ _ => Cert.KernelIdeal.Hand.frame_all (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Finite inputs are real-entried, on every device. -/
theorem real_inputs (m : (ℓ : Loc Cert.KernelIdeal.nD Cert.KernelIdeal.τ Cert.KernelIdeal.sig) → Buf (Elt Ideal) ℓ) (h : Cert.Pre_KernelIdeal m)
    (c : Dev Cert.KernelIdeal.nD) :
    Cert.Spec.AllReal (m ((c.tc : Thread Cert.KernelIdeal.nD Cert.KernelIdeal.τ).loc Cert.KernelIdeal.main_arg0))
      ∧ Cert.Spec.AllReal (m ((c.tc : Thread Cert.KernelIdeal.nD Cert.KernelIdeal.τ).loc Cert.KernelIdeal.main_arg1))
      ∧ Cert.Spec.AllReal (m ((c.tc : Thread Cert.KernelIdeal.nD Cert.KernelIdeal.τ).loc Cert.KernelIdeal.main_arg2))
      ∧ Cert.Spec.AllReal (m ((c.tc : Thread Cert.KernelIdeal.nD Cert.KernelIdeal.τ).loc Cert.KernelIdeal.main_arg3))
      ∧ Cert.Spec.AllReal (m ((c.tc : Thread Cert.KernelIdeal.nD Cert.KernelIdeal.τ).loc Cert.KernelIdeal.main_arg4))
      ∧ Cert.Spec.AllReal (m ((c.tc : Thread Cert.KernelIdeal.nD Cert.KernelIdeal.τ).loc Cert.KernelIdeal.main_arg5))
      ∧ Cert.Spec.AllReal (m ((c.tc : Thread Cert.KernelIdeal.nD Cert.KernelIdeal.τ).loc Cert.KernelIdeal.main_arg6))
      ∧ Cert.Spec.AllReal (m ((c.tc : Thread Cert.KernelIdeal.nD Cert.KernelIdeal.τ).loc Cert.KernelIdeal.main_arg7)) :=
  Cert.Spec.allReal_of_finite _ _ _ _ _ _ _ _ (h c)

/-- The two idealized programs end with the same result: both are the layer-by-layer network of the arguments. -/
theorem algebraic : Cert.algebraic_KernelIdeal_ReferenceIdeal := by
  intro m ρ m' ρ' hpre hagree
  refine ⟨fun c => Cert.Spec.refNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_all (F := Ideal) m ρ)
    obtain ⟨h0, h1, h2, h3, h4, h5, h6, h7⟩ := real_inputs m hpre c
    refine ⟨(h c _ (Cert.KernelIdeal.Hand.mem_uc Cert.KernelIdeal.main_v9 (by decide))).trans
        (Cert.KernelIdeal.Hand.out_refNet m ρ c h0 h1 h2 h3 h4 h5 h6 h7),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c)⟩
  · refine (θ_run Cert.ReferenceIdeal.defs _ _).mono (fun _ h c => ⟨(h c).1.trans ?_, (h c).2⟩)
      (Cert.ReferenceIdeal.ValueP.run (F := Ideal) m' ρ')
    rw [show Cert.ReferenceIdeal.ValueP.res_main_v16 (F := Ideal) m' c = _ from Cert.ReferenceIdeal.RefSpec.ref_is_refNet m' c,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
